-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.truncf_extf.Statement Cert.KernelIdeal.S1024x2048 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v31) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x1024 : Shape := ⟨2, ![262144, 1024]⟩
abbrev S262144 : Shape := ⟨1, ![262144]⟩
abbrev S64x1024 : Shape := ⟨2, ![64, 1024]⟩
abbrev S_ : Shape := ⟨0, ![]⟩

class Facts : Prop where
  bcast_S_S262144x1024 : S_.BroadcastsInDim S262144x1024 (![] : Fin 0 → Fin S262144x1024.rank)
  reducesTo_S262144x1024_S_d0_1 : S262144x1024.ReducesTo [0, 1] S_
  h_S_ : 0 < S_.numel
  bcast_S_S64x1024 : S_.BroadcastsInDim S64x1024 (![] : Fin 0 → Fin S64x1024.rank)
  reducesTo_S64x1024_S_d0_1 : S64x1024.ReducesTo [0, 1] S_

variable [Facts]

def fn {F : FTy → Type} [FloatOps F] (main_arg0 : FVec F S262144x1024 .f32) (main_arg1 : IVec S262144 32) (main_arg2 : FVec F S64x1024 .f32) : IVec S_ 1 :=
  let main_v0 : FVec F S262144x1024 .f32 := Host.absf main_arg0
  let main_cst : FVec F S_ .f32 := constant S_ .f32 0x7F800000#32
  let main_v1 : FVec F S262144x1024 .f32 := broadcastInDim S262144x1024 ![] bcast_S_S262144x1024 main_cst
  let main_v2 : IVec S262144x1024 1 := cmpf .olt main_v0 main_v1
  let main_c : IVec S_ 1 := constantI S_ 1 1#1
  let main_v3 : IVec S_ 1 := (fun x v => Host.reduce IntOp.andi x v reducesTo_S262144x1024_S_d0_1 h_S_) main_v2 main_c
  let main_v4 : FVec F S64x1024 .f32 := Host.absf main_arg2
  let main_cst_0 : FVec F S_ .f32 := constant S_ .f32 0x7F800000#32
  let main_v5 : FVec F S64x1024 .f32 := broadcastInDim S64x1024 ![] bcast_S_S64x1024 main_cst_0
  let main_v6 : IVec S64x1024 1 := cmpf .olt main_v4 main_v5
  let main_c_1 : IVec S_ 1 := constantI S_ 1 1#1
  let main_v7 : IVec S_ 1 := (fun x v => Host.reduce IntOp.andi x v reducesTo_S64x1024_S_d0_1 h_S_) main_v6 main_c_1
  let main_v8 : IVec S_ 1 := andi main_v3 main_v7
  main_v8
-- ==== Kernel.lean ====
abbrev S262144x1024 : Shape := ⟨2, ![262144, 1024]⟩
abbrev S262144 : Shape := ⟨1, ![262144]⟩
abbrev S64x1024 : Shape := ⟨2, ![64, 1024]⟩
abbrev S128x1x2048 : Shape := ⟨3, ![128, 1, 2048]⟩
abbrev S262144x64 : Shape := ⟨2, ![262144, 64]⟩
abbrev S2x1024x128 : Shape := ⟨3, ![2, 1024, 128]⟩
abbrev S2x1024x1 : Shape := ⟨3, ![2, 1024, 1]⟩
abbrev S2048x1024 : Shape := ⟨2, ![2048, 1024]⟩
abbrev S1x1x2048 : Shape := ⟨3, ![1, 1, 2048]⟩
abbrev S2048x64 : Shape := ⟨2, ![2048, 64]⟩
abbrev S1x1024x128 : Shape := ⟨3, ![1, 1024, 128]⟩
abbrev S1x1024x1 : Shape := ⟨3, ![1, 1024, 1]⟩
abbrev S1024x128 : Shape := ⟨2, ![1024, 128]⟩
abbrev S1024x1 : Shape := ⟨2, ![1024, 1]⟩
abbrev S2048 : Shape := ⟨1, ![2048]⟩
abbrev S2048x1 : Shape := ⟨2, ![2048, 1]⟩
abbrev S2048x128 : Shape := ⟨2, ![2048, 128]⟩
abbrev S1x2048 : Shape := ⟨2, ![1, 2048]⟩
abbrev S1024x2048 : Shape := ⟨2, ![1024, 2048]⟩
abbrev S1024 : Shape := ⟨1, ![1024]⟩
abbrev S_ : Shape := ⟨0, ![]⟩
abbrev S1024x64 : Shape := ⟨2, ![1024, 64]⟩

abbrev nBuf : Space → Nat
  | .hbm => 50
  | .vmem => 11
  | .smem => 0
  | _ => 0

abbrev bufTy : (tb : Table) → Fin (tcTables nBuf tb) → BufTy
  | .hbm, ⟨0, _⟩ => ⟨S262144x1024, .f32⟩
  | .hbm, ⟨1, _⟩ => ⟨S262144, .i32⟩
  | .hbm, ⟨2, _⟩ => ⟨S64x1024, .f32⟩
  | .hbm, ⟨3, _⟩ => ⟨S128x1x2048, .i32⟩
  | .hbm, ⟨4, _⟩ => ⟨S262144x64, .f32⟩
  | .hbm, ⟨5, _⟩ => ⟨S2x1024x128, .f32⟩
  | .hbm, ⟨6, _⟩ => ⟨S2x1024x1, .f32⟩
  | .hbm, ⟨7, _⟩ => ⟨S_, .f32⟩
  | .hbm, ⟨8, _⟩ => ⟨S1024x128, .f32⟩
  | .hbm, ⟨9, _⟩ => ⟨S_, .f32⟩
  | .hbm, ⟨10, _⟩ => ⟨S1024x1, .f32⟩
  | .hbm, ⟨11, _⟩ => ⟨S1024x64, .f32⟩
  | .hbm, ⟨12, _⟩ => ⟨S1024x64, .f32⟩
  | .hbm, ⟨13, _⟩ => ⟨S1024, .f32⟩
  | .hbm, ⟨14, _⟩ => ⟨S_, .f32⟩
  | .hbm, ⟨15, _⟩ => ⟨S1024, .f32⟩
  | .hbm, ⟨16, _⟩ => ⟨S1024, .f32⟩
  | .hbm, ⟨17, _⟩ => ⟨S1024x1, .f32⟩
  | .hbm, ⟨18, _⟩ => ⟨S1024x64, .f32⟩
  | .hbm, ⟨19, _⟩ => ⟨S1024x64, .f32⟩
  | .hbm, ⟨20, _⟩ => ⟨S1024x1, .f32⟩
  | .hbm, ⟨21, _⟩ => ⟨S1024x64, .f32⟩
  | .hbm, ⟨22, _⟩ => ⟨S1024x64, .f32⟩
  | .hbm, ⟨23, _⟩ => ⟨S1024x64, .f32⟩
  | .hbm, ⟨24, _⟩ => ⟨S1024x64, .f32⟩
  | .hbm, ⟨25, _⟩ => ⟨S_, .f32⟩
  | .hbm, ⟨26, _⟩ => ⟨S1024, .f32⟩
  | .hbm, ⟨27, _⟩ => ⟨S_, .f32⟩
  | .hbm, ⟨28, _⟩ => ⟨S1024, .f32⟩
  | .hbm, ⟨29, _⟩ => ⟨S1024, .f32⟩
  | .hbm, ⟨30, _⟩ => ⟨S_, .f32⟩
  | .hbm, ⟨31, _⟩ => ⟨S1024, .f32⟩
  | .hbm, ⟨32, _⟩ => ⟨S1024, .f32⟩
  | .hbm, ⟨33, _⟩ => ⟨S1024, .f32⟩
  | .hbm, ⟨34, _⟩ => ⟨S_, .f32⟩
  | .hbm, ⟨35, _⟩ => ⟨S1024, .f32⟩
  | .hbm, ⟨36, _⟩ => ⟨S1024, .i1⟩
  | .hbm, ⟨37, _⟩ => ⟨S_, .f32⟩
  | .hbm, ⟨38, _⟩ => ⟨S_, .f32⟩
  | .hbm, ⟨39, _⟩ => ⟨S1024, .f32⟩
  | .hbm, ⟨40, _⟩ => ⟨S1024, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S1024, .f32⟩
  | .hbm, ⟨45, _⟩ => ⟨S1024, .i1⟩
  | .hbm, ⟨46, _⟩ => ⟨S1024, .f32⟩
  | .hbm, ⟨47, _⟩ => ⟨S_, .f32⟩
  | .hbm, ⟨48, _⟩ => ⟨S_, .f32⟩
  | .hbm, ⟨49, _⟩ => ⟨S_, .f32⟩
  | .local _ .vmem, ⟨0, _⟩ => ⟨S2048x1024, .f32⟩
  | .local _ .vmem, ⟨1, _⟩ => ⟨S2048x1024, .f32⟩
  | .local _ .vmem, ⟨2, _⟩ => ⟨S64x1024, .f32⟩
  | .local _ .vmem, ⟨3, _⟩ => ⟨S1x1x2048, .i32⟩
  | .local _ .vmem, ⟨4, _⟩ => ⟨S1x1x2048, .i32⟩
  | .local _ .vmem, ⟨5, _⟩ => ⟨S2048x64, .f32⟩
  | .local _ .vmem, ⟨6, _⟩ => ⟨S2048x64, .f32⟩
  | .local _ .vmem, ⟨7, _⟩ => ⟨S1x1024x128, .f32⟩
  | .local _ .vmem, ⟨8, _⟩ => ⟨S1x1024x1, .f32⟩
  | .local _ .vmem, ⟨9, _⟩ => ⟨S1024x128, .f32⟩
  | .local _ .vmem, ⟨10, _⟩ => ⟨S1024x1, .f32⟩
  | _, _ => ⟨S262144x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_call0_v0 : Ref sig .tc := ⟨.hbm, 38, rfl⟩
abbrev main_call0_v1 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_cst_8 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_9 : Ref sig .tc := ⟨.hbm, 47, rfl⟩
abbrev main_v30 : Ref sig .tc := ⟨.hbm, 48, rfl⟩
abbrev main_v31 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨2, ![2, 64], ![false, false]⟩

def k0_cond2 (i : grid0.Coords) : BitVec 1 :=
  let arg1 : BitVec 32 := BitVec.ofNat 32 (i 1).val
  let c63_i32 : BitVec 32 := 63#32
  let v47 : BitVec 1 := Scalar.cmpi .eq arg1 c63_i32
  let v48 : BitVec 32 := Scalar.extui v47
  let c0_i32_22 : BitVec 32 := 0#32
  let v49 : BitVec 1 := Scalar.cmpi .ne v48 c0_i32_22
  v49

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x1024x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

class Facts₀ : Prop where
  shapeCasts_S262144_S128x1x2048 : S262144.ShapeCasts S128x1x2048
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S2048x1024_S2048x1024_0_0 : ∀ a, (![0, 0] : Fin 2 → Nat) a + S2048x1024.size a ≤ S2048x1024.size a
  h_S2048x1024 : 0 < S2048x1024.numel
  bitsLt_bf16_f32 : FTy.bits .bf16 < FTy.bits .f32
  inb_S64x1024_S64x1024_0_0 : ∀ a, (![0, 0] : Fin 2 → Nat) a + S64x1024.size a ≤ S64x1024.size a
  h_S64x1024 : 0 < S64x1024.numel
  reduces_S2048x64_S2048 : S2048x64.Reduces [1] S2048
  shapeCasts_S2048_S2048x1 : S2048.ShapeCasts S2048x1
  broadcasts_S2048x1_S2048x64 : S2048x1.Broadcasts S2048x64
  inb_S2048x64_S2048x64_0_0 : ∀ a, (![0, 0] : Fin 2 → Nat) a + S2048x64.size a ≤ S2048x64.size a
  h_S2048x64 : 0 < S2048x64.numel
  concatenates_S2048x64_S2048x64_S2048x128_d1 : Shape.Concatenates [S2048x64, S2048x64] S2048x128 1
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x1x2048 : S1x1x2048.ShapeCasts S1x1x2048
  shapeCasts_S1x1x2048_S1x2048 : S1x1x2048.ShapeCasts S1x2048
  iota_S1024x1_d0_w32 : S1024x1.Iotas .tc 32 [0]
  broadcasts_S1024x1_S1024x2048 : S1024x1.Broadcasts S1024x2048
  broadcasts_S1x2048_S1024x2048 : S1x2048.Broadcasts S1024x2048
  natLt_1_32 : 1 < 32
  reduces_S1024x2048_S1024 : S1024x2048.Reduces [1] S1024
  shapeCasts_S1024_S1024x1 : S1024.ShapeCasts S1024x1
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  shapeCasts_S1024x128_S1x1024x128 : S1024x128.ShapeCasts S1x1024x128
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  shapeCasts_S1024x1_S1x1024x1 : S1024x1.ShapeCasts S1x1024x1
  reducesTo_S2x1024x128_S1024x128_d0 : S2x1024x128.ReducesTo [0] S1024x128
  h_S_ : 0 < S_.numel
  reducesTo_S2x1024x1_S1024x1_d0 : S2x1024x1.ReducesTo [0] S1024x1
  slices_S1024x128_S1024x64_0_0 : S1024x128.Slices ![0, 0] S1024x64
  slices_S1024x128_S1024x64_0_64 : S1024x128.Slices ![0, 64] S1024x64
  shapeCasts_S1024x1_S1024 : S1024x1.ShapeCasts S1024
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x64_0_1 : S1024x1.BroadcastsInDim S1024x64 (![0, 1] : Fin 2 → Fin S1024x64.rank)
  reducesTo_S1024x64_S1024_d1 : S1024x64.ReducesTo [1] S1024
  reducesTo_S1024_S_d0 : S1024.ReducesTo [0] S_
  dot_S2048x1024_S64x1024_S2048x64_1_1_0_0_n_n_wf : DotDims.WF S2048x1024 S64x1024 S2048x64 [1] [1] [0] [0] [] []
  dot_S1024x2048_S2048x128_S1024x128_1_0_0_1_n_n_wf : DotDims.WF S1024x2048 S2048x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S262144x1024.size a
  hwx0_0 : ∀ i : grid0.Coords, EltTy.bits .f32 = 32 ∨ (Rect.block (s := S262144x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x1024.size a ≤ S64x1024.size a
  hwx0_1 : ∀ i : grid0.Coords, EltTy.bits .f32 = 32 ∨ (Rect.block (s := S64x1024) S64x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048.size a ≤ S128x1x2048.size a
  hwx0_2 : ∀ i : grid0.Coords, EltTy.bits .i32 = 32 ∨ (Rect.block (s := S128x1x2048) S1x1x2048.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x64.size a ≤ S262144x64.size a
  hwx0_3 : ∀ i : grid0.Coords, EltTy.bits .f32 = 32 ∨ (Rect.block (s := S262144x64) S2048x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024x128.size a ≤ S2x1024x128.size a
  hwx0_4 : ∀ i : grid0.Coords, EltTy.bits .f32 = 32 ∨ (Rect.block (s := S2x1024x128) S1x1024x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024x1.size a ≤ S2x1024x1.size a
  hwx0_5 : ∀ i : grid0.Coords, EltTy.bits .f32 = 32 ∨ (Rect.block (s := S2x1024x1) S1x1024x1.size (cc0_transform_5 i) (hinb0_5 i)).WholeWords (EltTy.packing .f32)

variable [Facts₀]

def dot_S2048x1024_S64x1024_S2048x64_1_1_0_0_n_n : DotDims S2048x1024 S64x1024 S2048x64 where
  lhsContracting := [1]
  rhsContracting := [1]
  lhsNonContracting := [0]
  rhsNonContracting := [0]
  lhsBatch := []
  rhsBatch := []
  wf := dot_S2048x1024_S64x1024_S2048x64_1_1_0_0_n_n_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S2048x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S1x1024x128.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1_2) S1x1024x1.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S262144x1024 : Shape := ⟨2, ![262144, 1024]⟩
abbrev S262144 : Shape := ⟨1, ![262144]⟩
abbrev S64x1024 : Shape := ⟨2, ![64, 1024]⟩
abbrev S262144x64 : Shape := ⟨2, ![262144, 64]⟩
abbrev S_ : Shape := ⟨0, ![]⟩
abbrev S262144x1 : Shape := ⟨2, ![262144, 1]⟩
abbrev S1024x64 : Shape := ⟨2, ![1024, 64]⟩
abbrev S1024x1 : Shape := ⟨2, ![1024, 1]⟩
abbrev S1024 : Shape := ⟨1, ![1024]⟩

abbrev nBuf : Space → Nat
  | .hbm => 67
  | .vmem => 0
  | .smem => 0
  | _ => 0

abbrev bufTy : (tb : Table) → Fin (tcTables nBuf tb) → BufTy
  | .hbm, ⟨0, _⟩ => ⟨S262144x1024, .f32⟩
  | .hbm, ⟨1, _⟩ => ⟨S262144, .i32⟩
  | .hbm, ⟨2, _⟩ => ⟨S64x1024, .f32⟩
  | .hbm, ⟨3, _⟩ => ⟨S262144x64, .f32⟩
  | .hbm, ⟨4, _⟩ => ⟨S_, .f32⟩
  | .hbm, ⟨5, _⟩ => ⟨S262144, .f32⟩
  | .hbm, ⟨6, _⟩ => ⟨S_, .f32⟩
  | .hbm, ⟨7, _⟩ => ⟨S262144, .f32⟩
  | .hbm, ⟨8, _⟩ => ⟨S262144, .f32⟩
  | .hbm, ⟨9, _⟩ => ⟨S262144x1, .f32⟩
  | .hbm, ⟨10, _⟩ => ⟨S262144x64, .f32⟩
  | .hbm, ⟨11, _⟩ => ⟨S262144x64, .f32⟩
  | .hbm, ⟨12, _⟩ => ⟨S262144x64, .f32⟩
  | .hbm, ⟨13, _⟩ => ⟨S_, .f32⟩
  | .hbm, ⟨14, _⟩ => ⟨S262144, .f32⟩
  | .hbm, ⟨15, _⟩ => ⟨S262144x1, .f32⟩
  | .hbm, ⟨16, _⟩ => ⟨S262144x64, .f32⟩
  | .hbm, ⟨17, _⟩ => ⟨S262144x64, .f32⟩
  | .hbm, ⟨18, _⟩ => ⟨S_, .f32⟩
  | .hbm, ⟨19, _⟩ => ⟨S1024x64, .f32⟩
  | .hbm, ⟨20, _⟩ => ⟨S262144x1, .i32⟩
  | .hbm, ⟨21, _⟩ => ⟨S1024x64, .f32⟩
  | .hbm, ⟨22, _⟩ => ⟨S262144x64, .f32⟩
  | .hbm, ⟨23, _⟩ => ⟨S_, .f32⟩
  | .hbm, ⟨24, _⟩ => ⟨S1024x64, .f32⟩
  | .hbm, ⟨25, _⟩ => ⟨S262144x1, .i32⟩
  | .hbm, ⟨26, _⟩ => ⟨S1024x64, .f32⟩
  | .hbm, ⟨27, _⟩ => ⟨S262144x1, .f32⟩
  | .hbm, ⟨28, _⟩ => ⟨S_, .f32⟩
  | .hbm, ⟨29, _⟩ => ⟨S262144x1, .f32⟩
  | .hbm, ⟨30, _⟩ => ⟨S_, .f32⟩
  | .hbm, ⟨31, _⟩ => ⟨S1024x1, .f32⟩
  | .hbm, ⟨32, _⟩ => ⟨S262144x1, .i32⟩
  | .hbm, ⟨33, _⟩ => ⟨S1024x1, .f32⟩
  | .hbm, ⟨34, _⟩ => ⟨S_, .f32⟩
  | .hbm, ⟨35, _⟩ => ⟨S1024x1, .f32⟩
  | .hbm, ⟨36, _⟩ => ⟨S1024x1, .f32⟩
  | .hbm, ⟨37, _⟩ => ⟨S1024x64, .f32⟩
  | .hbm, ⟨38, _⟩ => ⟨S1024x64, .f32⟩
  | .hbm, ⟨39, _⟩ => ⟨S1024x64, .f32⟩
  | .hbm, ⟨40, _⟩ => ⟨S1024x64, .f32⟩
  | .hbm, ⟨41, _⟩ => ⟨S1024x64, .f32⟩
  | .hbm, ⟨42, _⟩ => ⟨S1024x64, .f32⟩
  | .hbm, ⟨43, _⟩ => ⟨S_, .f32⟩
  | .hbm, ⟨44, _⟩ => ⟨S1024, .f32⟩
  | .hbm, ⟨45, _⟩ => ⟨S1024, .f32⟩
  | .hbm, ⟨46, _⟩ => ⟨S1024, .f32⟩
  | .hbm, ⟨47, _⟩ => ⟨S_, .f32⟩
  | .hbm, ⟨48, _⟩ => ⟨S1024, .f32⟩
  | .hbm, ⟨49, _⟩ => ⟨S1024, .f32⟩
  | .hbm, ⟨50, _⟩ => ⟨S1024, .f32⟩
  | .hbm, ⟨51, _⟩ => ⟨S_, .f32⟩
  | .hbm, ⟨52, _⟩ => ⟨S1024, .f32⟩
  | .hbm, ⟨53, _⟩ => ⟨S1024, .i1⟩
  | .hbm, ⟨54, _⟩ => ⟨S_, .f32⟩
  | .hbm, ⟨55, _⟩ => ⟨S_, .f32⟩
  | .hbm, ⟨56, _⟩ => ⟨S1024, .f32⟩
  | .hbm, ⟨57, _⟩ => ⟨S1024, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S1024, .f32⟩
  | .hbm, ⟨62, _⟩ => ⟨S1024, .i1⟩
  | .hbm, ⟨63, _⟩ => ⟨S1024, .f32⟩
  | .hbm, ⟨64, _⟩ => ⟨S_, .f32⟩
  | .hbm, ⟨65, _⟩ => ⟨S_, .f32⟩
  | .hbm, ⟨66, _⟩ => ⟨S_, .f32⟩
  | _, _ => ⟨S262144x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_7 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_8 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_9 : Ref sig .tc := ⟨.hbm, 51, rfl⟩
abbrev main_v38 : Ref sig .tc := ⟨.hbm, 52, rfl⟩
abbrev main_v39 : Ref sig .tc := ⟨.hbm, 53, rfl⟩
abbrev main_cst_10 : Ref sig .tc := ⟨.hbm, 54, rfl⟩
abbrev main_call0_v0 : Ref sig .tc := ⟨.hbm, 55, rfl⟩
abbrev main_call0_v1 : Ref sig .tc := ⟨.hbm, 56, rfl⟩
abbrev main_v40 : Ref sig .tc := ⟨.hbm, 57, rfl⟩
abbrev main_cst_11 : Ref sig .tc := ⟨.hbm, 58, rfl⟩
abbrev main_v41 : Ref sig .tc := ⟨.hbm, 59, rfl⟩
abbrev main_cst_12 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_13 : Ref sig .tc := ⟨.hbm, 64, rfl⟩
abbrev main_v45 : Ref sig .tc := ⟨.hbm, 65, rfl⟩
abbrev main_v46 : Ref sig .tc := ⟨.hbm, 66, rfl⟩

abbrev nD : Nat := 1
abbrev τ : Topo := Topo.v7x

variable {F : FTy → Type} [FloatOps F]

class Facts₀ : Prop where
  reducesTo_S262144x64_S262144_d1 : S262144x64.ReducesTo [1] S262144
  h_S_ : 0 < S_.numel
  bcast_S_S262144 : S_.BroadcastsInDim S262144 (![] : Fin 0 → Fin S262144.rank)
  bcast_S262144_S262144x1_0 : S262144.BroadcastsInDim S262144x1 (![0] : Fin 1 → Fin S262144x1.rank)
  bcast_S262144x1_S262144x64_0_1 : S262144x1.BroadcastsInDim S262144x64 (![0, 1] : Fin 2 → Fin S262144x64.rank)
  bcast_S_S1024x64 : S_.BroadcastsInDim S1024x64 (![] : Fin 0 → Fin S1024x64.rank)
  slices_S262144x64_S262144x1_0_0 : S262144x64.Slices ![0, 0] S262144x1
  bcast_S_S262144x1 : S_.BroadcastsInDim S262144x1 (![] : Fin 0 → Fin S262144x1.rank)
  bcast_S_S1024x1 : S_.BroadcastsInDim S1024x1 (![] : Fin 0 → Fin S1024x1.rank)
  bcast_S1024x1_S1024x64_0_1 : S1024x1.BroadcastsInDim S1024x64 (![0, 1] : Fin 2 → Fin S1024x64.rank)
  reducesTo_S1024x64_S1024_d1 : S1024x64.ReducesTo [1] S1024
  shapeCasts_S1024x1_S1024 : S1024x1.ShapeCasts S1024
  bcast_S_S1024 : S_.BroadcastsInDim S1024 (![] : Fin 0 → Fin S1024.rank)
  reducesTo_S1024_S_d0 : S1024.ReducesTo [0] S_
  dot_S262144x1024_S64x1024_S262144x64_1_1_0_0_n_n_wf : DotDims.WF S262144x1024 S64x1024 S262144x64 [1] [1] [0] [0] [] []
  scatter_S1024x64_S262144x1_S262144x64_1_0_0_1_wf : ScatterDims.WF S1024x64 S262144x1 S262144x64 [1] [0] [0] 1
  scatter_S1024x1_S262144x1_S262144x1_1_0_0_1_wf : ScatterDims.WF S1024x1 S262144x1 S262144x1 [1] [0] [0] 1

variable [Facts₀]

def dot_S262144x1024_S64x1024_S262144x64_1_1_0_0_n_n : DotDims S262144x1024 S64x1024 S262144x64 where
  lhsContracting := [1]
  rhsContracting := [1]
  lhsNonContracting := [0]
  rhsNonContracting := [0]
  lhsBatch := []
  rhsBatch := []
  wf := dot_S262144x1024_S64x1024_S262144x64_1_1_0_0_n_n_wf
def scatter_S1024x64_S262144x1_S262144x64_1_0_0_1 : ScatterDims S1024x64 S262144x1 S262144x64 where
  updateWindowDims := [1]
  insertedWindowDims := [0]
  scatterDimsToOperandDims := [0]
  indexVectorDim := 1
  wf := scatter_S1024x64_S262144x1_S262144x64_1_0_0_1_wf
def scatter_S1024x1_S262144x1_S262144x1_1_0_0_1 : ScatterDims S1024x1 S262144x1 S262144x1 where
  updateWindowDims := [1]
  insertedWindowDims := [0]
  scatterDimsToOperandDims := [0]
  indexVectorDim := 1
  wf := scatter_S1024x1_S262144x1_S262144x1_1_0_0_1_wf

class Facts : Prop extends Facts₀ where

variable [Facts]
-- ==== Proof.Spec.lean ====
/-
  The mathematics both programs compute, stated once over the extended reals.

  A gate weight: row `n` of `x` against every row of `W_gate` gives 64 logits; the weight of expert `e` is the
  softmax of that row at `e`: the exponential of the logit less the row's maximum, over the sum of those exponentials.
  A segment sum: the sum of a per-row quantity over the rows whose document number, read signed, is `d`; a row whose
  number is outside `0 … 1023` lands in no segment.  Per document: with `n = max(count, 1)` and centroid
  `c_e = S1_e / n`, the sum of squared deviations is `Σ_e (S2_e − n · c_e · c_e)`.  The penalty is what one fixed chain
  of host operations makes of the vector of those sums, the vector of `n` and the vector of counts.
-/
import Idealize.ShloMosaic.PureOps.Ideal
import Idealize.ShloMosaic.Lib.ValueIdx

noncomputable section

open scoped BigOperators

namespace Cert.Spec

open Idealize.ShloMosaic Idealize.ShloMosaic.ValueIdx

/-- Minus infinity, as the pattern both programs start a maximum from. -/
abbrev negInf : EReal := Ideal.ofBits .f32 0xFF800000#32
/-- Zero, one and sixty-four as the patterns both programs print. -/
abbrev zeroE : EReal := Ideal.ofBits .f32 0x00000000#32
abbrev oneE : EReal := Ideal.ofBits .f32 0x3F800000#32
abbrev sixtyFourE : EReal := Ideal.ofBits .f32 0x42800000#32

/-- The maximum of a row of 64 entries, from minus infinity (and once more against minus infinity, as both programs do). -/
def rowMax (r : Fin 64 → EReal) : EReal := max negInf ((Finset.univ : Finset (Fin 64)).fold max negInf r)

/-- The softmax of a row of 64 logits at entry `e`. -/
def smx (r : Fin 64 → EReal) (e : Fin 64) : EReal :=
  Ideal.div (Ideal.exp (r e - rowMax r)) (∑ e' : Fin 64, Ideal.exp (r e' - rowMax r))

/-- The logit of row `n` of `X` (any number of rows) against row `e` of the gate matrix: their inner product over 1024 columns. -/
def logit {N : ℕ} (X : (⟨2, ![N, 1024]⟩ : Shape).Idx → EReal) (Wg : (⟨2, ![64, 1024]⟩ : Shape).Idx → EReal)
    (n : Fin N) (e : Fin 64) : EReal :=
  ∑ k : Fin 1024, X (ix2 n k) * Wg (ix2 e k)

/-- The gate weight of row `n` for expert `e`. -/
def gate {N : ℕ} (X : (⟨2, ![N, 1024]⟩ : Shape).Idx → EReal) (Wg : (⟨2, ![64, 1024]⟩ : Shape).Idx → EReal)
    (n : Fin N) (e : Fin 64) : EReal :=
  smx (logit X Wg n) e

/-- The gate weights as an array `[N, 64]`. -/
def gateArr {N : ℕ} (X : (⟨2, ![N, 1024]⟩ : Shape).Idx → EReal) (Wg : (⟨2, ![64, 1024]⟩ : Shape).Idx → EReal) :
    (⟨2, ![N, 64]⟩ : Shape).Idx → EReal :=
  fun i => gate X Wg (i 0) (i 1)

/-- Row `n` belongs to document `d`: its number, read as a signed integer, is `d`. -/
abbrev inDoc (D : Fin 262144 → BitVec 32) (d : Fin 1024) (n : Fin 262144) : Prop := (D n).toInt = (d.val : Int)

/-- The sum of `f` over the rows of document `d`. -/
def seg (D : Fin 262144 → BitVec 32) (f : Fin 262144 → EReal) (d : Fin 1024) : EReal :=
  ∑ n : Fin 262144, if inDoc D d n then f n else 0

/-- The document numbers of the rank-1 input as a function of the row. -/
abbrev docOf (D : (⟨1, ![262144]⟩ : Shape).Idx → BitVec 32) : Fin 262144 → BitVec 32 := fun n => D (ix1 n)

/-- Per document and expert: the sum of the weights, of their squares; per document the number of rows. -/
def S1 (w : Fin 262144 → Fin 64 → EReal) (D : Fin 262144 → BitVec 32) (d : Fin 1024) (e : Fin 64) : EReal :=
  seg D (fun n => w n e) d
def S2 (w : Fin 262144 → Fin 64 → EReal) (D : Fin 262144 → BitVec 32) (d : Fin 1024) (e : Fin 64) : EReal :=
  seg D (fun n => w n e * w n e) d
def cnt (D : Fin 262144 → BitVec 32) (d : Fin 1024) : EReal := seg D (fun _ => oneE) d

/-- `max(count, 1)`. -/
def safeN (C : Fin 1024 → EReal) (d : Fin 1024) : EReal := max (C d) oneE

/-- The sum of squared deviations of document `d`, by the difference formula. -/
def ssd (A B : Fin 1024 → Fin 64 → EReal) (C : Fin 1024 → EReal) (d : Fin 1024) : EReal :=
  zeroE + ∑ e : Fin 64, (B d e - safeN C d * Ideal.div (A d e) (safeN C d) * Ideal.div (A d e) (safeN C d))

/-- The same, never below zero (the kernel's form). -/
def ssdClamped (A B : Fin 1024 → Fin 64 → EReal) (C : Fin 1024 → EReal) (d : Fin 1024) : EReal :=
  max (ssd A B C d) zeroE

abbrev V1024 : Shape := ⟨1, ![1024]⟩
abbrev V0 : Shape := ⟨0, ![]⟩

/-- A function of the document as a rank-1 vector. -/
abbrev vec (f : Fin 1024 → EReal) : V1024.Idx → EReal := fun i => f (i 0)

/-! ## One block of 2048 rows -/

/-- A block's document numbers as the kernel sees them: a `[1, 1, 2048]` array. -/
abbrev B2048 : Shape := ⟨3, ![1, 1, 2048]⟩

/-- Row `r` of a block belongs to document `d`: the block's number for the row, read signed, is `d`. -/
abbrev hit (x2 : B2048.Idx → BitVec 32) (d : Fin 1024) (r : Fin 2048) : Prop :=
  (x2 (ix3 (0 : Fin 1) (0 : Fin 1) r)).toInt = (d.val : Int)

/-- A block's sum of `f` over its rows of document `d`. -/
def blockSeg (x2 : B2048.Idx → BitVec 32) (f : Fin 2048 → EReal) (d : Fin 1024) : EReal :=
  ∑ r : Fin 2048, if hit x2 d r then f r else 0

/-- Row `r` of block `i` of core `b`, among the 262144 rows: blocks of 2048 rows, 64 blocks to a core. -/
def rowOf (b : Fin 2) (i : Fin 64) (r : Fin 2048) : Fin 262144 :=
  ⟨(b.val * 64 + i.val) * 2048 + r.val, by have := b.isLt; have := i.isLt; have := r.isLt; omega⟩

/-- One core's part of a segment sum: over its 64 blocks of 2048 rows. -/
def coreSeg (D : Fin 262144 → BitVec 32) (f : Fin 262144 → EReal) (b : Fin 2) (d : Fin 1024) : EReal :=
  ∑ i : Fin 64, ∑ r : Fin 2048, if inDoc D d (rowOf b i r) then f (rowOf b i r) else 0

/-! ## The penalty from the per-document vectors

Both programs end with the same chain of host operations on three vectors of length 1024: the sums of squared
deviations, `max(count, 1)` and the counts.  Per document the mean squared deviation is the sum over `max(count, 1) · 64`;
it is kept where the count is above one and replaced by zero elsewhere; the kept values are added up and divided by the
number of documents whose count is above zero. -/

/-- The penalty as that chain of operations on the three vectors. -/
def tailFn (ssdV safeV cntV : V1024.Idx → EReal) : V0.Idx → EReal :=
  Host.divf (F := Ideal) (φ := .f32)
    (Host.reduceAdd (F := Ideal) (φ := .f32) (s := V1024) (axes := [0]) (t := V0) (u := V0)
      (select
        (cmpf (F := Ideal) (φ := .f32) .ogt cntV
          (broadcastInDim V1024 ![] (by decide) (constant (F := Ideal) V0 .f32 0x3F800000#32)))
        (Host.divf (F := Ideal) (φ := .f32) ssdV
          (mulf (F := Ideal) (φ := .f32) safeV (broadcastInDim V1024 ![] (by decide) (constant (F := Ideal) V0 .f32 0x42800000#32))))
        (broadcastInDim V1024 ![] (by decide) (id (constant (F := Ideal) V0 .f32 0x00000000#32))))
      (constant (F := Ideal) V0 .f32 0x00000000#32) (by decide) (by decide))
    (Host.reduceAdd (F := Ideal) (φ := .f32) (s := V1024) (axes := [0]) (t := V0) (u := V0)
      (uitofp (F := Ideal) .f32
        (cmpf (F := Ideal) (φ := .f32) .ogt cntV
          (broadcastInDim V1024 ![] (by decide) (constant (F := Ideal) V0 .f32 0x00000000#32))))
      (constant (F := Ideal) V0 .f32 0x00000000#32) (by decide) (by decide))

/-- The penalty of the reference: from the sums of squared deviations as they are. -/
def penalty (A B : Fin 1024 → Fin 64 → EReal) (C : Fin 1024 → EReal) : V0.Idx → EReal :=
  tailFn (vec (ssd A B C)) (vec (safeN C)) (vec C)

/-- The penalty of the kernel: from the sums of squared deviations kept at or above zero. -/
def penaltyClamped (A B : Fin 1024 → Fin 64 → EReal) (C : Fin 1024 → EReal) : V0.Idx → EReal :=
  tailFn (vec (ssdClamped A B C)) (vec (safeN C)) (vec C)

end Cert.Spec

end
-- ==== Proof.KArgs.lean ====
/-
  Names for the kernel's arguments and for a grid point's input blocks, at their literal types.

  The grid is 2 cores by 64 steps; point `64 b + i` is step `i` of core `b` and sees block `64 b + i` of 2048 rows of
  `x` and of the document numbers, and the whole gate matrix.
-/
import proofs.«427083_j32899449487922_3_alg».proof.Proof.Gen.KernelIdeal.Frame
import proofs.«427083_j32899449487922_3_alg».proof.Proof.Spec
set_option maxRecDepth 16384

noncomputable section

open scoped BigOperators

namespace Cert.KernelIdeal.Args

open Cert.KernelIdeal Cert.KernelIdeal.Gen
open Idealize.ShloMosaic Idealize.ShloMosaic.TcCoe Idealize.SL.Sem Idealize.ShloMosaic.ValueIdx Cert.Spec

variable (m : (ℓ : Loc nD τ sig) → Buf (Elt Ideal) ℓ)

/-- The three argument arrays as functions on their index sets. -/
abbrev argX (c : Dev nD) : S262144x1024.Idx → EReal := m ((c.tc : Thread nD τ).loc main_arg0)
abbrev argD (c : Dev nD) : S262144.Idx → BitVec 32 := m ((c.tc : Thread nD τ).loc main_arg1)
abbrev argW (c : Dev nD) : S64x1024.Idx → EReal := m ((c.tc : Thread nD τ).loc main_arg2)

/-- The gate weights and the document numbers the specification is stated over. -/
abbrev wOf (c : Dev nD) : Fin 262144 → Fin 64 → EReal := gate (argX m c) (argW m c)
abbrev dOf (c : Dev nD) : Fin 262144 → BitVec 32 := docOf (argD m c)

/-- A grid point's three input blocks. -/
abbrev xblk (c : Dev nD) (t : Fin cfg0.N) : Vec Ideal S2048x1024 .f32 := iblk m c 0 t
abbrev gblk (c : Dev nD) (t : Fin cfg0.N) : Vec Ideal S64x1024 .f32 := iblk m c 1 t
abbrev dblk (c : Dev nD) (t : Fin cfg0.N) : Vec Ideal S1x1x2048 .i32 := iblk m c 2 t

/-- Step `i` of core `b` is a grid point. -/
theorem pt_lt (b : Fin 2) (i : Fin 64) : b.val * 64 + i.val < cfg0.N := by
  have h : cfg0.N = 128 := N_0
  have := b.isLt; have := i.isLt
  omega

/-- Step `i` of core `b` as a grid point. -/
abbrev pt (b : Fin 2) (i : Fin 64) : Fin cfg0.N := ⟨b.val * 64 + i.val, pt_lt b i⟩

end Cert.KernelIdeal.Args

end
-- ==== Proof.KPieces.lean ====
/-
  What each control case of the body leaves in the outputs' staging buffers and in the two accumulators carried from
  point to point, as the body's arithmetic applied to the point's input blocks and to what the point before left.
  A core's 64 points form a stretch: the first resets the accumulators, every point adds to them, the last copies them out.
-/
import proofs.«427083_j32899449487922_3_alg».proof.Proof.Gen.KernelIdeal.Frame
import Idealize.ShloMosaic.Lib.Pipeline.Value

set_option maxRecDepth 16384

noncomputable section

namespace Cert.KernelIdeal.Pieces

open Cert.KernelIdeal Cert.KernelIdeal.Gen
open Idealize.ShloMosaic Idealize.ShloMosaic.TcCoe Idealize.ShloMosaic.Tactic
open Idealize.SL Idealize.SL.Sem

variable {F : FTy → Type} [FloatOps F]

/-- The offsets of a whole two-axis rectangle are the zero function. -/
private theorem offs2 : (![0, 0] : Fin 2 → Nat) = fun _ => 0 := funext fun a => by fin_cases a <;> rfl

/-- The offsets of a whole three-axis rectangle are the zero function. -/
private theorem offs3 : (![0, 0, 0] : Fin 3 → Nat) = fun _ => 0 := funext fun a => by fin_cases a <;> rfl

/-! Every store of the body goes through the whole rectangle of its buffer, so what a buffer ends with is the payload
    of its LAST store (the canon of a list of pieces whose head covers everything is the head's payload); every load
    goes through the whole rectangle too, so it reads the buffer's contents: an input's block, what the point before
    left in an accumulator, or, after a store in the same point, that store's payload. -/

/-- At a stretch's first point the block of weights written back is the softmax of the block's logits. -/
theorem out0_A_3_eq (c : Dev nD) (i : grid0.Coords) (arg2 : Memref sig .tc .vmem S2048x1024 .f32) (harg2 : arg2.IsWhole) (arg3 : Memref sig .tc .vmem S64x1024 .f32) (harg3 : arg3.IsWhole) (arg4 : Memref sig .tc .vmem S1x1x2048 .i32) (harg4 : arg4.IsWhole) (arg5 : Memref sig .tc .vmem S2048x64 .f32) (harg5 : arg5.IsWhole) (arg6 : Memref sig .tc .vmem S1x1024x128 .f32) (harg6 : arg6.IsWhole) (arg7 : Memref sig .tc .vmem S1x1024x1 .f32) (harg7 : arg7.IsWhole) (arg8 : Memref sig .tc .vmem S1024x128 .f32) (harg8 : arg8.IsWhole) (arg9 : Memref sig .tc .vmem S1024x1 .f32) (harg9 : arg9.IsWhole) (hc0 : cond0_0 i) (hc1 : ¬cond0_1 i) (x0 : Vec F S2048x1024 .f32) (x1 : Vec F S64x1024 .f32) (x2 : Vec F S1x1x2048 .i32) :
    out0_A_3 (F := F) c i arg2 harg2 arg3 harg3 arg4 harg4 arg5 harg5 arg6 harg6 arg7 harg7 arg8 harg8 arg9 harg9 hc0 hc1 x0 x1 x2 = k0_pay7 x0 x1 := by
  unfold out0_A_3
  rw [View.read_writes_eq_canon _ _ _ (cover0_A_3 c i arg2 harg2 arg3 harg3 arg4 harg4 arg5 harg5 arg6 harg6 arg7 harg7 arg8 harg8 arg9 harg9 hc0 hc1 x0 x1 x2)]
  unfold kernelRun0_A
  dsimp only
  sl_unfold_words
  -- one covering store: the buffer ends with its payload
  rw [View.canon_unit_zero (S := S2048x64) offs2]
  -- each whole-rectangle load reads its buffer's contents
  simp only [View.readAt_eq_ld, harg2.read_unread, harg3.read_unread, harg4.read_unread, harg8.read_unread, harg9.read_unread,
    View.readCov_unit_zero (S := S1024x128) _ offs2, View.readCov_unit_zero (S := S1024x1) _ offs2,
    View.ld_unit_zero (S := S2048x1024) offs2, View.ld_unit_zero (S := S64x1024) offs2, View.ld_unit_zero (S := S1x1x2048) offs3,
    View.ld_unit_zero (S := S1024x128) offs2, View.ld_unit_zero (S := S1024x1) offs2]

/-- At a middle point, the same. -/
theorem out0_B_3_eq (c : Dev nD) (i : grid0.Coords) (arg2 : Memref sig .tc .vmem S2048x1024 .f32) (harg2 : arg2.IsWhole) (arg3 : Memref sig .tc .vmem S64x1024 .f32) (harg3 : arg3.IsWhole) (arg4 : Memref sig .tc .vmem S1x1x2048 .i32) (harg4 : arg4.IsWhole) (arg5 : Memref sig .tc .vmem S2048x64 .f32) (harg5 : arg5.IsWhole) (arg6 : Memref sig .tc .vmem S1x1024x128 .f32) (harg6 : arg6.IsWhole) (arg7 : Memref sig .tc .vmem S1x1024x1 .f32) (harg7 : arg7.IsWhole) (arg8 : Memref sig .tc .vmem S1024x128 .f32) (harg8 : arg8.IsWhole) (arg9 : Memref sig .tc .vmem S1024x1 .f32) (harg9 : arg9.IsWhole) (hc0 : ¬cond0_0 i) (hc1 : ¬cond0_1 i) (x0 : Vec F S2048x1024 .f32) (x1 : Vec F S64x1024 .f32) (x2 : Vec F S1x1x2048 .i32) (xs0 : Vec F S1024x128 .f32) (xs1 : Vec F S1024x1 .f32) :
    out0_B_3 (F := F) c i arg2 harg2 arg3 harg3 arg4 harg4 arg5 harg5 arg6 harg6 arg7 harg7 arg8 harg8 arg9 harg9 hc0 hc1 x0 x1 x2 xs0 xs1 = k0_pay7 x0 x1 := by
  unfold out0_B_3
  rw [View.read_writes_eq_canon _ _ _ (cover0_B_3 c i arg2 harg2 arg3 harg3 arg4 harg4 arg5 harg5 arg6 harg6 arg7 harg7 arg8 harg8 arg9 harg9 hc0 hc1 x0 x1 x2 xs0 xs1)]
  unfold kernelRun0_B
  dsimp only
  sl_unfold_words
  -- one covering store: the buffer ends with its payload
  rw [View.canon_unit_zero (S := S2048x64) offs2]
  -- each whole-rectangle load reads its buffer's contents
  simp only [View.readAt_eq_ld, harg2.read_unread, harg3.read_unread, harg4.read_unread, harg8.read_unread, harg9.read_unread,
    View.readCov_unit_zero (S := S1024x128) _ offs2, View.readCov_unit_zero (S := S1024x1) _ offs2,
    View.ld_unit_zero (S := S2048x1024) offs2, View.ld_unit_zero (S := S64x1024) offs2, View.ld_unit_zero (S := S1x1x2048) offs3,
    View.ld_unit_zero (S := S1024x128) offs2, View.ld_unit_zero (S := S1024x1) offs2]

/-- At a stretch's last point, the same. -/
theorem out0_C_3_eq (c : Dev nD) (i : grid0.Coords) (arg2 : Memref sig .tc .vmem S2048x1024 .f32) (harg2 : arg2.IsWhole) (arg3 : Memref sig .tc .vmem S64x1024 .f32) (harg3 : arg3.IsWhole) (arg4 : Memref sig .tc .vmem S1x1x2048 .i32) (harg4 : arg4.IsWhole) (arg5 : Memref sig .tc .vmem S2048x64 .f32) (harg5 : arg5.IsWhole) (arg6 : Memref sig .tc .vmem S1x1024x128 .f32) (harg6 : arg6.IsWhole) (arg7 : Memref sig .tc .vmem S1x1024x1 .f32) (harg7 : arg7.IsWhole) (arg8 : Memref sig .tc .vmem S1024x128 .f32) (harg8 : arg8.IsWhole) (arg9 : Memref sig .tc .vmem S1024x1 .f32) (harg9 : arg9.IsWhole) (hc0 : ¬cond0_0 i) (hc1 : cond0_1 i) (x0 : Vec F S2048x1024 .f32) (x1 : Vec F S64x1024 .f32) (x2 : Vec F S1x1x2048 .i32) (xs0 : Vec F S1024x128 .f32) (xs1 : Vec F S1024x1 .f32) :
    out0_C_3 (F := F) c i arg2 harg2 arg3 harg3 arg4 harg4 arg5 harg5 arg6 harg6 arg7 harg7 arg8 harg8 arg9 harg9 hc0 hc1 x0 x1 x2 xs0 xs1 = k0_pay7 x0 x1 := by
  unfold out0_C_3
  rw [View.read_writes_eq_canon _ _ _ (cover0_C_3 c i arg2 harg2 arg3 harg3 arg4 harg4 arg5 harg5 arg6 harg6 arg7 harg7 arg8 harg8 arg9 harg9 hc0 hc1 x0 x1 x2 xs0 xs1)]
  unfold kernelRun0_C
  dsimp only
  sl_unfold_words
  -- one covering store: the buffer ends with its payload
  rw [View.canon_unit_zero (S := S2048x64) offs2]
  -- each whole-rectangle load reads its buffer's contents
  simp only [View.readAt_eq_ld, harg2.read_unread, harg3.read_unread, harg4.read_unread, harg8.read_unread, harg9.read_unread,
    View.readCov_unit_zero (S := S1024x128) _ offs2, View.readCov_unit_zero (S := S1024x1) _ offs2,
    View.ld_unit_zero (S := S2048x1024) offs2, View.ld_unit_zero (S := S64x1024) offs2, View.ld_unit_zero (S := S1x1x2048) offs3,
    View.ld_unit_zero (S := S1024x128) offs2, View.ld_unit_zero (S := S1024x1) offs2]

/-- At a stretch's first point the accumulator is reset and then gains the point's addend: it holds the addend over zero. -/
theorem sout0_A_0_eq (c : Dev nD) (i : grid0.Coords) (arg2 : Memref sig .tc .vmem S2048x1024 .f32) (harg2 : arg2.IsWhole) (arg3 : Memref sig .tc .vmem S64x1024 .f32) (harg3 : arg3.IsWhole) (arg4 : Memref sig .tc .vmem S1x1x2048 .i32) (harg4 : arg4.IsWhole) (arg5 : Memref sig .tc .vmem S2048x64 .f32) (harg5 : arg5.IsWhole) (arg6 : Memref sig .tc .vmem S1x1024x128 .f32) (harg6 : arg6.IsWhole) (arg7 : Memref sig .tc .vmem S1x1024x1 .f32) (harg7 : arg7.IsWhole) (arg8 : Memref sig .tc .vmem S1024x128 .f32) (harg8 : arg8.IsWhole) (arg9 : Memref sig .tc .vmem S1024x1 .f32) (harg9 : arg9.IsWhole) (hc0 : cond0_0 i) (hc1 : ¬cond0_1 i) (x0 : Vec F S2048x1024 .f32) (x1 : Vec F S64x1024 .f32) (x2 : Vec F S1x1x2048 .i32) :
    sout0_A_0 (F := F) c i arg2 harg2 arg3 harg3 arg4 harg4 arg5 harg5 arg6 harg6 arg7 harg7 arg8 harg8 arg9 harg9 hc0 hc1 x0 x1 x2 = k0_pay1 (k0_pay9 x0 x1 x2 k0_pay5) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2)]
  unfold kernelRun0_A
  dsimp only
  sl_unfold_words
  -- the reset's store, then the update's, which covers it: the buffer ends with the update's payload, whose load of the accumulator reads the reset's payload back
  rw [View.canon_cons_unit_zero (S := S1024x128) offs2, View.readCov_unit_zero (S := S1024x128) _ offs2]
  -- each whole-rectangle load reads its buffer's contents
  simp only [View.readAt_eq_ld, harg2.read_unread, harg3.read_unread, harg4.read_unread, harg8.read_unread, harg9.read_unread,
    View.readCov_unit_zero (S := S1024x128) _ offs2, View.readCov_unit_zero (S := S1024x1) _ offs2,
    View.ld_unit_zero (S := S2048x1024) offs2, View.ld_unit_zero (S := S64x1024) offs2, View.ld_unit_zero (S := S1x1x2048) offs3,
    View.ld_unit_zero (S := S1024x128) offs2, View.ld_unit_zero (S := S1024x1) offs2]

/-- At a middle point the accumulator holds what the point before left plus the point's addend. -/
theorem sout0_B_0_eq (c : Dev nD) (i : grid0.Coords) (arg2 : Memref sig .tc .vmem S2048x1024 .f32) (harg2 : arg2.IsWhole) (arg3 : Memref sig .tc .vmem S64x1024 .f32) (harg3 : arg3.IsWhole) (arg4 : Memref sig .tc .vmem S1x1x2048 .i32) (harg4 : arg4.IsWhole) (arg5 : Memref sig .tc .vmem S2048x64 .f32) (harg5 : arg5.IsWhole) (arg6 : Memref sig .tc .vmem S1x1024x128 .f32) (harg6 : arg6.IsWhole) (arg7 : Memref sig .tc .vmem S1x1024x1 .f32) (harg7 : arg7.IsWhole) (arg8 : Memref sig .tc .vmem S1024x128 .f32) (harg8 : arg8.IsWhole) (arg9 : Memref sig .tc .vmem S1024x1 .f32) (harg9 : arg9.IsWhole) (hc0 : ¬cond0_0 i) (hc1 : ¬cond0_1 i) (x0 : Vec F S2048x1024 .f32) (x1 : Vec F S64x1024 .f32) (x2 : Vec F S1x1x2048 .i32) (xs0 : Vec F S1024x128 .f32) (xs1 : Vec F S1024x1 .f32) :
    sout0_B_0 (F := F) c i arg2 harg2 arg3 harg3 arg4 harg4 arg5 harg5 arg6 harg6 arg7 harg7 arg8 harg8 arg9 harg9 hc0 hc1 x0 x1 x2 xs0 xs1 = k0_pay1 (k0_pay9 x0 x1 x2 xs0) := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 xs0 xs1)]
  unfold kernelRun0_B
  dsimp only
  sl_unfold_words
  -- one covering store: the buffer ends with its payload
  rw [View.canon_unit_zero (S := S1024x128) offs2]
  -- each whole-rectangle load reads its buffer's contents
  simp only [View.readAt_eq_ld, harg2.read_unread, harg3.read_unread, harg4.read_unread, harg8.read_unread, harg9.read_unread,
    View.readCov_unit_zero (S := S1024x128) _ offs2, View.readCov_unit_zero (S := S1024x1) _ offs2,
    View.ld_unit_zero (S := S2048x1024) offs2, View.ld_unit_zero (S := S64x1024) offs2, View.ld_unit_zero (S := S1x1x2048) offs3,
    View.ld_unit_zero (S := S1024x128) offs2, View.ld_unit_zero (S := S1024x1) offs2]

/-- At a stretch's last point, the same. -/
theorem sout0_C_0_eq (c : Dev nD) (i : grid0.Coords) (arg2 : Memref sig .tc .vmem S2048x1024 .f32) (harg2 : arg2.IsWhole) (arg3 : Memref sig .tc .vmem S64x1024 .f32) (harg3 : arg3.IsWhole) (arg4 : Memref sig .tc .vmem S1x1x2048 .i32) (harg4 : arg4.IsWhole) (arg5 : Memref sig .tc .vmem S2048x64 .f32) (harg5 : arg5.IsWhole) (arg6 : Memref sig .tc .vmem S1x1024x128 .f32) (harg6 : arg6.IsWhole) (arg7 : Memref sig .tc .vmem S1x1024x1 .f32) (harg7 : arg7.IsWhole) (arg8 : Memref sig .tc .vmem S1024x128 .f32) (harg8 : arg8.IsWhole) (arg9 : Memref sig .tc .vmem S1024x1 .f32) (harg9 : arg9.IsWhole) (hc0 : ¬cond0_0 i) (hc1 : cond0_1 i) (x0 : Vec F S2048x1024 .f32) (x1 : Vec F S64x1024 .f32) (x2 : Vec F S1x1x2048 .i32) (xs0 : Vec F S1024x128 .f32) (xs1 : Vec F S1024x1 .f32) :
    sout0_C_0 (F := F) c i arg2 harg2 arg3 harg3 arg4 harg4 arg5 harg5 arg6 harg6 arg7 harg7 arg8 harg8 arg9 harg9 hc0 hc1 x0 x1 x2 xs0 xs1 = k0_pay1 (k0_pay9 x0 x1 x2 xs0) := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 xs0 xs1)]
  unfold kernelRun0_C
  dsimp only
  sl_unfold_words
  -- one covering store: the buffer ends with its payload
  rw [View.canon_unit_zero (S := S1024x128) offs2]
  -- each whole-rectangle load reads its buffer's contents
  simp only [View.readAt_eq_ld, harg2.read_unread, harg3.read_unread, harg4.read_unread, harg8.read_unread, harg9.read_unread,
    View.readCov_unit_zero (S := S1024x128) _ offs2, View.readCov_unit_zero (S := S1024x1) _ offs2,
    View.ld_unit_zero (S := S2048x1024) offs2, View.ld_unit_zero (S := S64x1024) offs2, View.ld_unit_zero (S := S1x1x2048) offs3,
    View.ld_unit_zero (S := S1024x128) offs2, View.ld_unit_zero (S := S1024x1) offs2]

/-- At a stretch's first point the counts are reset and then gain the block's counts. -/
theorem sout0_A_1_eq (c : Dev nD) (i : grid0.Coords) (arg2 : Memref sig .tc .vmem S2048x1024 .f32) (harg2 : arg2.IsWhole) (arg3 : Memref sig .tc .vmem S64x1024 .f32) (harg3 : arg3.IsWhole) (arg4 : Memref sig .tc .vmem S1x1x2048 .i32) (harg4 : arg4.IsWhole) (arg5 : Memref sig .tc .vmem S2048x64 .f32) (harg5 : arg5.IsWhole) (arg6 : Memref sig .tc .vmem S1x1024x128 .f32) (harg6 : arg6.IsWhole) (arg7 : Memref sig .tc .vmem S1x1024x1 .f32) (harg7 : arg7.IsWhole) (arg8 : Memref sig .tc .vmem S1024x128 .f32) (harg8 : arg8.IsWhole) (arg9 : Memref sig .tc .vmem S1024x1 .f32) (harg9 : arg9.IsWhole) (hc0 : cond0_0 i) (hc1 : ¬cond0_1 i) (x0 : Vec F S2048x1024 .f32) (x1 : Vec F S64x1024 .f32) (x2 : Vec F S1x1x2048 .i32) :
    sout0_A_1 (F := F) c i arg2 harg2 arg3 harg3 arg4 harg4 arg5 harg5 arg6 harg6 arg7 harg7 arg8 harg8 arg9 harg9 hc0 hc1 x0 x1 x2 = k0_pay2 (k0_pay8 x2) k0_pay6 := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2)]
  unfold kernelRun0_A
  dsimp only
  sl_unfold_words
  -- the reset's store, then the update's, which covers it: the buffer ends with the update's payload, whose load of the accumulator reads the reset's payload back
  rw [View.canon_cons_unit_zero (S := S1024x1) offs2, View.readCov_unit_zero (S := S1024x1) _ offs2]
  -- each whole-rectangle load reads its buffer's contents
  simp only [View.readAt_eq_ld, harg2.read_unread, harg3.read_unread, harg4.read_unread, harg8.read_unread, harg9.read_unread,
    View.readCov_unit_zero (S := S1024x128) _ offs2, View.readCov_unit_zero (S := S1024x1) _ offs2,
    View.ld_unit_zero (S := S2048x1024) offs2, View.ld_unit_zero (S := S64x1024) offs2, View.ld_unit_zero (S := S1x1x2048) offs3,
    View.ld_unit_zero (S := S1024x128) offs2, View.ld_unit_zero (S := S1024x1) offs2]

/-- At a middle point the counts hold what the point before left plus the block's counts. -/
theorem sout0_B_1_eq (c : Dev nD) (i : grid0.Coords) (arg2 : Memref sig .tc .vmem S2048x1024 .f32) (harg2 : arg2.IsWhole) (arg3 : Memref sig .tc .vmem S64x1024 .f32) (harg3 : arg3.IsWhole) (arg4 : Memref sig .tc .vmem S1x1x2048 .i32) (harg4 : arg4.IsWhole) (arg5 : Memref sig .tc .vmem S2048x64 .f32) (harg5 : arg5.IsWhole) (arg6 : Memref sig .tc .vmem S1x1024x128 .f32) (harg6 : arg6.IsWhole) (arg7 : Memref sig .tc .vmem S1x1024x1 .f32) (harg7 : arg7.IsWhole) (arg8 : Memref sig .tc .vmem S1024x128 .f32) (harg8 : arg8.IsWhole) (arg9 : Memref sig .tc .vmem S1024x1 .f32) (harg9 : arg9.IsWhole) (hc0 : ¬cond0_0 i) (hc1 : ¬cond0_1 i) (x0 : Vec F S2048x1024 .f32) (x1 : Vec F S64x1024 .f32) (x2 : Vec F S1x1x2048 .i32) (xs0 : Vec F S1024x128 .f32) (xs1 : Vec F S1024x1 .f32) :
    sout0_B_1 (F := F) c i arg2 harg2 arg3 harg3 arg4 harg4 arg5 harg5 arg6 harg6 arg7 harg7 arg8 harg8 arg9 harg9 hc0 hc1 x0 x1 x2 xs0 xs1 = k0_pay2 (k0_pay8 x2) xs1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 xs0 xs1)]
  unfold kernelRun0_B
  dsimp only
  sl_unfold_words
  -- one covering store: the buffer ends with its payload
  rw [View.canon_unit_zero (S := S1024x1) offs2]
  -- each whole-rectangle load reads its buffer's contents
  simp only [View.readAt_eq_ld, harg2.read_unread, harg3.read_unread, harg4.read_unread, harg8.read_unread, harg9.read_unread,
    View.readCov_unit_zero (S := S1024x128) _ offs2, View.readCov_unit_zero (S := S1024x1) _ offs2,
    View.ld_unit_zero (S := S2048x1024) offs2, View.ld_unit_zero (S := S64x1024) offs2, View.ld_unit_zero (S := S1x1x2048) offs3,
    View.ld_unit_zero (S := S1024x128) offs2, View.ld_unit_zero (S := S1024x1) offs2]

/-- At a stretch's last point, the same. -/
theorem sout0_C_1_eq (c : Dev nD) (i : grid0.Coords) (arg2 : Memref sig .tc .vmem S2048x1024 .f32) (harg2 : arg2.IsWhole) (arg3 : Memref sig .tc .vmem S64x1024 .f32) (harg3 : arg3.IsWhole) (arg4 : Memref sig .tc .vmem S1x1x2048 .i32) (harg4 : arg4.IsWhole) (arg5 : Memref sig .tc .vmem S2048x64 .f32) (harg5 : arg5.IsWhole) (arg6 : Memref sig .tc .vmem S1x1024x128 .f32) (harg6 : arg6.IsWhole) (arg7 : Memref sig .tc .vmem S1x1024x1 .f32) (harg7 : arg7.IsWhole) (arg8 : Memref sig .tc .vmem S1024x128 .f32) (harg8 : arg8.IsWhole) (arg9 : Memref sig .tc .vmem S1024x1 .f32) (harg9 : arg9.IsWhole) (hc0 : ¬cond0_0 i) (hc1 : cond0_1 i) (x0 : Vec F S2048x1024 .f32) (x1 : Vec F S64x1024 .f32) (x2 : Vec F S1x1x2048 .i32) (xs0 : Vec F S1024x128 .f32) (xs1 : Vec F S1024x1 .f32) :
    sout0_C_1 (F := F) c i arg2 harg2 arg3 harg3 arg4 harg4 arg5 harg5 arg6 harg6 arg7 harg7 arg8 harg8 arg9 harg9 hc0 hc1 x0 x1 x2 xs0 xs1 = k0_pay2 (k0_pay8 x2) xs1 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 x2 xs0 xs1)]
  unfold kernelRun0_C
  dsimp only
  sl_unfold_words
  -- one covering store: the buffer ends with its payload
  rw [View.canon_unit_zero (S := S1024x1) offs2]
  -- each whole-rectangle load reads its buffer's contents
  simp only [View.readAt_eq_ld, harg2.read_unread, harg3.read_unread, harg4.read_unread, harg8.read_unread, harg9.read_unread,
    View.readCov_unit_zero (S := S1024x128) _ offs2, View.readCov_unit_zero (S := S1024x1) _ offs2,
    View.ld_unit_zero (S := S2048x1024) offs2, View.ld_unit_zero (S := S64x1024) offs2, View.ld_unit_zero (S := S1x1x2048) offs3,
    View.ld_unit_zero (S := S1024x128) offs2, View.ld_unit_zero (S := S1024x1) offs2]

/-- At a stretch's last point the accumulator, with the point's addend in, is copied to the core's slot of the sums' output. -/
theorem out0_C_4_eq (c : Dev nD) (i : grid0.Coords) (arg2 : Memref sig .tc .vmem S2048x1024 .f32) (harg2 : arg2.IsWhole) (arg3 : Memref sig .tc .vmem S64x1024 .f32) (harg3 : arg3.IsWhole) (arg4 : Memref sig .tc .vmem S1x1x2048 .i32) (harg4 : arg4.IsWhole) (arg5 : Memref sig .tc .vmem S2048x64 .f32) (harg5 : arg5.IsWhole) (arg6 : Memref sig .tc .vmem S1x1024x128 .f32) (harg6 : arg6.IsWhole) (arg7 : Memref sig .tc .vmem S1x1024x1 .f32) (harg7 : arg7.IsWhole) (arg8 : Memref sig .tc .vmem S1024x128 .f32) (harg8 : arg8.IsWhole) (arg9 : Memref sig .tc .vmem S1024x1 .f32) (harg9 : arg9.IsWhole) (hc0 : ¬cond0_0 i) (hc1 : cond0_1 i) (x0 : Vec F S2048x1024 .f32) (x1 : Vec F S64x1024 .f32) (x2 : Vec F S1x1x2048 .i32) (xs0 : Vec F S1024x128 .f32) (xs1 : Vec F S1024x1 .f32) :
    out0_C_4 (F := F) c i arg2 harg2 arg3 harg3 arg4 harg4 arg5 harg5 arg6 harg6 arg7 harg7 arg8 harg8 arg9 harg9 hc0 hc1 x0 x1 x2 xs0 xs1 = k0_pay3 (k0_pay1 (k0_pay9 x0 x1 x2 xs0)) := by
  unfold out0_C_4
  rw [View.read_writes_eq_canon _ _ _ (cover0_C_4 c i arg2 harg2 arg3 harg3 arg4 harg4 arg5 harg5 arg6 harg6 arg7 harg7 arg8 harg8 arg9 harg9 hc0 hc1 x0 x1 x2 xs0 xs1)]
  unfold kernelRun0_C
  dsimp only
  sl_unfold_words
  -- one covering store: the buffer ends with its payload
  rw [View.canon_unit_zero (S := S1x1024x128) offs3]
  -- each whole-rectangle load reads its buffer's contents
  simp only [View.readAt_eq_ld, harg2.read_unread, harg3.read_unread, harg4.read_unread, harg8.read_unread, harg9.read_unread,
    View.readCov_unit_zero (S := S1024x128) _ offs2, View.readCov_unit_zero (S := S1024x1) _ offs2,
    View.ld_unit_zero (S := S2048x1024) offs2, View.ld_unit_zero (S := S64x1024) offs2, View.ld_unit_zero (S := S1x1x2048) offs3,
    View.ld_unit_zero (S := S1024x128) offs2, View.ld_unit_zero (S := S1024x1) offs2]

/-- At a stretch's last point the counts, with the block's in, are copied to the core's slot of the counts' output. -/
theorem out0_C_5_eq (c : Dev nD) (i : grid0.Coords) (arg2 : Memref sig .tc .vmem S2048x1024 .f32) (harg2 : arg2.IsWhole) (arg3 : Memref sig .tc .vmem S64x1024 .f32) (harg3 : arg3.IsWhole) (arg4 : Memref sig .tc .vmem S1x1x2048 .i32) (harg4 : arg4.IsWhole) (arg5 : Memref sig .tc .vmem S2048x64 .f32) (harg5 : arg5.IsWhole) (arg6 : Memref sig .tc .vmem S1x1024x128 .f32) (harg6 : arg6.IsWhole) (arg7 : Memref sig .tc .vmem S1x1024x1 .f32) (harg7 : arg7.IsWhole) (arg8 : Memref sig .tc .vmem S1024x128 .f32) (harg8 : arg8.IsWhole) (arg9 : Memref sig .tc .vmem S1024x1 .f32) (harg9 : arg9.IsWhole) (hc0 : ¬cond0_0 i) (hc1 : cond0_1 i) (x0 : Vec F S2048x1024 .f32) (x1 : Vec F S64x1024 .f32) (x2 : Vec F S1x1x2048 .i32) (xs0 : Vec F S1024x128 .f32) (xs1 : Vec F S1024x1 .f32) :
    out0_C_5 (F := F) c i arg2 harg2 arg3 harg3 arg4 harg4 arg5 harg5 arg6 harg6 arg7 harg7 arg8 harg8 arg9 harg9 hc0 hc1 x0 x1 x2 xs0 xs1 = k0_pay4 (k0_pay2 (k0_pay8 x2) xs1) := by
  unfold out0_C_5
  rw [View.read_writes_eq_canon _ _ _ (cover0_C_5 c i arg2 harg2 arg3 harg3 arg4 harg4 arg5 harg5 arg6 harg6 arg7 harg7 arg8 harg8 arg9 harg9 hc0 hc1 x0 x1 x2 xs0 xs1)]
  unfold kernelRun0_C
  dsimp only
  sl_unfold_words
  -- one covering store: the buffer ends with its payload
  rw [View.canon_unit_zero (S := S1x1024x1) offs3]
  -- each whole-rectangle load reads its buffer's contents
  simp only [View.readAt_eq_ld, harg2.read_unread, harg3.read_unread, harg4.read_unread, harg8.read_unread, harg9.read_unread,
    View.readCov_unit_zero (S := S1024x128) _ offs2, View.readCov_unit_zero (S := S1024x1) _ offs2,
    View.ld_unit_zero (S := S2048x1024) offs2, View.ld_unit_zero (S := S64x1024) offs2, View.ld_unit_zero (S := S1x1x2048) offs3,
    View.ld_unit_zero (S := S1024x128) offs2, View.ld_unit_zero (S := S1024x1) offs2]

end Cert.KernelIdeal.Pieces

end
-- ==== Proof.Consts.lean ====
/-
  The float literals of the two programs and of the precondition as extended reals: minus and plus infinity, zero, one and sixty-four.
  Their bit patterns are read here and nowhere else.
-/
import Idealize.ShloMosaic.PureOps.Ideal
import Idealize.ShloMosaic.PureOps.Ideal.Laws
import proofs.«427083_j32899449487922_3_alg».proof.Proof.Spec

noncomputable section

namespace Cert.Consts

open Idealize.ShloMosaic

/-- The pattern `0xFF800000` is minus infinity. -/
theorem negInf_eq : Cert.Spec.negInf = (⊥ : EReal) := by
  simp [Cert.Spec.negInf, Ideal.ofBits, Ideal.ieee]

/-- The pattern `0x7F800000` is plus infinity. -/
theorem posInf_eq : Ideal.ofBits .f32 0x7F800000#32 = (⊤ : EReal) := by
  simp [Ideal.ofBits, Ideal.ieee]

/-- The pattern `0x00000000` is zero. -/
theorem zeroE_eq : Cert.Spec.zeroE = (0 : EReal) := Ideal.ofBits_zero_f32

/-- The pattern `0x3F800000` is one. -/
theorem oneE_eq : Cert.Spec.oneE = (1 : EReal) := by
  simp [Cert.Spec.oneE, Ideal.ofBits, Ideal.ieee, -EReal.coe_mul]
  norm_num

/-- The pattern `0x42800000` is sixty-four. -/
theorem sixtyFourE_eq : Cert.Spec.sixtyFourE = ((64 : ℝ) : EReal) := by
  simp [Cert.Spec.sixtyFourE, Ideal.ofBits, Ideal.ieee, -EReal.coe_mul]
  norm_num

end Cert.Consts

end
-- ==== Proof.LibKeepdims.lean ====
/-
  Reductions that keep their axis, read at an index given by coordinates.

  A sum over one axis of a matrix that keeps the axis (`jnp.sum(…, keepdims=True)`) is a lane sum to a vector, a shape
  cast of the vector to a column `[a] → [a, 1]` or to a row `[a] → [1, a]`, and a broadcast of the column
  `[a, 1] → [a, b]` or of the row back over the matrix. Here: the column cast and the column broadcast at `(i, j)`, and
  an f32 lane sum over the columns (axis 1) or over the rows (axis 0) of a matrix at the extended reals as a
  `Fin`-indexed sum of the matrix entries.
-/
import Idealize.ShloMosaic.Lib.ValueLayout
import Idealize.ShloMosaic.PureOps.Ideal.Laws

namespace Idealize.ShloMosaic.ValueIdx

open Idealize.ShloMosaic

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An f32 lane sum over the COLUMNS of an `[a, b]` matrix of extended reals is, in row `r`, the sum of that row. -/
theorem multiReduction_add_cols_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (r : Fin a) :
    multiReduction .add [1] ⟨1, ![a]⟩ src 0x00000000#32 h hφ hacc (ix1 r) = ∑ c : Fin b, src (ix2 r c) :=
  (Ideal.multiReduction_add_single src 0x00000000#32 h hφ hacc (ix1 r)).trans
    (Finset.sum_congr rfl fun c _ => congrArg src (funext fun ax => Fin.ext (by
      match ax with
      | ⟨0, _⟩ => rfl
      | ⟨1, _⟩ => rfl)))

/-- An f32 lane sum over the ROWS of an `[a, b]` matrix of extended reals is, in column `j`, the sum of that column. -/
theorem multiReduction_add_rows_apply {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = FKind.add.neutral .f32 hφ) (j : Fin b) :
    multiReduction .add [0] ⟨1, ![b]⟩ src 0x00000000#32 h hφ hacc (ix1 j) = ∑ c : Fin a, src (ix2 c j) :=
  (Ideal.multiReduction_add_single src 0x00000000#32 h hφ hacc (ix1 j)).trans
    (Finset.sum_congr rfl fun c _ => congrArg src (funext fun ax => Fin.ext (by
      match ax with
      | ⟨0, _⟩ => rfl
      | ⟨1, _⟩ => rfl)))

end Idealize.ShloMosaic.ValueIdx
-- ==== Proof.KPaySoftmax.lean ====
/-
  The gate weights of one block, read at an index.

  One grid point sees a block of 2048 rows of `x` and the whole gate matrix.  Its logits are the block's rows against the
  matrix's rows (a matrix product into a zero accumulator); the body then takes each row's maximum, subtracts it,
  exponentiates, sums the row and divides: the softmax of the row.
-/
import proofs.«427083_j32899449487922_3_alg».proof.Proof.Gen.KernelIdeal.Skeleton
import proofs.«427083_j32899449487922_3_alg».proof.Proof.Spec
import proofs.«427083_j32899449487922_3_alg».proof.Proof.Consts
import proofs.«427083_j32899449487922_3_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PaySoftmax

open Cert.KernelIdeal Cert.KernelIdeal.Gen Idealize.ShloMosaic Idealize.ShloMosaic.ValueIdx Cert.Spec

/-! ## The matrix product at an index

The product contracts axis 1 of the block with axis 1 of the gate matrix: its operand indices at the output index
`(r, e)` and the contraction coordinate `k` are `(r, k)` and `(e, k)`. -/

/-- The left operand's row is the output's row. -/
theorem lhs_dot_0 (i : S2048x64.Idx) (q : dot_S2048x1024_S64x1024_S2048x64_1_1_0_0_n_n.contr.Idx) :
    (dot_S2048x1024_S64x1024_S2048x64_1_1_0_0_n_n.lhsIdx i q 0).val = (i 0).val := by
  unfold DotDims.lhsIdx
  rw [dif_neg (show ¬(0 : Fin S2048x1024.rank) ∈ dot_S2048x1024_S64x1024_S2048x64_1_1_0_0_n_n.lhsBatch by decide), dif_pos (show (0 : Fin S2048x1024.rank) ∈ dot_S2048x1024_S64x1024_S2048x64_1_1_0_0_n_n.lhsNonContracting by decide)]
  rfl
/-- The left operand's column is the contraction coordinate. -/
theorem lhs_dot_1 (i : S2048x64.Idx) (q : dot_S2048x1024_S64x1024_S2048x64_1_1_0_0_n_n.contr.Idx) :
    (dot_S2048x1024_S64x1024_S2048x64_1_1_0_0_n_n.lhsIdx i q 1).val = (q ⟨0, by decide⟩).val :=
  dot_S2048x1024_S64x1024_S2048x64_1_1_0_0_n_n.lhsIdx_val_of_single rfl i q
/-- The right operand's row is the output's column. -/
theorem rhs_dot_0 (i : S2048x64.Idx) (q : dot_S2048x1024_S64x1024_S2048x64_1_1_0_0_n_n.contr.Idx) :
    (dot_S2048x1024_S64x1024_S2048x64_1_1_0_0_n_n.rhsIdx i q 0).val = (i 1).val := by
  unfold DotDims.rhsIdx
  rw [dif_neg (show ¬(0 : Fin S64x1024.rank) ∈ dot_S2048x1024_S64x1024_S2048x64_1_1_0_0_n_n.rhsBatch by decide), dif_pos (show (0 : Fin S64x1024.rank) ∈ dot_S2048x1024_S64x1024_S2048x64_1_1_0_0_n_n.rhsNonContracting by decide)]
  rfl
/-- The right operand's column is the contraction coordinate. -/
theorem rhs_dot_1 (i : S2048x64.Idx) (q : dot_S2048x1024_S64x1024_S2048x64_1_1_0_0_n_n.contr.Idx) :
    (dot_S2048x1024_S64x1024_S2048x64_1_1_0_0_n_n.rhsIdx i q 1).val = (q ⟨0, by decide⟩).val :=
  dot_S2048x1024_S64x1024_S2048x64_1_1_0_0_n_n.rhsIdx_val_of_single rfl i q

/-- The product into a zero accumulator, at `(r, e)`: the inner product of row `r` of the block and row `e` of the matrix. -/
theorem matmul_zero_apply (a : FVec Ideal S2048x1024 .bf16) (b : FVec Ideal S64x1024 .bf16) (r : Fin 2048) (e : Fin 64) :
    matmul (F := Ideal) dot_S2048x1024_S64x1024_S2048x64_1_1_0_0_n_n none a b (constant (F := Ideal) S2048x64 .f32 0x00000000#32) (ix2 r e)
      = ∑ k : Fin 1024, a (ix2 r k) * b (ix2 e k) := by
  refine (Ideal.matmul_constant_zero_apply dot_S2048x1024_S64x1024_S2048x64_1_1_0_0_n_n none a b (ix2 r e)).trans ?_
  rw [← Equiv.sum_comp (contrEquiv1 dot_S2048x1024_S64x1024_S2048x64_1_1_0_0_n_n 1024 rfl rfl).symm]
  refine Finset.sum_congr rfl fun k _ => ?_
  have hk := contrEquiv1_symm_val dot_S2048x1024_S64x1024_S2048x64_1_1_0_0_n_n 1024 rfl rfl k
  have el : dot_S2048x1024_S64x1024_S2048x64_1_1_0_0_n_n.lhsIdx (ix2 r e) ((contrEquiv1 dot_S2048x1024_S64x1024_S2048x64_1_1_0_0_n_n 1024 rfl rfl).symm k) = ix2 r k := funext fun ax => Fin.ext (by
    match ax with
    | ⟨0, _⟩ => exact lhs_dot_0 _ _
    | ⟨1, _⟩ => exact (lhs_dot_1 _ _).trans hk)
  have er : dot_S2048x1024_S64x1024_S2048x64_1_1_0_0_n_n.rhsIdx (ix2 r e) ((contrEquiv1 dot_S2048x1024_S64x1024_S2048x64_1_1_0_0_n_n 1024 rfl rfl).symm k) = ix2 e k := funext fun ax => Fin.ext (by
    match ax with
    | ⟨0, _⟩ => exact rhs_dot_0 _ _
    | ⟨1, _⟩ => exact (rhs_dot_1 _ _).trans hk)
  rw [el, er]

/-! ## A row's maximum -/

/-- An f32 lane maximum over the COLUMNS of an `[a, b]` matrix of extended reals is, in row `r`, the fold of `max` from
    the accumulator's value over that row. -/
theorem multiReduction_max_cols_apply {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ) (r : Fin a) :
    multiReduction .maximumf [1] ⟨1, ![a]⟩ src 0xFF800000#32 h hφ hacc (ix1 r)
      = (Finset.univ : Finset (Fin b)).fold max (Ideal.ofBits .f32 0xFF800000#32) (fun c => src (ix2 r c)) :=
  (Ideal.multiReduction_maximumf_single src 0xFF800000#32 h hφ hacc (ix1 r)).trans
    (congrArg (fun f => (Finset.univ : Finset (Fin b)).fold max (Ideal.ofBits .f32 0xFF800000#32) f)
      (funext fun c => congrArg src (funext fun ax => Fin.ext (by
        match ax with
        | ⟨0, _⟩ => rfl
        | ⟨1, _⟩ => rfl))))

/-! ## The softmax of the logits

The chain from the logits `M` on: each row's maximum from minus infinity, taken once more against minus infinity, set
beside every entry of the row; the difference, its exponential, the row's sum of those set beside every entry, the
quotient. -/

/-- The body's chain from its logits on, as a function of the logits. -/
def softmaxOf (M : FVec Ideal S2048x64 .f32) : FVec Ideal S2048x64 .f32 :=
  have v8 : FVec Ideal S2048 .f32 := multiReduction .maximumf [1] S2048 M 0xFF800000#32 reduces_S2048x64_S2048 (.inl rfl) rfl
  have v10 : FVec Ideal S2048 .f32 := maximumf (broadcast S2048 (Scalar.ofBits .f32 0xFF800000#32)) v8
  have v12 : FVec Ideal S2048x64 .f32 := broadcastTo S2048x64 (shapeCast S2048x1 v10 shapeCasts_S2048_S2048x1) broadcasts_S2048x1_S2048x64
  have v14 : FVec Ideal S2048x64 .f32 := exp (subf M v12)
  have v15 : FVec Ideal S2048 .f32 := multiReduction .add [1] S2048 v14 0x00000000#32 reduces_S2048x64_S2048 (.inl rfl) rfl
  have v17 : FVec Ideal S2048x64 .f32 := broadcastTo S2048x64 (shapeCast S2048x1 v15 shapeCasts_S2048_S2048x1) broadcasts_S2048x1_S2048x64
  divf v14 v17

/-- The body's softmax term is that chain at the matrix product of the two blocks (a narrowing is the identity on extended reals). -/
theorem pay7_eq_softmaxOf (x0 : Vec Ideal S2048x1024 .f32) (x1 : Vec Ideal S64x1024 .f32) :
    k0_pay7 (F := Ideal) x0 x1
      = softmaxOf (matmul (F := Ideal) dot_S2048x1024_S64x1024_S2048x64_1_1_0_0_n_n none (truncf .bf16 x0 bitsLt_bf16_f32) (truncf .bf16 x1 bitsLt_bf16_f32)
          (constant (F := Ideal) S2048x64 .f32 0x00000000#32)) := rfl

/-- The row maximum set beside every entry, at `(r, e)`: the specification's maximum of row `r`. -/
theorem rowMax_apply (M : FVec Ideal S2048x64 .f32) (r : Fin 2048) (e : Fin 64) :
    broadcastTo S2048x64 (shapeCast S2048x1
        (maximumf (broadcast S2048 (Scalar.ofBits (F := Ideal) .f32 0xFF800000#32))
          (multiReduction (F := Ideal) .maximumf [1] S2048 M 0xFF800000#32 reduces_S2048x64_S2048 (.inl rfl) rfl))
        shapeCasts_S2048_S2048x1) broadcasts_S2048x1_S2048x64 (ix2 r e)
      = rowMax (fun c => M (ix2 r c)) := by
  refine (broadcastTo_a1_ab_apply _ broadcasts_S2048x1_S2048x64 r e).trans ?_
  refine (shapeCast_a_a1_apply _ shapeCasts_S2048_S2048x1 r (0 : Fin 1)).trans ?_
  refine (maximumf_apply _ _ (ix1 r)).trans ?_
  unfold rowMax
  exact congrArg (max negInf) (multiReduction_max_cols_apply M reduces_S2048x64_S2048 (.inl rfl) rfl r)

/-- The chain at `(r, e)`: the softmax of row `r` of the logits at `e`. -/
theorem softmaxOf_apply (M : FVec Ideal S2048x64 .f32) (r : Fin 2048) (e : Fin 64) :
    softmaxOf M (ix2 r e) = smx (fun c => M (ix2 r c)) e := by
  unfold softmaxOf smx
  refine (divf_apply _ _ (ix2 r e)).trans ?_
  have hnum : ∀ c : Fin 64, exp (F := Ideal) (subf M (broadcastTo S2048x64 (shapeCast S2048x1
        (maximumf (broadcast S2048 (Scalar.ofBits (F := Ideal) .f32 0xFF800000#32))
          (multiReduction (F := Ideal) .maximumf [1] S2048 M 0xFF800000#32 reduces_S2048x64_S2048 (.inl rfl) rfl))
        shapeCasts_S2048_S2048x1) broadcasts_S2048x1_S2048x64)) (ix2 r c)
      = Ideal.exp (M (ix2 r c) - rowMax (fun c' => M (ix2 r c'))) := fun c =>
    congrArg (fun t => Ideal.exp (M (ix2 r c) - t)) (rowMax_apply M r c)
  refine congrArg₂ Ideal.div (hnum e) ?_
  refine (broadcastTo_a1_ab_apply _ broadcasts_S2048x1_S2048x64 r e).trans ?_
  refine (shapeCast_a_a1_apply _ shapeCasts_S2048_S2048x1 r (0 : Fin 1)).trans ?_
  refine (multiReduction_add_cols_apply _ reduces_S2048x64_S2048 (.inl rfl) rfl r).trans ?_
  exact Finset.sum_congr rfl fun c _ => hnum c

/-- THE GATE WEIGHTS OF A BLOCK: the body's softmax term at `(r, e)` is the specification's gate weight of the block's row. -/
theorem pay7_apply (x0 : Vec Ideal S2048x1024 .f32) (x1 : Vec Ideal S64x1024 .f32) (r : Fin 2048) (e : Fin 64) :
    k0_pay7 (F := Ideal) x0 x1 (ix2 r e) = gate x0 x1 r e := by
  rw [pay7_eq_softmaxOf]
  refine (softmaxOf_apply _ r e).trans ?_
  unfold gate
  refine congrArg (fun row => smx row e) (funext fun c => ?_)
  exact matmul_zero_apply _ _ r c

end Cert.KernelIdeal.PaySoftmax

end
-- ==== Proof.LibBlockSum.lean ====
/-
  Three general facts: a sum over B·R indices taken block by block, a 32-bit word read as a small natural number, and an
  indicator times an extended real.
-/
import Mathlib.Logic.Equiv.Fin.Basic
import Mathlib.Data.Fintype.BigOperators
import Mathlib.Algebra.BigOperators.Group.Finset.Defs
import Mathlib.Data.EReal.Operations

noncomputable section

open scoped BigOperators

namespace Cert.LibBlockSum

/-! ## A sum over B·R indices, block by block -/

/-- Entry `r` of block `t`, among `N = B * R` indices cut into `B` consecutive blocks of `R`: the index `R * t + r`. -/
def blockIdx {B R N : Nat} (h : B * R = N) (t : Fin B) (r : Fin R) : Fin N :=
  ⟨R * t.val + r.val, by
    have ht := t.isLt
    have hr := r.isLt
    calc R * t.val + r.val < R * t.val + R := by omega
      _ = R * (t.val + 1) := by rw [Nat.mul_succ]
      _ ≤ R * B := Nat.mul_le_mul_left _ ht
      _ = N := by rw [Nat.mul_comm]; exact h⟩

/-- Its value is `R * t + r`. -/
theorem blockIdx_val {B R N : Nat} (h : B * R = N) (t : Fin B) (r : Fin R) :
    (blockIdx h t r).val = R * t.val + r.val := rfl

/-- A sum over `N = B * R` indices is the sum over the `B` blocks of the sum over each block's `R` entries. -/
theorem sum_blocks {M : Type*} [AddCommMonoid M] {B R N : Nat} (h : B * R = N) (f : Fin N → M) :
    ∑ n : Fin N, f n = ∑ t : Fin B, ∑ r : Fin R, f (blockIdx h t r) := by
  subst h
  rw [← Equiv.sum_comp (finProdFinEquiv (m := B) (n := R)) f, Fintype.sum_prod_type]
  refine Finset.sum_congr rfl fun t _ => Finset.sum_congr rfl fun r _ => congrArg f (Fin.ext ?_)
  show r.val + R * t.val = R * t.val + r.val
  exact Nat.add_comm _ _

/-! ## A 32-bit word that is a small natural number -/

/-- A 32-bit word is the word of a natural number `g` below `2 ^ 31` exactly when, read as a signed integer, it is `g`. -/
theorem eq_ofNat_iff_toInt_eq (b : BitVec 32) (g : Nat) (hg : g < 2 ^ 31) :
    b = BitVec.ofNat 32 g ↔ b.toInt = (g : Int) := by
  have e : (BitVec.ofNat 32 g).toInt = (g : Int) := by
    rw [BitVec.toInt_eq_toNat_of_lt (by rw [BitVec.toNat_ofNat]; omega), BitVec.toNat_ofNat]
    omega
  rw [← e]
  exact BitVec.toInt_inj.symm

/-! ## An indicator times an extended real -/

/-- One or zero, by a condition, times an extended real is the real or zero, by the condition. -/
theorem ite_one_zero_mul (p : Prop) [Decidable p] (x : EReal) :
    (if p then (1 : EReal) else 0) * x = if p then x else 0 := by
  split
  · exact one_mul x
  · exact zero_mul x

/-- The example: 100000 indices as 20 blocks of 5000 (name the two factors: the product alone does not determine them). -/
example {M : Type*} [AddCommMonoid M] (f : Fin 100000 → M) :
    ∑ n : Fin 100000, f n = ∑ t : Fin 20, ∑ r : Fin 5000, f (blockIdx (B := 20) (R := 5000) (N := 100000) (by norm_num) t r) :=
  sum_blocks (B := 20) (R := 5000) (by norm_num) f

end Cert.LibBlockSum

end
-- ==== Proof.KPayAcc.lean ====
/-
  One point's addends to the two accumulators, read at an index.

  The indicator `[d = doc(r)]` is one where row `r` of the block belongs to document `d`.  The point's addend to the
  accumulator `[1024, 128]` is the indicator matrix times the block's weights laid beside their squares: in column
  `e < 64` the sum of the weights of expert `e` over the block's rows of document `d`, in column `64 + e` the sum of their
  squares (a product by an indicator keeps or drops a term).  Its addend to the counts is the number of the block's rows
  of document `d`: the row sums of the indicator matrix.
-/
import proofs.«427083_j32899449487922_3_alg».proof.Proof.Gen.KernelIdeal.Skeleton
import proofs.«427083_j32899449487922_3_alg».proof.Proof.Spec
import proofs.«427083_j32899449487922_3_alg».proof.Proof.Consts
import proofs.«427083_j32899449487922_3_alg».proof.Proof.KPaySoftmax
import proofs.«427083_j32899449487922_3_alg».proof.Proof.LibKeepdims
import proofs.«427083_j32899449487922_3_alg».proof.Proof.LibBlockSum
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayAcc

open Cert.KernelIdeal Cert.KernelIdeal.Gen Idealize.ShloMosaic Idealize.ShloMosaic.ValueIdx Cert.Spec

open Cert.KernelIdeal.PaySoftmax

/-! ## The indicator matrix times a `[2048, 128]` matrix, read at an index

The product contracts the left operand's columns with the right operand's rows: at `(d, j)` it is the sum over the
block's rows `r` of the left operand at `(d, r)` times the right operand at `(r, j)`. -/

/-- The left operand's row is the result's row. -/
theorem dotAcc_lhs_0 (i : S1024x128.Idx) (q : dot_S1024x2048_S2048x128_S1024x128_1_0_0_1_n_n.contr.Idx) :
    (dot_S1024x2048_S2048x128_S1024x128_1_0_0_1_n_n.lhsIdx i q 0).val = (i 0).val := by
  unfold DotDims.lhsIdx
  rw [dif_neg (show ¬(0 : Fin S1024x2048.rank) ∈ dot_S1024x2048_S2048x128_S1024x128_1_0_0_1_n_n.lhsBatch by decide),
    dif_pos (show (0 : Fin S1024x2048.rank) ∈ dot_S1024x2048_S2048x128_S1024x128_1_0_0_1_n_n.lhsNonContracting by decide)]
  rfl
/-- The left operand's column is the contracted coordinate. -/
theorem dotAcc_lhs_1 (i : S1024x128.Idx) (q : dot_S1024x2048_S2048x128_S1024x128_1_0_0_1_n_n.contr.Idx) :
    (dot_S1024x2048_S2048x128_S1024x128_1_0_0_1_n_n.lhsIdx i q 1).val = (q ⟨0, by decide⟩).val :=
  dot_S1024x2048_S2048x128_S1024x128_1_0_0_1_n_n.lhsIdx_val_of_single rfl i q
/-- The right operand's row is the contracted coordinate. -/
theorem dotAcc_rhs_0 (i : S1024x128.Idx) (q : dot_S1024x2048_S2048x128_S1024x128_1_0_0_1_n_n.contr.Idx) :
    (dot_S1024x2048_S2048x128_S1024x128_1_0_0_1_n_n.rhsIdx i q 0).val = (q ⟨0, by decide⟩).val :=
  dot_S1024x2048_S2048x128_S1024x128_1_0_0_1_n_n.rhsIdx_val_of_single rfl i q
/-- The right operand's column is the result's column. -/
theorem dotAcc_rhs_1 (i : S1024x128.Idx) (q : dot_S1024x2048_S2048x128_S1024x128_1_0_0_1_n_n.contr.Idx) :
    (dot_S1024x2048_S2048x128_S1024x128_1_0_0_1_n_n.rhsIdx i q 1).val = (i 1).val := by
  unfold DotDims.rhsIdx
  rw [dif_neg (show ¬(1 : Fin S2048x128.rank) ∈ dot_S1024x2048_S2048x128_S1024x128_1_0_0_1_n_n.rhsBatch by decide),
    dif_pos (show (1 : Fin S2048x128.rank) ∈ dot_S1024x2048_S2048x128_S1024x128_1_0_0_1_n_n.rhsNonContracting by decide)]
  rfl

/-- The product into a zero accumulator at `(d, j)`: the sum over the block's rows of the operands' products. -/
theorem dotAcc_zero_apply {φ₁ φ₂ : FTy} (A : FVec Ideal S1024x2048 φ₁) (B : FVec Ideal S2048x128 φ₂) (d : Fin 1024) (j : Fin 128) :
    matmul (F := Ideal) dot_S1024x2048_S2048x128_S1024x128_1_0_0_1_n_n none A B (constant S1024x128 .f32 0x00000000#32) (ix2 d j)
      = ∑ r : Fin 2048, A (ix2 d r) * B (ix2 r j) := by
  simp only [matmul]
  rw [Ideal.matmul_constant_zero_apply,
    ← Equiv.sum_comp (contrEquiv1 dot_S1024x2048_S2048x128_S1024x128_1_0_0_1_n_n 2048 rfl rfl).symm]
  refine Finset.sum_congr rfl fun k _ => ?_
  have hk := contrEquiv1_symm_val dot_S1024x2048_S2048x128_S1024x128_1_0_0_1_n_n 2048 rfl rfl k
  have el : dot_S1024x2048_S2048x128_S1024x128_1_0_0_1_n_n.lhsIdx (ix2 d j)
      ((contrEquiv1 dot_S1024x2048_S2048x128_S1024x128_1_0_0_1_n_n 2048 rfl rfl).symm k) = ix2 d k :=
    funext fun a => Fin.ext (by
      match a with
      | ⟨0, _⟩ => exact dotAcc_lhs_0 _ _
      | ⟨1, _⟩ => exact (dotAcc_lhs_1 _ _).trans hk)
  have er : dot_S1024x2048_S2048x128_S1024x128_1_0_0_1_n_n.rhsIdx (ix2 d j)
      ((contrEquiv1 dot_S1024x2048_S2048x128_S1024x128_1_0_0_1_n_n 2048 rfl rfl).symm k) = ix2 k j :=
    funext fun a => Fin.ext (by
      match a with
      | ⟨0, _⟩ => exact (dotAcc_rhs_0 _ _).trans hk
      | ⟨1, _⟩ => exact dotAcc_rhs_1 _ _)
  rw [el, er]

/-- The same with both operands narrowed first: narrowing changes no extended real. -/
theorem dotAcc_trunc_zero_apply (A : FVec Ideal S1024x2048 .f32) (B : FVec Ideal S2048x128 .f32) (d : Fin 1024) (j : Fin 128) :
    matmul (F := Ideal) dot_S1024x2048_S2048x128_S1024x128_1_0_0_1_n_n none
        (truncf .bf16 A bitsLt_bf16_f32) (truncf .bf16 B bitsLt_bf16_f32) (constant S1024x128 .f32 0x00000000#32) (ix2 d j)
      = ∑ r : Fin 2048, A (ix2 d r) * B (ix2 r j) :=
  dotAcc_zero_apply (truncf .bf16 A bitsLt_bf16_f32) (truncf .bf16 B bitsLt_bf16_f32) d j

/-- THE INDICATOR: one where the block's row `r` belongs to document `d`, zero elsewhere. -/
theorem pay8_apply (x2 : Vec Ideal S1x1x2048 .i32) (d : Fin 1024) (r : Fin 2048) :
    k0_pay8 (F := Ideal) x2 (ix2 d r) = if hit x2 d r then (1 : EReal) else 0 := by
  unfold k0_pay8
  -- the row operand: the iota column broadcast along the row reads the row number
  have hA : broadcastTo S1024x2048 (iota .tc S1024x1 32 [0] iota_S1024x1_d0_w32) broadcasts_S1024x1_S1024x2048 (ix2 d r)
      = BitVec.ofNat 32 d.val :=
    (broadcastTo_a1_ab_apply _ _ d r).trans (iota_single_apply .tc S1024x1 32 0 _ _)
  -- the column operand: the block's numbers, cast to one row and broadcast down the rows
  have hB : broadcastTo S1024x2048
        (shapeCast S1x2048 (shapeCast S1x1x2048 x2 shapeCasts_S1x1x2048_S1x1x2048) shapeCasts_S1x1x2048_S1x2048)
        broadcasts_S1x2048_S1024x2048 (ix2 d r) = x2 (ix3 (0 : Fin 1) (0 : Fin 1) r) := by
    refine (broadcastTo_1b_ab_apply _ _ d r).trans ?_
    refine (shapeCast_1ab_ab_apply _ _ (0 : Fin 1) r).trans ?_
    exact congrFun (shapeCast_self x2 _) _
  show (((((IntOp.cmpi .eq
      (broadcastTo S1024x2048 (iota .tc S1024x1 32 [0] iota_S1024x1_d0_w32) broadcasts_S1024x1_S1024x2048 (ix2 d r))
      (broadcastTo S1024x2048
        (shapeCast S1x2048 (shapeCast S1x1x2048 x2 shapeCasts_S1x1x2048_S1x1x2048) shapeCasts_S1x1x2048_S1x2048)
        broadcasts_S1x2048_S1024x2048 (ix2 d r))).setWidth 32).toInt : ℤ) : ℝ) : EReal) = _
  rw [hA, hB]
  have hd : d.val < 2 ^ 31 := by have := d.isLt; omega
  by_cases h : hit x2 d r
  · have e : x2 (ix3 (0 : Fin 1) (0 : Fin 1) r) = BitVec.ofNat 32 d.val :=
      (Cert.LibBlockSum.eq_ofNat_iff_toInt_eq _ _ hd).2 h
    rw [if_pos h, e]
    simp [IntOp.cmpi]
  · have e : ¬ x2 (ix3 (0 : Fin 1) (0 : Fin 1) r) = BitVec.ofNat 32 d.val := fun e =>
      h ((Cert.LibBlockSum.eq_ofNat_iff_toInt_eq _ _ hd).1 e)
    rw [if_neg h]
    have e' : (BitVec.ofNat 32 d.val == x2 (ix3 (0 : Fin 1) (0 : Fin 1) r)) = false := by
      rw [beq_eq_false_iff_ne]; exact fun q => e q.symm
    simp [IntOp.cmpi, e']

/-- THE ACCUMULATOR'S ADDEND, LEFT HALF: column `e < 64` gains the block's sum of the weights of expert `e` over the rows of document `d`. -/
theorem pay9_apply_left (x0 : Vec Ideal S2048x1024 .f32) (x1 : Vec Ideal S64x1024 .f32) (x2 : Vec Ideal S1x1x2048 .i32)
    (prev : Vec Ideal S1024x128 .f32) (d : Fin 1024) (e : Fin 64) :
    k0_pay9 (F := Ideal) x0 x1 x2 prev (ix2 d (⟨e.val, by omega⟩ : Fin 128))
      = prev (ix2 d (⟨e.val, by omega⟩ : Fin 128)) + blockSeg x2 (fun r => gate x0 x1 r e) d := by
  unfold k0_pay9
  refine (addf_apply _ _ _).trans ?_
  refine congrArg (prev (ix2 d (⟨e.val, by omega⟩ : Fin 128)) + ·) ?_
  refine (dotAcc_trunc_zero_apply _ _ d _).trans ?_
  unfold blockSeg
  refine Finset.sum_congr rfl fun r _ => ?_
  -- column `e` of the weights beside their squares is the weights' column `e`
  have hr : concatenate S2048x128 1
      [⟨S2048x64, k0_pay7 (F := Ideal) x0 x1⟩, ⟨S2048x64, mulf (k0_pay7 (F := Ideal) x0 x1) (k0_pay7 (F := Ideal) x0 x1)⟩]
      concatenates_S2048x64_S2048x64_S2048x128_d1 (ix2 r (⟨e.val, by omega⟩ : Fin 128)) = gate x0 x1 r e :=
    (concatenate_pair_apply_left (t := S2048x128) (s₁ := S2048x64) (s₂ := S2048x64) (1 : Fin S2048x128.rank) _ _ _ (ix2 r (⟨e.val, by omega⟩ : Fin 128)) rfl (ix2 r e)
      (fun b => match b with | ⟨0, _⟩ => rfl | ⟨1, _⟩ => rfl)).trans (pay7_apply x0 x1 r e)
  exact (congrArg₂ (· * ·) (pay8_apply x2 d r) hr).trans (Cert.LibBlockSum.ite_one_zero_mul _ _)

/-- THE ACCUMULATOR'S ADDEND, RIGHT HALF: column `64 + e` gains the block's sum of the squared weights. -/
theorem pay9_apply_right (x0 : Vec Ideal S2048x1024 .f32) (x1 : Vec Ideal S64x1024 .f32) (x2 : Vec Ideal S1x1x2048 .i32)
    (prev : Vec Ideal S1024x128 .f32) (d : Fin 1024) (e : Fin 64) :
    k0_pay9 (F := Ideal) x0 x1 x2 prev (ix2 d (⟨64 + e.val, by omega⟩ : Fin 128))
      = prev (ix2 d (⟨64 + e.val, by omega⟩ : Fin 128)) + blockSeg x2 (fun r => gate x0 x1 r e * gate x0 x1 r e) d := by
  unfold k0_pay9
  refine (addf_apply _ _ _).trans ?_
  refine congrArg (prev (ix2 d (⟨64 + e.val, by omega⟩ : Fin 128)) + ·) ?_
  refine (dotAcc_trunc_zero_apply _ _ d _).trans ?_
  unfold blockSeg
  refine Finset.sum_congr rfl fun r _ => ?_
  -- column `64 + e` of the weights beside their squares is the squares' column `e`
  have hr : concatenate S2048x128 1
      [⟨S2048x64, k0_pay7 (F := Ideal) x0 x1⟩, ⟨S2048x64, mulf (k0_pay7 (F := Ideal) x0 x1) (k0_pay7 (F := Ideal) x0 x1)⟩]
      concatenates_S2048x64_S2048x64_S2048x128_d1 (ix2 r (⟨64 + e.val, by omega⟩ : Fin 128))
        = gate x0 x1 r e * gate x0 x1 r e :=
    (concatenate_pair_apply_right (t := S2048x128) (s₁ := S2048x64) (s₂ := S2048x64) (1 : Fin S2048x128.rank) _ _ _ (ix2 r (⟨64 + e.val, by omega⟩ : Fin 128)) rfl rfl (ix2 r e)
      (fun b hb => match b, hb with | ⟨0, _⟩, _ => rfl | ⟨1, _⟩, hb => absurd rfl hb)
      (show e.val + 64 = 64 + e.val from Nat.add_comm _ _)).trans
      ((mulf_apply _ _ _).trans (congrArg₂ (· * ·) (pay7_apply x0 x1 r e) (pay7_apply x0 x1 r e)))
  exact (congrArg₂ (· * ·) (pay8_apply x2 d r) hr).trans (Cert.LibBlockSum.ite_one_zero_mul _ _)

/-- THE COUNTS' ADDEND: the number of the block's rows of document `d`. -/
theorem pay2_apply (x2 : Vec Ideal S1x1x2048 .i32) (prev : Vec Ideal S1024x1 .f32) (d : Fin 1024) :
    k0_pay2 (F := Ideal) (k0_pay8 (F := Ideal) x2) prev (ix2 d (0 : Fin 1))
      = prev (ix2 d (0 : Fin 1)) + blockSeg x2 (fun _ => (1 : EReal)) d := by
  unfold k0_pay2
  refine (congrFun (shapeCast_self _ _) _).trans ?_
  refine (addf_apply _ _ _).trans ?_
  refine congrArg (prev (ix2 d (0 : Fin 1)) + ·) ?_
  refine (shapeCast_a_a1_apply _ _ d (0 : Fin 1)).trans ?_
  refine (multiReduction_add_cols_apply _ _ _ _ d).trans ?_
  unfold blockSeg
  exact Finset.sum_congr rfl fun r _ => pay8_apply x2 d r

/-- The accumulators' resets are zero everywhere. -/
theorem pay5_apply (i : S1024x128.Idx) : k0_pay5 (F := Ideal) i = 0 := by
  unfold k0_pay5
  refine (congrFun (shapeCast_self _ _) i).trans ?_
  exact Cert.Consts.zeroE_eq
theorem pay6_apply (i : S1024x1.Idx) : k0_pay6 (F := Ideal) i = 0 := by
  unfold k0_pay6
  refine (congrFun (shapeCast_self _ _) i).trans ?_
  exact Cert.Consts.zeroE_eq

/-- The casts around the stores change no entry. -/
theorem pay1_apply (v : FVec Ideal S1024x128 .f32) (i : S1024x128.Idx) : k0_pay1 (F := Ideal) v i = v i := by
  unfold k0_pay1
  exact congrFun (shapeCast_self v _) i
theorem pay3_apply (v : Vec Ideal S1024x128 .f32) (d : Fin 1024) (j : Fin 128) :
    k0_pay3 (F := Ideal) v (ix3 (0 : Fin 1) d j) = v (ix2 d j) := by
  unfold k0_pay3
  exact shapeCast_ab_1ab_apply v _ (0 : Fin 1) d j
theorem pay4_apply (v : Vec Ideal S1024x1 .f32) (d : Fin 1024) :
    k0_pay4 (F := Ideal) v (ix3 (0 : Fin 1) d (0 : Fin 1)) = v (ix2 d (0 : Fin 1)) := by
  unfold k0_pay4
  exact shapeCast_ab_1ab_apply v _ (0 : Fin 1) d (0 : Fin 1)

end Cert.KernelIdeal.PayAcc

end
-- ==== Proof.LibAcc.lean ====
import Mathlib.Algebra.BigOperators.Fin

/-!
# An accumulator that is reset at the start of each stretch

The points `0, 1, …, B * T - 1` fall into `B` stretches of `T` consecutive points.  An accumulator that
holds the point's term at the first point of a stretch, and at every other point what the point before left
plus the point's term, holds at point `i` of stretch `b` the sum of the terms of the points `0, …, i` of that
stretch; at the stretch's last point, the sum over the whole stretch.
-/

namespace Cert.LibAcc

/-- Point `k` of stretch `b` is a point. -/
theorem idx_lt {T B : ℕ} (b : Fin B) {k : ℕ} (hk : k < T) : b.val * T + k < B * T :=
  calc b.val * T + k < b.val * T + T := Nat.add_lt_add_left hk _
    _ = (b.val + 1) * T := (Nat.succ_mul _ _).symm
    _ ≤ B * T := Nat.mul_le_mul_right T b.isLt

/-- Point `k` of a stretch has remainder `k`. -/
theorem mod_eq (b T k : ℕ) (hk : k < T) : (b * T + k) % T = k := by
  rw [Nat.add_comm, Nat.add_mul_mod_self_right, Nat.mod_eq_of_lt hk]

section
variable {M : Type} [AddCommMonoid M] (T B : ℕ) (acc s : (n : ℕ) → n < B * T → M)

/-- The accumulator at equal points. -/
theorem acc_congr {n n' : ℕ} (e : n = n') (h : n < B * T) (h' : n' < B * T) : acc n h = acc n' h' := by
  subst e; rfl

variable (hreset : ∀ n (hn : n < B * T), n % T = 0 → acc n hn = s n hn)
  (hstep : ∀ n (hn : n < B * T) (h : n % T ≠ 0), acc n hn = acc (n - 1) (by omega) + s n hn)

include hreset hstep in
/-- At point `k` of stretch `b` the accumulator holds the sum of the stretch's terms up to `k`. -/
theorem acc_prefix (b : Fin B) : ∀ (k : ℕ) (hk : k < T),
    acc (b.val * T + k) (idx_lt b hk)
      = ∑ i' : Fin (k + 1), s (b.val * T + i'.val) (idx_lt b (Nat.lt_of_lt_of_le i'.isLt hk))
  | 0, hk => by
    rw [Fin.sum_univ_one]
    exact hreset _ _ (mod_eq b.val T 0 hk)
  | k + 1, hk => by
    rw [Fin.sum_univ_castSucc]
    have hmod : (b.val * T + (k + 1)) % T ≠ 0 := by rw [mod_eq b.val T (k + 1) hk]; omega
    rw [hstep _ _ hmod]
    refine congrArg₂ (· + ·) ?_ rfl
    exact (acc_congr T B acc (by omega) _ (idx_lt b (Nat.lt_of_succ_lt hk))).trans
      (acc_prefix b k (Nat.lt_of_succ_lt hk))

include hreset hstep in
/-- The same over the points of a stretch as `Fin T`. -/
theorem acc_stretch (b : Fin B) (i : Fin T) :
    acc (b.val * T + i.val) (idx_lt b i.isLt)
      = ∑ i' : Fin (i.val + 1), s (b.val * T + i'.val) (idx_lt b (Nat.lt_of_lt_of_le i'.isLt i.isLt)) :=
  acc_prefix T B acc s hreset hstep b i.val i.isLt

include hreset hstep in
/-- At the last point of a stretch the accumulator holds the stretch's sum. -/
theorem acc_last (hT : 0 < T) (b : Fin B) :
    acc (b.val * T + (T - 1)) (idx_lt b (by omega)) = ∑ i : Fin T, s (b.val * T + i.val) (idx_lt b i.isLt) := by
  cases T with
  | zero => omega
  | succ T' => exact acc_prefix (T' + 1) B acc s hreset hstep b T' (Nat.lt_succ_self T')

end

section
variable {M : Type} [AddCommMonoid M] (T B : ℕ) (acc s : (n : ℕ) → n < B * T → M) (z : M) (hz : z = 0)
  (hreset : ∀ n (hn : n < B * T), n % T = 0 → acc n hn = z + s n hn)
  (hstep : ∀ n (hn : n < B * T) (h : n % T ≠ 0), acc n hn = acc (n - 1) (by omega) + s n hn)

include hz hreset hstep in
/-- The same when the first point of a stretch adds its term to a zero. -/
theorem acc_stretch_zero (b : Fin B) (i : Fin T) :
    acc (b.val * T + i.val) (idx_lt b i.isLt)
      = ∑ i' : Fin (i.val + 1), s (b.val * T + i'.val) (idx_lt b (Nat.lt_of_lt_of_le i'.isLt i.isLt)) :=
  acc_stretch T B acc s (fun n hn h => by rw [hreset n hn h, hz, zero_add]) hstep b i

include hz hreset hstep in
theorem acc_last_zero (hT : 0 < T) (b : Fin B) :
    acc (b.val * T + (T - 1)) (idx_lt b (by omega)) = ∑ i : Fin T, s (b.val * T + i.val) (idx_lt b i.isLt) :=
  acc_last T B acc s (fun n hn h => by rw [hreset n hn h, hz, zero_add]) hstep hT b

end

end Cert.LibAcc
-- ==== Proof.KAcc.lean ====
/-
  What the accumulators hold point by point, and what a core's last point copies out.

  Along a core's 64 points the accumulator is reset at the first and gains each point's addend; by induction over the
  stretch it holds, after step `i`, the sum of the addends of steps `0 … i`.  The last point copies it to the core's slot
  of the output: in column `e < 64` the sum over the core's 64 blocks of the block's sum of the weights of expert `e`
  over its rows of document `d`; in column `64 + e` the same of the squared weights; and for the counts the same of ones.
-/
import proofs.«427083_j32899449487922_3_alg».proof.Proof.KArgs
import proofs.«427083_j32899449487922_3_alg».proof.Proof.KPieces
import proofs.«427083_j32899449487922_3_alg».proof.Proof.KPayAcc
import proofs.«427083_j32899449487922_3_alg».proof.Proof.LibAcc
set_option maxRecDepth 16384

noncomputable section

open scoped BigOperators

namespace Cert.KernelIdeal.Acc

open Cert.KernelIdeal Cert.KernelIdeal.Gen
open Idealize.ShloMosaic Idealize.ShloMosaic.TcCoe Idealize.SL.Sem Idealize.ShloMosaic.ValueIdx Cert.Spec
open Cert.KernelIdeal.Args Cert.KernelIdeal.Pieces Cert.KernelIdeal.PayAcc

variable (m : (ℓ : Loc nD τ sig) → Buf (Elt Ideal) ℓ)

/-! ## The case equations, one component at a time -/

/-- At every point the block of weights left for writing back is the softmax term of the point's blocks. -/
theorem out3_at (c : Dev nD) (t : Fin cfg0.N) :
    (outsAt0 m c t.val t.isLt).1 = k0_pay7 (F := Ideal) (xblk m c t) (gblk m c t) := by
  by_cases h0 : t.val % 64 = 0
  · have h1 : ¬ t.val % 64 = 63 := by omega
    rw [outsAt0_A m c t h0 h1]
    dsimp only
    exact out0_A_3_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t)
  · by_cases h1 : t.val % 64 = 63
    · rw [outsAt0_C m c t h0 h1]
      dsimp only
      exact out0_C_3_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2
    · rw [outsAt0_B m c t h0 h1]
      dsimp only
      exact out0_B_3_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2

/-- The accumulator after a stretch's first point: the point's addend over the reset. -/
theorem acc_first (c : Dev nD) (t : Fin cfg0.N) (h0 : t.val % 64 = 0) :
    (outsAt0 m c t.val t.isLt).2.2.2.1
      = k0_pay1 (F := Ideal) (k0_pay9 (F := Ideal) (xblk m c t) (gblk m c t) (dblk m c t) (k0_pay5 (F := Ideal))) := by
  have h1 : ¬ t.val % 64 = 63 := by omega
  rw [outsAt0_A m c t h0 h1]
  dsimp only
  exact sout0_A_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t)

/-- The accumulator after any other point: the point's addend over what the point before left. -/
theorem acc_next (c : Dev nD) (t : Fin cfg0.N) (h0 : ¬ t.val % 64 = 0) :
    (outsAt0 m c t.val t.isLt).2.2.2.1
      = k0_pay1 (F := Ideal) (k0_pay9 (F := Ideal) (xblk m c t) (gblk m c t) (dblk m c t)
          (outsAt0 m c (t.val - 1) (Nat.lt_of_le_of_lt (Nat.sub_le _ _) t.isLt)).2.2.2.1) := by
  by_cases h1 : t.val % 64 = 63
  · rw [outsAt0_C m c t h0 h1]
    dsimp only
    exact sout0_C_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2
  · rw [outsAt0_B m c t h0 h1]
    dsimp only
    exact sout0_B_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2

/-- The counts after a stretch's first point: the block's counts over the reset. -/
theorem cnt_first (c : Dev nD) (t : Fin cfg0.N) (h0 : t.val % 64 = 0) :
    (outsAt0 m c t.val t.isLt).2.2.2.2
      = k0_pay2 (F := Ideal) (k0_pay8 (F := Ideal) (dblk m c t)) (k0_pay6 (F := Ideal)) := by
  have h1 : ¬ t.val % 64 = 63 := by omega
  rw [outsAt0_A m c t h0 h1]
  dsimp only
  exact sout0_A_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t)

/-- The counts after any other point: the block's counts over what the point before left. -/
theorem cnt_next (c : Dev nD) (t : Fin cfg0.N) (h0 : ¬ t.val % 64 = 0) :
    (outsAt0 m c t.val t.isLt).2.2.2.2
      = k0_pay2 (F := Ideal) (k0_pay8 (F := Ideal) (dblk m c t))
          (outsAt0 m c (t.val - 1) (Nat.lt_of_le_of_lt (Nat.sub_le _ _) t.isLt)).2.2.2.2 := by
  by_cases h1 : t.val % 64 = 63
  · rw [outsAt0_C m c t h0 h1]
    dsimp only
    exact sout0_C_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2
  · rw [outsAt0_B m c t h0 h1]
    dsimp only
    exact sout0_B_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2

/-- A stretch's last point copies the accumulator, with the point's addend in, to the sums' output. -/
theorem out4_eq_acc (c : Dev nD) (t : Fin cfg0.N) (h1 : t.val % 64 = 63) (d : Fin 1024) (j : Fin 128) :
    (outsAt0 m c t.val t.isLt).2.1 (ix3 (0 : Fin 1) d j) = (outsAt0 m c t.val t.isLt).2.2.2.1 (ix2 d j) := by
  have h0 : ¬ t.val % 64 = 0 := by omega
  rw [outsAt0_C m c t h0 h1]
  dsimp only
  refine (congrFun (out0_C_4_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2) (ix3 (0 : Fin 1) d j)).trans ?_
  refine (pay3_apply _ d j).trans ?_
  exact (congrFun (sout0_C_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2) (ix2 d j)).symm

/-- A stretch's last point copies the counts, with the block's in, to the counts' output. -/
theorem out5_eq_cnt (c : Dev nD) (t : Fin cfg0.N) (h1 : t.val % 64 = 63) (d : Fin 1024) :
    (outsAt0 m c t.val t.isLt).2.2.1 (ix3 (0 : Fin 1) d (0 : Fin 1)) = (outsAt0 m c t.val t.isLt).2.2.2.2 (ix2 d (0 : Fin 1)) := by
  have h0 : ¬ t.val % 64 = 0 := by omega
  rw [outsAt0_C m c t h0 h1]
  dsimp only
  refine (congrFun (out0_C_5_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2) (ix3 (0 : Fin 1) d (0 : Fin 1))).trans ?_
  refine (pay4_apply _ d).trans ?_
  exact (congrFun (sout0_C_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2) (ix2 d (0 : Fin 1))).symm

/-! ## The sum along a stretch -/

/-- A point of the two stretches of 64 is a grid point. -/
theorem lt_N {n : ℕ} (hn : n < 2 * 64) : n < cfg0.N := by
  have h : cfg0.N = 128 := N_0
  omega

/-- A quantity carried from point to point that at a stretch's first point is the point's term over a zero, and at every
    other point what the point before left plus the point's term, is at the stretch's last point the sum of the stretch's
    64 terms. -/
theorem stretch_sum (a : (n : ℕ) → n < cfg0.N → EReal) (f : Fin cfg0.N → EReal) (z : EReal) (hz : z = 0)
    (hreset : ∀ t : Fin cfg0.N, t.val % 64 = 0 → a t.val t.isLt = z + f t)
    (hstep : ∀ t : Fin cfg0.N, ¬ t.val % 64 = 0 →
      a t.val t.isLt = a (t.val - 1) (Nat.lt_of_le_of_lt (Nat.sub_le _ _) t.isLt) + f t)
    (b : Fin 2) : a (pt b 63).val (pt b 63).isLt = ∑ i : Fin 64, f (pt b i) := by
  have h := Cert.LibAcc.acc_last_zero (M := EReal) 64 2 (fun n hn => a n (lt_N hn)) (fun n hn => f ⟨n, lt_N hn⟩) z hz
    (fun n hn h => hreset ⟨n, lt_N hn⟩ h) (fun n hn h => hstep ⟨n, lt_N hn⟩ h) (by norm_num) b
  exact h

/-- The last point of a stretch has remainder 63. -/
theorem pt_last_mod (b : Fin 2) : (pt b 63).val % 64 = 63 := by
  show (b.val * 64 + 63) % 64 = 63
  omega

/-- A CORE'S SUMS OF WEIGHTS: what the core's last point leaves in the sums' output buffer, column `e < 64`. -/
theorem out4_last_left (c : Dev nD) (b : Fin 2) (d : Fin 1024) (e : Fin 64) :
    (outsAt0 m c (pt b 63).val (pt b 63).isLt).2.1 (ix3 (0 : Fin 1) d (⟨e.val, by omega⟩ : Fin 128))
      = ∑ i : Fin 64, blockSeg (dblk m c (pt b i)) (fun r => gate (xblk m c (pt b i)) (gblk m c (pt b i)) r e) d := by
  refine (out4_eq_acc m c (pt b 63) (pt_last_mod b) d _).trans ?_
  exact stretch_sum (fun n hn => (outsAt0 m c n hn).2.2.2.1 (ix2 d (⟨e.val, by omega⟩ : Fin 128)))
    (fun t => blockSeg (dblk m c t) (fun r => gate (xblk m c t) (gblk m c t) r e) d)
    (k0_pay5 (F := Ideal) (ix2 d (⟨e.val, by omega⟩ : Fin 128))) (pay5_apply _)
    (fun t h0 => (congrFun (acc_first m c t h0) _).trans ((pay1_apply _ _).trans (pay9_apply_left _ _ _ _ d e)))
    (fun t h0 => (congrFun (acc_next m c t h0) _).trans ((pay1_apply _ _).trans (pay9_apply_left _ _ _ _ d e))) b

/-- A CORE'S SUMS OF SQUARED WEIGHTS: the same, column `64 + e`. -/
theorem out4_last_right (c : Dev nD) (b : Fin 2) (d : Fin 1024) (e : Fin 64) :
    (outsAt0 m c (pt b 63).val (pt b 63).isLt).2.1 (ix3 (0 : Fin 1) d (⟨64 + e.val, by omega⟩ : Fin 128))
      = ∑ i : Fin 64, blockSeg (dblk m c (pt b i))
          (fun r => gate (xblk m c (pt b i)) (gblk m c (pt b i)) r e * gate (xblk m c (pt b i)) (gblk m c (pt b i)) r e) d := by
  refine (out4_eq_acc m c (pt b 63) (pt_last_mod b) d _).trans ?_
  exact stretch_sum (fun n hn => (outsAt0 m c n hn).2.2.2.1 (ix2 d (⟨64 + e.val, by omega⟩ : Fin 128)))
    (fun t => blockSeg (dblk m c t) (fun r => gate (xblk m c t) (gblk m c t) r e * gate (xblk m c t) (gblk m c t) r e) d)
    (k0_pay5 (F := Ideal) (ix2 d (⟨64 + e.val, by omega⟩ : Fin 128))) (pay5_apply _)
    (fun t h0 => (congrFun (acc_first m c t h0) _).trans ((pay1_apply _ _).trans (pay9_apply_right _ _ _ _ d e)))
    (fun t h0 => (congrFun (acc_next m c t h0) _).trans ((pay1_apply _ _).trans (pay9_apply_right _ _ _ _ d e))) b

/-- A CORE'S COUNTS: what the core's last point leaves in the counts' output buffer. -/
theorem out5_last (c : Dev nD) (b : Fin 2) (d : Fin 1024) :
    (outsAt0 m c (pt b 63).val (pt b 63).isLt).2.2.1 (ix3 (0 : Fin 1) d (0 : Fin 1))
      = ∑ i : Fin 64, blockSeg (dblk m c (pt b i)) (fun _ => (1 : EReal)) d := by
  refine (out5_eq_cnt m c (pt b 63) (pt_last_mod b) d).trans ?_
  exact stretch_sum (fun n hn => (outsAt0 m c n hn).2.2.2.2 (ix2 d (0 : Fin 1)))
    (fun t => blockSeg (dblk m c t) (fun _ => (1 : EReal)) d)
    (k0_pay6 (F := Ideal) (ix2 d (0 : Fin 1))) (pay6_apply _)
    (fun t h0 => (congrFun (cnt_first m c t h0) _).trans (pay2_apply _ _ d))
    (fun t h0 => (congrFun (cnt_next m c t h0) _).trans (pay2_apply _ _ d)) b

end Cert.KernelIdeal.Acc

end
-- ==== Proof.KArr.lean ====
/-
  The three output arrays after the run, as functions of the argument arrays.

  Block `t` of `x` is rows `2048 t … 2048 t + 2047`, the gate matrix is one block, and block `t` of the document numbers
  (a `[128, 1, 2048]` reshape of the input) is the numbers of those same rows.  Every point writes its block of weights
  back, and the blocks tile the weights' array, so it ends holding every row's gate weights.  The sums' and counts' arrays
  `[2, 1024, …]` are written once per core, at the core's last point, with the core's sums over its 64 blocks.
-/
import proofs.«427083_j32899449487922_3_alg».proof.Proof.KArgs
import proofs.«427083_j32899449487922_3_alg».proof.Proof.KAcc
import proofs.«427083_j32899449487922_3_alg».proof.Proof.KPaySoftmax
import Idealize.ShloMosaic.Lib.Pipeline.Value
set_option maxRecDepth 16384

noncomputable section

open scoped BigOperators

namespace Cert.KernelIdeal.Arr

open Cert.KernelIdeal Cert.KernelIdeal.Gen
open Idealize.ShloMosaic Idealize.ShloMosaic.TcCoe Idealize.SL.Sem Idealize.ShloMosaic.ValueIdx Cert.Spec
open Cert.KernelIdeal.Args Cert.KernelIdeal.Acc Cert.KernelIdeal.PaySoftmax

variable (m : (ℓ : Loc nD τ sig) → Buf (Elt Ideal) ℓ)

/-! ## The block indices

Point `t` sees block `t` of `x`, of the document numbers and of the weights' array (on the leading axis; `0` on the
others), block `(0, 0)` of the gate matrix, and slot `t / 64` — its core — of the sums' and counts' arrays. -/

/-- The index maps' values at every grid point. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0
    ∧ win0_3.index t (0 : Fin 2) = t.val ∧ win0_3.index t (1 : Fin 2) = 0
    ∧ win0_4.index t (0 : Fin 3) = t.val / 64 ∧ win0_4.index t (1 : Fin 3) = 0 ∧ win0_4.index t (2 : Fin 3) = 0
    ∧ win0_5.index t (0 : Fin 3) = t.val / 64 ∧ win0_5.index t (1 : Fin 3) = 0 ∧ win0_5.index t (2 : Fin 3) = 0 :=
  (by decide +kernel : ∀ t : Fin grid0.N, _)

/-! ## The input blocks as rows of the argument arrays

An element of a block sits in its array, on each axis, at the block index times the block's size plus its own coordinate. -/

/-- Row `r` of point `t`'s block of `x` is row `2048 t + r` of `x`. -/
theorem xblk_apply (c : Dev nD) (t : Fin cfg0.N) (y : S2048x1024.Idx) (k : S262144x1024.Idx)
    (hk0 : (k 0).val = t.val * 2048 + (y 0).val) (hk1 : (k 1).val = (y 1).val) :
    xblk m c t y = argX m c k := by
  obtain ⟨e0, e1, -⟩ := idx_facts t
  unfold xblk iblk
  rw [View.read_apply]
  show V m c main_arg0 (((cfg0.win 0).blk t).view.emb y) = _
  rw [V_main_arg0]
  show m (c.tc.loc main_arg0) _ = m (c.tc.loc main_arg0) k
  congr 1
  funext a
  apply Fin.ext
  match a with
  | ⟨0, _⟩ => show win0_0.index t (0 : Fin 2) * 2048 + 1 * (y 0).val = (k 0).val; rw [e0, hk0]; omega
  | ⟨1, _⟩ => show win0_0.index t (1 : Fin 2) * 1024 + 1 * (y 1).val = (k 1).val; rw [e1, hk1]; omega

/-- Every point's block of the gate matrix is the gate matrix. -/
theorem gblk_apply (c : Dev nD) (t : Fin cfg0.N) (y : S64x1024.Idx) :
    gblk m c t y = argW m c y := by
  obtain ⟨-, -, e0, e1, -⟩ := idx_facts t
  unfold gblk iblk
  rw [View.read_apply]
  show V m c main_arg2 (((cfg0.win 1).blk t).view.emb y) = _
  rw [V_main_arg2]
  show m (c.tc.loc main_arg2) _ = m (c.tc.loc main_arg2) y
  congr 1
  funext a
  apply Fin.ext
  match a with
  | ⟨0, _⟩ => show win0_1.index t (0 : Fin 2) * 64 + 1 * (y 0).val = (y 0).val; rw [e0]; omega
  | ⟨1, _⟩ => show win0_1.index t (1 : Fin 2) * 1024 + 1 * (y 1).val = (y 1).val; rw [e1]; omega

/-- The document numbers' `[128, 1, 2048]` array, as the region finds it, is the rank-1 input in row-major order. -/
theorem V_v0 (c : Dev nD) : (V m c main_v0 : S128x1x2048.Idx → BitVec 32)
    = shapeCast S128x1x2048 (argD m c) shapeCasts_S262144_S128x1x2048 := by
  dsimp only [Gen.V, Gen.V0]
  simp only [Gen.hostOps0, List.flatten_cons, List.flatten_nil, List.append_nil]
  after_results
  rfl

/-- Entry `(t, 0, r)` of the `[128, 1, 2048]` array is entry `2048 t + r` of the rank-1 array: the same row-major position. -/
theorem cast_apply (A : S262144.Idx → BitVec 32) (j : S128x1x2048.Idx) (n : Fin 262144)
    (hn : n.val = (j 0).val * 2048 + (j 2).val) :
    shapeCast S128x1x2048 A shapeCasts_S262144_S128x1x2048 j = A (ix1 n) := by
  refine shapeCast_apply A _ j (ix1 n) ?_
  rw [Shape.rowMajor_val_one, Shape.rowMajor_val_three]
  have h1 : (j 1).val < 1 := (j 1).isLt
  show n.val = ((j 0).val * 1 + (j 1).val) * 2048 + (j 2).val
  omega

/-- Entry `r` of point `t`'s block of document numbers is the number of row `2048 t + r`. -/
theorem dblk_apply (c : Dev nD) (t : Fin cfg0.N) (r : Fin 2048) (n : Fin 262144)
    (hn : n.val = t.val * 2048 + r.val) :
    dblk m c t (ix3 (0 : Fin 1) (0 : Fin 1) r) = argD m c (ix1 n) := by
  obtain ⟨-, -, -, -, e0, e1, e2, -⟩ := idx_facts t
  unfold dblk iblk
  rw [View.read_apply]
  show V m c main_v0 (((cfg0.win 2).blk t).view.emb (ix3 (0 : Fin 1) (0 : Fin 1) r)) = _
  rw [V_v0]
  refine cast_apply (argD m c) _ n ?_
  rw [hn]
  show _ = (win0_2.index t (0 : Fin 3) * 1 + 1 * 0) * 2048 + (win0_2.index t (2 : Fin 3) * 2048 + 1 * r.val)
  rw [e0, e2]; omega

/-! ## Gate weights of a block's rows

The logits of a row read that row of `x` and the gate matrix only, and the gate weight is the softmax of the logits: two
arrays that agree on a row (and on the gate matrix) have the same gate weights there. -/

/-- The logits of a row only read that row: a block's row against the array's row. -/
theorem logit_congr {N N' : ℕ} (X : (⟨2, ![N, 1024]⟩ : Shape).Idx → EReal) (X' : (⟨2, ![N', 1024]⟩ : Shape).Idx → EReal)
    (Wg Wg' : (⟨2, ![64, 1024]⟩ : Shape).Idx → EReal) (n : Fin N) (n' : Fin N')
    (hx : ∀ k : Fin 1024, X (ix2 n k) = X' (ix2 n' k)) (hw : ∀ (e : Fin 64) (k : Fin 1024), Wg (ix2 e k) = Wg' (ix2 e k)) :
    logit X Wg n = logit X' Wg' n' := by
  funext e
  unfold logit
  exact Finset.sum_congr rfl fun k _ => by rw [hx k, hw e k]

/-- So do the gate weights. -/
theorem gate_congr {N N' : ℕ} (X : (⟨2, ![N, 1024]⟩ : Shape).Idx → EReal) (X' : (⟨2, ![N', 1024]⟩ : Shape).Idx → EReal)
    (Wg Wg' : (⟨2, ![64, 1024]⟩ : Shape).Idx → EReal) (n : Fin N) (n' : Fin N')
    (hx : ∀ k : Fin 1024, X (ix2 n k) = X' (ix2 n' k)) (hw : ∀ (e : Fin 64) (k : Fin 1024), Wg (ix2 e k) = Wg' (ix2 e k))
    (e : Fin 64) : gate X Wg n e = gate X' Wg' n' e := by
  unfold gate
  rw [logit_congr X X' Wg Wg' n n' hx hw]

/-- The gate weight of row `r` of point `t`'s block is the gate weight of row `2048 t + r` of the array. -/
theorem gate_pt (c : Dev nD) (t : Fin cfg0.N) (r : Fin 2048) (n : Fin 262144) (hn : n.val = t.val * 2048 + r.val) (e : Fin 64) :
    gate (xblk m c t) (gblk m c t) r e = wOf m c n e :=
  gate_congr (xblk m c t) (argX m c) (gblk m c t) (argW m c) r n
    (fun k => xblk_apply m c t (ix2 r k) (ix2 n k) hn rfl) (fun e k => gblk_apply m c t (ix2 e k)) e

/-! ## The weights' array -/

/-- The body's softmax term at any index of its block. -/
theorem pay7_at (x0 : Vec Ideal S2048x1024 .f32) (x1 : Vec Ideal S64x1024 .f32) (y : S2048x64.Idx) :
    k0_pay7 (F := Ideal) x0 x1 y = gate x0 x1 (y 0) (y 1) :=
  (congrArg (k0_pay7 (F := Ideal) x0 x1) (eq_ix2 y)).trans (pay7_apply x0 x1 (y 0) (y 1))

/-- What point `t` writes back is block `t` of the array of all rows' gate weights. -/
theorem flushed3_eq (c : Dev nD) (t : Fin cfg0.N) :
    (dats m 0 c).flushed 3 t = ((cfg0.win 3).blk t).view.read (Elt Ideal) (gateArr (argX m c) (argW m c)) := by
  obtain ⟨-, -, -, -, -, -, -, e0, e1, -⟩ := idx_facts t
  show (cfg0.win 3).cut (grid0.coords t) ((dats m 0 c).after 3 t) = _
  rw [after0_3, out3_at]
  funext j
  rw [View.read_apply]
  refine (pay7_at _ _ _).trans ?_
  show gate (xblk m c t) (gblk m c t) _ _ = gate (argX m c) (argW m c) ((((cfg0.win 3).blk t).view.emb j) 0) ((((cfg0.win 3).blk t).view.emb j) 1)
  have h1 : (⟨(j 1).val, (j 1).isLt⟩ : Fin 64) = (((cfg0.win 3).blk t).view.emb j) 1 := by
    apply Fin.ext
    show (j 1).val = win0_3.index t (1 : Fin 2) * 64 + 1 * (j 1).val
    rw [e1]; omega
  rw [← h1]
  refine gate_pt m c t _ _ ?_ _
  show win0_3.index t (0 : Fin 2) * 2048 + 1 * (j 0).val = t.val * 2048 + (j 0).val
  rw [e0]; omega

/-- An index of the weights' array is in point `t`'s block iff each coordinate is in the block's range on its axis. -/
theorem mem_blk3 (t : Fin cfg0.N) (i : S262144x64.Idx) :
    i ∈ ((cfg0.win 3).blk t).view.set ↔ ∀ a : Fin 2, win0_3.index t a * S2048x64.size a ≤ (i a).val ∧ (i a).val < win0_3.index t a * S2048x64.size a + S2048x64.size a := by
  show i ∈ ((View.whole main_v1_0).slice (win0_3.rect t)).set ↔ _
  rw [View.set_slice_whole, Rect.mem_set_unit]
  exact Iff.rfl

/-- THE WEIGHTS: the first output array ends holding every row's gate weights. (Row `n` is in the block of point `n / 2048`,
    and every point writes its block back.) -/
theorem arr3 (c : Dev nD) :
    ((dats m 0 c).arrAt 3 cfg0.N : S262144x64.Idx → EReal) = gateArr (argX m c) (argW m c) :=
  (dats m 0 c).arrAt_eq_of_cover 3 (gateArr (argX m c) (argW m c)) (fun t _ => flushed3_eq m c t) fun i => by
    have hN : cfg0.N = 128 := N_0
    have h0 : (i 0).val < 262144 := (i 0).isLt
    have h1 : (i 1).val < 64 := (i 1).isLt
    have ht : (i 0).val / 2048 < cfg0.N := by omega
    obtain ⟨-, -, -, -, -, -, -, e0, e1, -⟩ := idx_facts ⟨(i 0).val / 2048, ht⟩
    refine ⟨⟨(i 0).val / 2048, ht⟩, flush0_3 _, ?_⟩
    rw [mem_blk3]
    intro a
    match a with
    | ⟨0, _⟩ =>
      show win0_3.index ⟨(i 0).val / 2048, ht⟩ (0 : Fin 2) * 2048 ≤ (i 0).val ∧ (i 0).val < win0_3.index ⟨(i 0).val / 2048, ht⟩ (0 : Fin 2) * 2048 + 2048
      rw [e0]; show (i 0).val / 2048 * 2048 ≤ (i 0).val ∧ (i 0).val < (i 0).val / 2048 * 2048 + 2048; omega
    | ⟨1, _⟩ =>
      show win0_3.index ⟨(i 0).val / 2048, ht⟩ (1 : Fin 2) * 64 ≤ (i 1).val ∧ (i 1).val < win0_3.index ⟨(i 0).val / 2048, ht⟩ (1 : Fin 2) * 64 + 64
      rw [e1]; omega

/-! ## The per-core arrays -/

/-- One core's segment sum, block by block: row `r` of block `i` of core `b` is row `rowOf b i r`, the block's number for it is
    that row's number, and the summand is the row's. -/
theorem coreSeg_blocks (c : Dev nD) (b : Fin 2) (d : Fin 1024) (f : Fin 262144 → EReal) (g : Fin 64 → Fin 2048 → EReal)
    (hg : ∀ i r, g i r = f (rowOf b i r)) :
    ∑ i : Fin 64, blockSeg (dblk m c (pt b i)) (g i) d = coreSeg (dOf m c) f b d := by
  unfold coreSeg blockSeg
  refine Finset.sum_congr rfl fun i _ => Finset.sum_congr rfl fun r _ => ?_
  have hd : dblk m c (pt b i) (ix3 (0 : Fin 1) (0 : Fin 1) r) = argD m c (ix1 (rowOf b i r)) :=
    dblk_apply m c (pt b i) r (rowOf b i r) rfl
  show (if (dblk m c (pt b i) (ix3 (0 : Fin 1) (0 : Fin 1) r)).toInt = (d.val : Int) then g i r else 0)
    = if (argD m c (ix1 (rowOf b i r))).toInt = (d.val : Int) then f (rowOf b i r) else 0
  rw [hd, hg]

/-- A core's sum of the weights of expert `e` over its rows of document `d`. -/
def sumW (c : Dev nD) (b : Fin 2) (d : Fin 1024) (e : Fin 64) : EReal := coreSeg (dOf m c) (fun n => wOf m c n e) b d
/-- The same of the squared weights. -/
def sumW2 (c : Dev nD) (b : Fin 2) (d : Fin 1024) (e : Fin 64) : EReal :=
  coreSeg (dOf m c) (fun n => wOf m c n e * wOf m c n e) b d

/-- A column at or past 64 of 128 is 64 plus an expert. -/
theorem sub64_lt {l : ℕ} (h : l < 128) (h' : ¬l < 64) : l - 64 < 64 := by omega

/-- What the sums' array ends holding at `(b, d, l)`: columns `0 … 63` the sums of weights, columns `64 … 127` of squared weights. -/
def col4 (c : Dev nD) (b : Fin 2) (d : Fin 1024) (l : Fin 128) : EReal :=
  if h : l.val < 64 then sumW m c b d ⟨l.val, h⟩ else sumW2 m c b d ⟨l.val - 64, sub64_lt l.isLt h⟩
/-- The sums' array as a function of the index. -/
def G4 (c : Dev nD) : S2x1024x128.Idx → EReal := fun i => col4 m c (i 0) (i 1) (i 2)

/-- Its left half. -/
theorem col4_left (c : Dev nD) (b : Fin 2) (d : Fin 1024) (l : Fin 128) (h : l.val < 64) :
    col4 m c b d l = sumW m c b d ⟨l.val, h⟩ := by unfold col4; exact dif_pos h
/-- Its right half. -/
theorem col4_right (c : Dev nD) (b : Fin 2) (d : Fin 1024) (l : Fin 128) (h : ¬l.val < 64) :
    col4 m c b d l = sumW2 m c b d ⟨l.val - 64, sub64_lt l.isLt h⟩ := by unfold col4; exact dif_neg h

/-- What the counts' array ends holding. -/
def G5 (c : Dev nD) : S2x1024x1.Idx → EReal := fun i => coreSeg (dOf m c) (fun _ => (1 : EReal)) (i 0) (i 1)

/-- What a core's last point leaves in the sums' buffer, at any index of the block: columns below 64 by the sums of
    weights, the others by the sums of squared weights, each block's sum re-read over the rows of the arrays. -/
theorem out4_at (c : Dev nD) (b : Fin 2) (y : S1x1024x128.Idx) :
    (outsAt0 m c (pt b 63).val (pt b 63).isLt).2.1 y = G4 m c (ix3 b (y 1) (y 2)) := by
  have h2 : (y 2).val < 128 := (y 2).isLt
  have h0 : y 0 = (0 : Fin 1) := Fin.ext (by have h := (y 0).isLt; change (y 0).val < 1 at h; show (y 0).val = 0; omega)
  by_cases h : (y 2).val < 64
  · have hy : y = ix3 (0 : Fin 1) (y 1) (⟨(⟨(y 2).val, h⟩ : Fin 64).val, by omega⟩ : Fin 128) := by
      funext a; match a with | ⟨0, _⟩ => exact h0 | ⟨1, _⟩ => rfl | ⟨2, _⟩ => rfl
    refine (congrArg (outsAt0 m c (pt b 63).val (pt b 63).isLt).2.1 hy).trans ?_
    refine (out4_last_left m c b (y 1) ⟨(y 2).val, h⟩).trans ?_
    refine (coreSeg_blocks m c b (y 1) (fun n => wOf m c n ⟨(y 2).val, h⟩) _
      (fun i r => gate_pt m c (pt b i) r (rowOf b i r) rfl ⟨(y 2).val, h⟩)).trans ?_
    exact (col4_left m c b (y 1) (y 2) h).symm
  · have hy : y = ix3 (0 : Fin 1) (y 1) (⟨64 + (⟨(y 2).val - 64, sub64_lt h2 h⟩ : Fin 64).val, by omega⟩ : Fin 128) := by
      funext a
      match a with
      | ⟨0, _⟩ => exact h0
      | ⟨1, _⟩ => rfl
      | ⟨2, _⟩ => exact Fin.ext (by show (y 2).val = 64 + ((y 2).val - 64); omega)
    refine (congrArg (outsAt0 m c (pt b 63).val (pt b 63).isLt).2.1 hy).trans ?_
    refine (out4_last_right m c b (y 1) ⟨(y 2).val - 64, sub64_lt h2 h⟩).trans ?_
    refine (coreSeg_blocks m c b (y 1)
      (fun n => wOf m c n ⟨(y 2).val - 64, sub64_lt h2 h⟩ * wOf m c n ⟨(y 2).val - 64, sub64_lt h2 h⟩) _
      (fun i r => by rw [gate_pt m c (pt b i) r (rowOf b i r) rfl])).trans ?_
    exact (col4_right m c b (y 1) (y 2) h).symm

/-- What a core's last point leaves in the counts' buffer, at any index of the block. -/
theorem out5_at (c : Dev nD) (b : Fin 2) (y : S1x1024x1.Idx) :
    (outsAt0 m c (pt b 63).val (pt b 63).isLt).2.2.1 y = G5 m c (ix3 b (y 1) (y 2)) := by
  have h0 : y 0 = (0 : Fin 1) := Fin.ext (by have h := (y 0).isLt; change (y 0).val < 1 at h; show (y 0).val = 0; omega)
  have h2 : y 2 = (0 : Fin 1) := Fin.ext (by have h := (y 2).isLt; change (y 2).val < 1 at h; show (y 2).val = 0; omega)
  have hy : y = ix3 (0 : Fin 1) (y 1) (0 : Fin 1) := by
    funext a; match a with | ⟨0, _⟩ => exact h0 | ⟨1, _⟩ => rfl | ⟨2, _⟩ => exact h2
  refine (congrArg (outsAt0 m c (pt b 63).val (pt b 63).isLt).2.2.1 hy).trans ?_
  refine (out5_last m c b (y 1)).trans ?_
  exact coreSeg_blocks m c b (y 1) (fun _ => (1 : EReal)) _ (fun i r => rfl)

/-- A point that writes the per-core arrays back is a core's last. -/
theorem pt_of_flush (t : Fin cfg0.N) (h : t.val % 64 = 63) : ∃ b : Fin 2, t = pt b 63 := by
  have hN : cfg0.N = 128 := N_0
  have ht := t.isLt
  exact ⟨⟨t.val / 64, by omega⟩, Fin.ext (by show t.val = t.val / 64 * 64 + 63; omega)⟩

/-- What a core's last point writes back to the sums' array is the core's slot of `G4`. -/
theorem flushed4_eq (c : Dev nD) (t : Fin cfg0.N) (hf : (cfg0.win 4).flush t = true) :
    (dats m 0 c).flushed 4 t = ((cfg0.win 4).blk t).view.read (Elt Ideal) (G4 m c) := by
  obtain ⟨b, rfl⟩ := pt_of_flush t ((flush0_4 t).mp hf)
  obtain ⟨-, -, -, -, -, -, -, -, -, e0, e1, e2, -⟩ := idx_facts (pt b 63)
  show (cfg0.win 4).cut (grid0.coords (pt b 63)) ((dats m 0 c).after 4 (pt b 63)) = _
  rw [after0_4]
  funext j
  rw [View.read_apply]
  refine (out4_at m c b _).trans ?_
  refine congrArg (G4 m c) ?_
  have hj0 : (j 0).val < 1 := (j 0).isLt
  have hb := b.isLt
  funext a
  apply Fin.ext
  match a with
  | ⟨0, _⟩ =>
    show b.val = win0_4.index (pt b 63) (0 : Fin 3) * 1 + 1 * (j 0).val
    rw [e0]; show b.val = (b.val * 64 + 63) / 64 * 1 + 1 * (j 0).val; omega
  | ⟨1, _⟩ => show (j 1).val = win0_4.index (pt b 63) (1 : Fin 3) * 1024 + 1 * (j 1).val; rw [e1]; omega
  | ⟨2, _⟩ => show (j 2).val = win0_4.index (pt b 63) (2 : Fin 3) * 128 + 1 * (j 2).val; rw [e2]; omega

/-- What a core's last point writes back to the counts' array is the core's slot of `G5`. -/
theorem flushed5_eq (c : Dev nD) (t : Fin cfg0.N) (hf : (cfg0.win 5).flush t = true) :
    (dats m 0 c).flushed 5 t = ((cfg0.win 5).blk t).view.read (Elt Ideal) (G5 m c) := by
  obtain ⟨b, rfl⟩ := pt_of_flush t ((flush0_5 t).mp hf)
  obtain ⟨-, -, -, -, -, -, -, -, -, -, -, -, e0, e1, e2⟩ := idx_facts (pt b 63)
  show (cfg0.win 5).cut (grid0.coords (pt b 63)) ((dats m 0 c).after 5 (pt b 63)) = _
  rw [after0_5]
  funext j
  rw [View.read_apply]
  refine (out5_at m c b _).trans ?_
  refine congrArg (G5 m c) ?_
  have hj0 : (j 0).val < 1 := (j 0).isLt
  have hb := b.isLt
  funext a
  apply Fin.ext
  match a with
  | ⟨0, _⟩ =>
    show b.val = win0_5.index (pt b 63) (0 : Fin 3) * 1 + 1 * (j 0).val
    rw [e0]; show b.val = (b.val * 64 + 63) / 64 * 1 + 1 * (j 0).val; omega
  | ⟨1, _⟩ => show (j 1).val = win0_5.index (pt b 63) (1 : Fin 3) * 1024 + 1 * (j 1).val; rw [e1]; omega
  | ⟨2, _⟩ => show (j 2).val = win0_5.index (pt b 63) (2 : Fin 3) * 1 + 1 * (j 2).val; rw [e2]; omega

/-- An index of the sums' array is in point `t`'s block iff each coordinate is in the block's range on its axis. -/
theorem mem_blk4 (t : Fin cfg0.N) (i : S2x1024x128.Idx) :
    i ∈ ((cfg0.win 4).blk t).view.set ↔ ∀ a : Fin 3, win0_4.index t a * S1x1024x128.size a ≤ (i a).val ∧ (i a).val < win0_4.index t a * S1x1024x128.size a + S1x1024x128.size a := by
  show i ∈ ((View.whole main_v1_1).slice (win0_4.rect t)).set ↔ _
  rw [View.set_slice_whole, Rect.mem_set_unit]
  exact Iff.rfl

/-- The same for the counts' array. -/
theorem mem_blk5 (t : Fin cfg0.N) (i : S2x1024x1.Idx) :
    i ∈ ((cfg0.win 5).blk t).view.set ↔ ∀ a : Fin 3, win0_5.index t a * S1x1024x1.size a ≤ (i a).val ∧ (i a).val < win0_5.index t a * S1x1024x1.size a + S1x1024x1.size a := by
  show i ∈ ((View.whole main_v1_2).slice (win0_5.rect t)).set ↔ _
  rw [View.set_slice_whole, Rect.mem_set_unit]
  exact Iff.rfl

/-- Entry `(b, d, l)` of the sums' array after the run: it lies in the block of core `b`'s last point, which writes back
    the core's slot; a later write-back that covers it writes the same value. -/
theorem arr4_at (c : Dev nD) (b : Fin 2) (d : Fin 1024) (l : Fin 128) :
    ((dats m 0 c).arrAt 4 cfg0.N : S2x1024x128.Idx → EReal) (ix3 b d l) = col4 m c b d l := by
  obtain ⟨-, -, -, -, -, -, -, -, -, e0, e1, e2, -⟩ := idx_facts (pt b 63)
  have hb := b.isLt
  refine (dats m 0 c).arrAt_apply_of_mem 4 (G4 m c) (flushed4_eq m c) cfg0.N (pt b 63) (ix3 b d l) (pt b 63).isLt
    ((flush0_4 _).mpr ?_) ?_
  · show (b.val * 64 + 63) % 64 = 63; omega
  · rw [mem_blk4]
    intro a
    match a with
    | ⟨0, _⟩ =>
      show win0_4.index (pt b 63) (0 : Fin 3) * 1 ≤ b.val ∧ b.val < win0_4.index (pt b 63) (0 : Fin 3) * 1 + 1
      rw [e0]; show (b.val * 64 + 63) / 64 * 1 ≤ b.val ∧ b.val < (b.val * 64 + 63) / 64 * 1 + 1; omega
    | ⟨1, _⟩ =>
      show win0_4.index (pt b 63) (1 : Fin 3) * 1024 ≤ d.val ∧ d.val < win0_4.index (pt b 63) (1 : Fin 3) * 1024 + 1024
      rw [e1]; omega
    | ⟨2, _⟩ =>
      show win0_4.index (pt b 63) (2 : Fin 3) * 128 ≤ l.val ∧ l.val < win0_4.index (pt b 63) (2 : Fin 3) * 128 + 128
      rw [e2]; omega

/-- THE PER-CORE SUMS OF WEIGHTS: slot `b` of the second output array, column `e < 64`. -/
theorem arr4_left (c : Dev nD) (b : Fin 2) (d : Fin 1024) (e : Fin 64) :
    ((dats m 0 c).arrAt 4 cfg0.N : S2x1024x128.Idx → EReal) (ix3 b d (⟨e.val, by omega⟩ : Fin 128))
      = coreSeg (dOf m c) (fun n => wOf m c n e) b d :=
  (arr4_at m c b d ⟨e.val, by omega⟩).trans (col4_left m c b d ⟨e.val, by omega⟩ e.isLt)

/-- THE PER-CORE SUMS OF SQUARED WEIGHTS: the same, column `64 + e`. -/
theorem arr4_right (c : Dev nD) (b : Fin 2) (d : Fin 1024) (e : Fin 64) :
    ((dats m 0 c).arrAt 4 cfg0.N : S2x1024x128.Idx → EReal) (ix3 b d (⟨64 + e.val, by omega⟩ : Fin 128))
      = coreSeg (dOf m c) (fun n => wOf m c n e * wOf m c n e) b d :=
  (arr4_at m c b d ⟨64 + e.val, by omega⟩).trans
    ((col4_right m c b d ⟨64 + e.val, by omega⟩ (by show ¬64 + e.val < 64; omega)).trans
      (congrArg (sumW2 m c b d) (Fin.ext (by show 64 + e.val - 64 = e.val; omega))))

/-- THE PER-CORE COUNTS: slot `b` of the third output array. -/
theorem arr5 (c : Dev nD) (b : Fin 2) (d : Fin 1024) :
    ((dats m 0 c).arrAt 5 cfg0.N : S2x1024x1.Idx → EReal) (ix3 b d (0 : Fin 1))
      = coreSeg (dOf m c) (fun _ => (1 : EReal)) b d := by
  obtain ⟨-, -, -, -, -, -, -, -, -, -, -, -, e0, e1, e2⟩ := idx_facts (pt b 63)
  have hb := b.isLt
  refine (dats m 0 c).arrAt_apply_of_mem 5 (G5 m c) (flushed5_eq m c) cfg0.N (pt b 63) (ix3 b d (0 : Fin 1)) (pt b 63).isLt
    ((flush0_5 _).mpr ?_) ?_
  · show (b.val * 64 + 63) % 64 = 63; omega
  · rw [mem_blk5]
    intro a
    match a with
    | ⟨0, _⟩ =>
      show win0_5.index (pt b 63) (0 : Fin 3) * 1 ≤ b.val ∧ b.val < win0_5.index (pt b 63) (0 : Fin 3) * 1 + 1
      rw [e0]; show (b.val * 64 + 63) / 64 * 1 ≤ b.val ∧ b.val < (b.val * 64 + 63) / 64 * 1 + 1; omega
    | ⟨1, _⟩ =>
      show win0_5.index (pt b 63) (1 : Fin 3) * 1024 ≤ d.val ∧ d.val < win0_5.index (pt b 63) (1 : Fin 3) * 1024 + 1024
      rw [e1]; omega
    | ⟨2, _⟩ =>
      show win0_5.index (pt b 63) (2 : Fin 3) * 1 ≤ 0 ∧ 0 < win0_5.index (pt b 63) (2 : Fin 3) * 1 + 1
      rw [e2]; omega

end Cert.KernelIdeal.Arr

end
-- ==== Proof.KTail.lean ====
/-
  The penalty the kernel's program returns: the host operations after the region, read on the region's output arrays.

  The two cores' partial sums are added (a sum over the leading axis of extent 2), and the sum over the two cores of a
  core's sum over its 64 blocks of 2048 rows is the sum over all 262144 rows: the segment sums of the specification.
  The left half of the summed array is the sums of weights, the right half the sums of squares, the summed counts the
  counts.  From there the program computes the sums of squared deviations, keeps them at or above zero, and applies the
  chain of operations the specification names.

  The lines after the region are first read as a function of the two arrays' contents alone: three vectors over the
  documents (the counts, `max(count, 1)`, the kept sums of squared deviations) and the specification's chain on them.
  Each vector is then read at a document: a sum over the axis of extent 2 is zero plus the two cores' entries, a slice
  shifts the column, a broadcast repeats an entry, and the host's quotient, product, difference and maximum act entry by
  entry.  With the arrays' entries the two cores' segment sums, these are the specification's vectors.
-/
import proofs.«427083_j32899449487922_3_alg».proof.Proof.KArgs
import proofs.«427083_j32899449487922_3_alg».proof.Proof.KArr
import proofs.«427083_j32899449487922_3_alg».proof.Proof.LibBlockSum
import proofs.«427083_j32899449487922_3_alg».proof.Proof.Consts
import Idealize.ShloMosaic.Lib.Pipeline.Value
import Idealize.ShloMosaic.Lib.StableHlo.Run
import Idealize.ShloMosaic.Lib.IdealHost
import Idealize.ShloMosaic.Lib.ValueLayout
import Idealize.ShloMosaic.PureOps.Ideal.Laws
set_option maxRecDepth 16384

noncomputable section

open scoped BigOperators

namespace Cert.KernelIdeal.Tail

open Cert.KernelIdeal Cert.KernelIdeal.Gen
open Idealize.ShloMosaic Idealize.ShloMosaic.TcCoe Idealize.SL.Sem Idealize.ShloMosaic.ValueIdx Cert.Spec
open Cert.KernelIdeal.Args Cert.KernelIdeal.Arr

variable (m : (ℓ : Loc nD τ sig) → Buf (Elt Ideal) ℓ)

/-- The two cores' parts of a segment sum add up to the segment sum: 2 cores of 64 blocks of 2048 rows are the 262144 rows. -/
theorem coreSeg_add (D : Fin 262144 → BitVec 32) (f : Fin 262144 → EReal) (d : Fin 1024) :
    coreSeg D f 0 d + coreSeg D f 1 d = seg D f d := by
  -- the 262144 rows as 128 blocks of 2048, and the 128 blocks as 2 cores of 64
  have hrow : ∀ (b : Fin 2) (i : Fin 64) (r : Fin 2048),
      Cert.LibBlockSum.blockIdx (B := 128) (R := 2048) (N := 262144) (by norm_num)
        (Cert.LibBlockSum.blockIdx (B := 2) (R := 64) (N := 128) (by norm_num) b i) r = rowOf b i r := by
    intro b i r
    apply Fin.ext
    show 2048 * (64 * b.val + i.val) + r.val = (b.val * 64 + i.val) * 2048 + r.val
    ring
  unfold seg coreSeg
  rw [Cert.LibBlockSum.sum_blocks (B := 128) (R := 2048) (N := 262144) (by norm_num)
        (fun n => if inDoc D d n then f n else 0),
      Cert.LibBlockSum.sum_blocks (B := 2) (R := 64) (N := 128) (by norm_num)
        (fun t : Fin 128 => ∑ r : Fin 2048,
          (fun n => if inDoc D d n then f n else 0)
            (Cert.LibBlockSum.blockIdx (B := 128) (R := 2048) (N := 262144) (by norm_num) t r)),
      Fin.sum_univ_two]
  simp only [hrow]

/-! ## The host operations as functions of the two arrays' contents -/

/-- The counts' array summed over the two cores, read as a vector over the documents. -/
private def cntV (A5 : S2x1024x1.Idx → EReal) : S1024.Idx → EReal :=
  fun i => shapeCast S1024
    (Host.reduceAdd (F := Ideal) (φ := .f32) (s := S2x1024x1) (axes := [0]) (t := S1024x1) (u := S_) A5
      (constant (F := Ideal) S_ .f32 0x00000000#32) reducesTo_S2x1024x1_S1024x1_d0 h_S_)
    shapeCasts_S1024x1_S1024 i

/-- `max(count, 1)` as the program computes it. -/
private def safeV (A5 : S2x1024x1.Idx → EReal) : S1024.Idx → EReal :=
  maximumf (F := Ideal) (φ := .f32) (cntV A5)
    (broadcastInDim S1024 ![] bcast_S_S1024 (constant (F := Ideal) S_ .f32 0x3F800000#32))

/-- The sums' array summed over the two cores. -/
private def sumsV (A4 : S2x1024x128.Idx → EReal) : S1024x128.Idx → EReal :=
  Host.reduceAdd (F := Ideal) (φ := .f32) (s := S2x1024x128) (axes := [0]) (t := S1024x128) (u := S_) A4
    (constant (F := Ideal) S_ .f32 0x00000000#32) reducesTo_S2x1024x128_S1024x128_d0 h_S_

/-- `max(count, 1)` spread over the 64 experts. -/
private def safeM (A5 : S2x1024x1.Idx → EReal) : S1024x64.Idx → EReal :=
  broadcastInDim S1024x64 ![0, 1] bcast_S1024x1_S1024x64_0_1
    (broadcastInDim S1024x1 ![0] bcast_S1024_S1024x1_0 (safeV A5))

/-- The centroids: the sums of weights over `max(count, 1)`. -/
private def centM (A4 : S2x1024x128.Idx → EReal) (A5 : S2x1024x1.Idx → EReal) : S1024x64.Idx → EReal :=
  Host.divf (F := Ideal) (φ := .f32)
    (extractStridedSlice S1024x64 ![0, 0] (sumsV A4) slices_S1024x128_S1024x64_0_0) (safeM A5)

/-- The sums of squared deviations, kept at or above zero. -/
private def ssdV (A4 : S2x1024x128.Idx → EReal) (A5 : S2x1024x1.Idx → EReal) : S1024.Idx → EReal :=
  maximumf (F := Ideal) (φ := .f32)
    (Host.reduceAdd (F := Ideal) (φ := .f32) (s := S1024x64) (axes := [1]) (t := S1024) (u := S_)
      (subf (F := Ideal) (φ := .f32)
        (extractStridedSlice S1024x64 ![0, 64] (sumsV A4) slices_S1024x128_S1024x64_0_64)
        (mulf (F := Ideal) (φ := .f32) (mulf (F := Ideal) (φ := .f32) (safeM A5) (centM A4 A5)) (centM A4 A5)))
      (constant (F := Ideal) S_ .f32 0x00000000#32) reducesTo_S1024x64_S1024_d1 h_S_)
    (broadcastInDim S1024 ![] bcast_S_S1024 (constant (F := Ideal) S_ .f32 0x00000000#32))

/-- The lines after the region, on any buffer contents: the chain the specification names, on these three vectors. -/
private theorem tail_on (V : Valuation τ sig (Elt Ideal)) :
    (StableHlo.after (List.flatten [hostOps1, hostOps1_1, hostOps1_2]) V (Proc.devRef .tc main_v31) : S_.Idx → EReal)
      = tailFn (ssdV (V (Proc.devRef .tc main_v1_1)) (V (Proc.devRef .tc main_v1_2)))
          (safeV (V (Proc.devRef .tc main_v1_2))) (cntV (V (Proc.devRef .tc main_v1_2))) := by
  simp only [hostOps1, hostOps1_1, hostOps1_2, List.flatten_cons, List.flatten_nil, List.append_nil, List.cons_append,
    List.nil_append]
  after_results_simp
  rfl

/-! ## The three vectors read at an index -/

/-- The sums over one axis at the literal shapes, in the form whose inserted index is named. -/
private theorem red5 : S2x1024x1.Reduces [0] S1024x1 := by decide
private theorem red4 : S2x1024x128.Reduces [0] S1024x128 := by decide
private theorem red64 : S1024x64.Reduces [1] S1024 := by decide

/-- Document `d` of the counts' array, with core `k` put in front: slot `k` at row `d`. -/
private theorem lift5 (d : Fin 1024) (k : Fin 2) : red5.lift (ix2 d (0 : Fin 1)) k = ix3 k d (0 : Fin 1) := by
  funext c
  match c with
  | ⟨0, _⟩ => rfl
  | ⟨1, _⟩ => rfl
  | ⟨2, _⟩ => rfl

/-- The same for the sums' array at column `j`. -/
private theorem lift4 (d : Fin 1024) (j : Fin 128) (k : Fin 2) : red4.lift (ix2 d j) k = ix3 k d j := by
  funext c
  match c with
  | ⟨0, _⟩ => rfl
  | ⟨1, _⟩ => rfl
  | ⟨2, _⟩ => rfl

/-- Document `d` of a `[1024, 64]` array with expert `e` put behind. -/
private theorem lift64 (d : Fin 1024) (e : Fin 64) : red64.lift (ix1 d) e = ix2 d e := by
  funext c
  match c with
  | ⟨0, _⟩ => rfl
  | ⟨1, _⟩ => rfl

/-- The counts at document `d`: zero plus the two cores' counts. -/
private theorem cntV_apply (A5 : S2x1024x1.Idx → EReal) (d : Fin 1024) :
    cntV A5 (ix1 d) = zeroE + (A5 (ix3 (0 : Fin 2) d (0 : Fin 1)) + A5 (ix3 (1 : Fin 2) d (0 : Fin 1))) := by
  unfold cntV
  refine (shapeCast_apply _ shapeCasts_S1024x1_S1024 (ix1 d) (ix2 d (0 : Fin 1)) ?_).trans ?_
  · rw [Shape.rowMajor_val_two, Shape.rowMajor_val_one]
    show d.val * 1 + 0 = d.val
    omega
  · refine (hostReduceAdd_apply _ _ _ _ _).trans ?_
    refine (Ideal.hostReduceAdd_single reducesTo_S2x1024x1_S1024x1_d0 red5 _ _ _).trans ?_
    show zeroE + ∑ k : Fin 2, A5 (red5.lift (ix2 d (0 : Fin 1)) k) = _
    rw [Fin.sum_univ_two, lift5, lift5]

/-- The summed sums' array at document `d`, column `j`: zero plus the two cores' entries. -/
private theorem sumsV_apply (A4 : S2x1024x128.Idx → EReal) (d : Fin 1024) (j : Fin 128) :
    sumsV A4 (ix2 d j) = zeroE + (A4 (ix3 (0 : Fin 2) d j) + A4 (ix3 (1 : Fin 2) d j)) := by
  unfold sumsV
  refine (hostReduceAdd_apply _ _ _ _ _).trans ?_
  refine (Ideal.hostReduceAdd_single reducesTo_S2x1024x128_S1024x128_d0 red4 _ _ _).trans ?_
  show zeroE + ∑ k : Fin 2, A4 (red4.lift (ix2 d j) k) = _
  rw [Fin.sum_univ_two, lift4, lift4]

/-- `max(count, 1)` at document `d`. -/
private theorem safeV_apply (A5 : S2x1024x1.Idx → EReal) (d : Fin 1024) :
    safeV A5 (ix1 d) = max (cntV A5 (ix1 d)) oneE := by
  unfold safeV
  exact (maximumf_apply _ _ _).trans (congrArg (max _) (broadcastInDim_scalar_apply _ _ _))

/-- Spread over the experts it is the same at every expert. -/
private theorem safeM_apply (A5 : S2x1024x1.Idx → EReal) (d : Fin 1024) (e : Fin 64) :
    safeM A5 (ix2 d e) = safeV A5 (ix1 d) := by
  unfold safeM
  refine (broadcastInDim_apply _ bcast_S1024x1_S1024x64_0_1 _ (ix2 d e) (ix2 d (0 : Fin 1)) ?_).trans ?_
  · intro a
    match a with
    | ⟨0, _⟩ => rfl
    | ⟨1, _⟩ => rfl
  · refine broadcastInDim_apply _ bcast_S1024_S1024x1_0 _ (ix2 d (0 : Fin 1)) (ix1 d) ?_
    intro a
    match a with
    | ⟨0, _⟩ => rfl

/-- The centroid of document `d` at expert `e`. -/
private theorem centM_apply (A4 : S2x1024x128.Idx → EReal) (A5 : S2x1024x1.Idx → EReal) (d : Fin 1024) (e : Fin 64) :
    centM A4 A5 (ix2 d e)
      = Ideal.div (sumsV A4 (ix2 d (⟨e.val, by omega⟩ : Fin 128))) (safeV A5 (ix1 d)) := by
  unfold centM
  refine (hostDivf_apply _ _ _).trans ?_
  rw [safeM_apply]
  exact congrArg (fun x => Ideal.div x _)
    (slice2_axis1_apply 0 (sumsV A4) slices_S1024x128_S1024x64_0_0 d e (⟨e.val, by omega⟩ : Fin 128) (Nat.zero_add _).symm)

/-- The kept sum of squared deviations of document `d`. -/
private theorem ssdV_apply (A4 : S2x1024x128.Idx → EReal) (A5 : S2x1024x1.Idx → EReal) (d : Fin 1024) :
    ssdV A4 A5 (ix1 d)
      = max (zeroE + ∑ e : Fin 64,
          (sumsV A4 (ix2 d (⟨64 + e.val, by omega⟩ : Fin 128))
            - safeV A5 (ix1 d) * Ideal.div (sumsV A4 (ix2 d (⟨e.val, by omega⟩ : Fin 128))) (safeV A5 (ix1 d))
              * Ideal.div (sumsV A4 (ix2 d (⟨e.val, by omega⟩ : Fin 128))) (safeV A5 (ix1 d)))) zeroE := by
  unfold ssdV
  refine (maximumf_apply _ _ _).trans ?_
  refine congrArg₂ max ?_ (broadcastInDim_scalar_apply _ _ _)
  refine (hostReduceAdd_apply _ _ _ _ _).trans ?_
  refine (Ideal.hostReduceAdd_single reducesTo_S1024x64_S1024_d1 red64 _ _ _).trans ?_
  show zeroE + ∑ e : Fin 64, _ = _
  refine congrArg (zeroE + ·) (Finset.sum_congr rfl fun e _ => ?_)
  rw [lift64]
  refine (subf_apply _ _ _).trans ?_
  refine congrArg₂ (· - ·)
    (slice2_axis1_apply 64 (sumsV A4) slices_S1024x128_S1024x64_0_64 d e (⟨64 + e.val, by omega⟩ : Fin 128) rfl) ?_
  refine (mulf_apply _ _ _).trans ?_
  rw [centM_apply]
  refine congrArg (· * _) ?_
  refine (mulf_apply _ _ _).trans ?_
  rw [centM_apply, safeM_apply]

/-! ## The arrays' entries put in -/

/-- A vector over the documents that reads `f d` at every document `d` is `vec f`. -/
private theorem vec_ext (G : S1024.Idx → EReal) (f : Fin 1024 → EReal) (h : ∀ d : Fin 1024, G (ix1 d) = f d) :
    G = vec f := by
  funext i
  obtain ⟨d, rfl⟩ : ∃ d : Fin 1024, i = ix1 d := ⟨i 0, eq_ix1 i⟩
  exact h d

/-- On arrays whose slots hold the two cores' segment sums, the three vectors are the specification's: the summed
    slots are the segment sums, and every later operation acts entry by entry as the specification's formula does. -/
private theorem tail_vars (w : Fin 262144 → Fin 64 → EReal) (D : Fin 262144 → BitVec 32)
    (A4 : S2x1024x128.Idx → EReal) (A5 : S2x1024x1.Idx → EReal)
    (h4l : ∀ (b : Fin 2) (d : Fin 1024) (e : Fin 64),
      A4 (ix3 b d (⟨e.val, by omega⟩ : Fin 128)) = coreSeg D (fun n => w n e) b d)
    (h4r : ∀ (b : Fin 2) (d : Fin 1024) (e : Fin 64),
      A4 (ix3 b d (⟨64 + e.val, by omega⟩ : Fin 128)) = coreSeg D (fun n => w n e * w n e) b d)
    (h5 : ∀ (b : Fin 2) (d : Fin 1024), A5 (ix3 b d (0 : Fin 1)) = coreSeg D (fun _ => (1 : EReal)) b d) :
    tailFn (ssdV A4 A5) (safeV A5) (cntV A5) = penaltyClamped (S1 w D) (S2 w D) (cnt D) := by
  have hc : ∀ d : Fin 1024, cntV A5 (ix1 d) = cnt D d := fun d => by
    rw [cntV_apply, h5, h5, coreSeg_add, Cert.Consts.zeroE_eq, zero_add]
    unfold cnt
    rw [Cert.Consts.oneE_eq]
  have hs : ∀ d : Fin 1024, safeV A5 (ix1 d) = safeN (cnt D) d := fun d => by
    rw [safeV_apply, hc]
    rfl
  have h1 : ∀ (d : Fin 1024) (e : Fin 64), sumsV A4 (ix2 d (⟨e.val, by omega⟩ : Fin 128)) = S1 w D d e :=
    fun d e => by
      rw [sumsV_apply, h4l, h4l, coreSeg_add, Cert.Consts.zeroE_eq, zero_add]
      rfl
  have h2 : ∀ (d : Fin 1024) (e : Fin 64), sumsV A4 (ix2 d (⟨64 + e.val, by omega⟩ : Fin 128)) = S2 w D d e :=
    fun d e => by
      rw [sumsV_apply, h4r, h4r, coreSeg_add, Cert.Consts.zeroE_eq, zero_add]
      rfl
  have hd : ∀ d : Fin 1024, ssdV A4 A5 (ix1 d) = ssdClamped (S1 w D) (S2 w D) (cnt D) d := fun d => by
    rw [ssdV_apply]
    unfold ssdClamped ssd
    simp only [h1, h2, hs]
  unfold penaltyClamped
  rw [vec_ext _ _ hc, vec_ext _ _ hs, vec_ext _ _ hd]

/-- THE KERNEL'S PENALTY: what the lines after the region leave in the second result. -/
theorem tail_eq (c : Dev nD) :
    (Pipeline.afterTail₀ cfgs (dats m) 0 (V0 m) [hostOps1, hostOps1_1, hostOps1_2] c main_v31 : S_.Idx → EReal)
      = penaltyClamped (S1 (wOf m c) (dOf m c)) (S2 (wOf m c) (dOf m c)) (cnt (dOf m c)) := by
  -- the region leaves the sums' and the counts' arrays at their final contents
  have e4 : (Pipeline.withArrays (cfgs 0).spec c (V0 m c) (fun w => (dats m 0 c).arrAt w (cfgs 0).N)
        (Proc.devRef .tc main_v1_1) : S2x1024x128.Idx → EReal) = (dats m 0 c).arrAt 4 cfg0.N :=
    Pipeline.withArrays_arr spec0 launch0.win.arr_inj c _ _ 4
  have e5 : (Pipeline.withArrays (cfgs 0).spec c (V0 m c) (fun w => (dats m 0 c).arrAt w (cfgs 0).N)
        (Proc.devRef .tc main_v1_2) : S2x1024x1.Idx → EReal) = (dats m 0 c).arrAt 5 cfg0.N :=
    Pipeline.withArrays_arr spec0 launch0.win.arr_inj c _ _ 5
  unfold Pipeline.afterTail₀
  show StableHlo.after (List.flatten [hostOps1, hostOps1_1, hostOps1_2]) _ (Proc.devRef .tc main_v31) = _
  refine (tail_on _).trans ?_
  exact tail_vars (wOf m c) (dOf m c) _ _
    (fun b d e => (congrFun e4 _).trans (arr4_left m c b d e))
    (fun b d e => (congrFun e4 _).trans (arr4_right m c b d e))
    (fun b d => (congrFun e5 _).trans (arr5 m c b d))

end Cert.KernelIdeal.Tail

end
-- ==== Proof.KRun.lean ====
/-
  The kernel's run with its two results named.

  The frame run leaves each of the region's arrays at what the write-backs made of it and every other buffer at what the
  lines after the region computed.  The first result is the weights' array; the second is computed by the lines after
  the region; the three arguments are read nowhere but through input windows or not at all, and end as they began.
-/
import proofs.«427083_j32899449487922_3_alg».proof.Proof.KArgs
import proofs.«427083_j32899449487922_3_alg».proof.Proof.KArr
import proofs.«427083_j32899449487922_3_alg».proof.Proof.KTail
set_option maxRecDepth 16384

noncomputable section

open scoped BigOperators

namespace Cert.KernelIdeal.Run

open Cert.KernelIdeal Cert.KernelIdeal.Gen
open Idealize.ShloMosaic Idealize.ShloMosaic.TcCoe Idealize.SL.Sem Idealize.ShloMosaic.ValueIdx Cert.Spec
open Cert.KernelIdeal.Args Cert.KernelIdeal.Arr Cert.KernelIdeal.Tail

/-- THE KERNEL'S RUN: every weakly fair execution ends with the weights of every row in the first result and the
    penalty, over sums of squared deviations kept at or above zero, in the second; the arguments unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v1_0) = gateArr (argX m c) (argW m c)
      ∧ r.2.mem ((c.tc : Thread nD τ).loc main_v31)
          = penaltyClamped (S1 (wOf m c) (dOf m c)) (S2 (wOf m c) (dOf m c)) (cnt (dOf m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 3).trans (arr3 m c),
      ((h c).2 main_v31 (Pipeline.mem_restRefs_of main_v31 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c)))⟩) (run_main m ρ)

end Cert.KernelIdeal.Run

end
-- ==== Proof.RefW.lean ====
/-
  The reference's gate weights, read at an index.

  The reference contracts `x` with the gate matrix over the 1024 columns (logits), takes each row's maximum from minus
  infinity, subtracts it, exponentiates, sums the row from zero and divides: at `(n, e)` the softmax of row `n`'s logits at `e`.
-/
import proofs.«427083_j32899449487922_3_alg».proof.Proof.RefRead
import proofs.«427083_j32899449487922_3_alg».proof.Proof.Spec
import proofs.«427083_j32899449487922_3_alg».proof.Proof.Consts
import Idealize.ShloMosaic.PureOps.Ideal.Laws
import Idealize.ShloMosaic.Lib.ValueIdx
import Idealize.ShloMosaic.Lib.Pipeline.Value
set_option maxRecDepth 16384

noncomputable section

open scoped BigOperators

namespace Cert.RefW

open Cert.ReferenceIdeal Cert.ReferenceIdeal.Gen Cert.ReferenceIdeal.Read
open Idealize.ShloMosaic Idealize.ShloMosaic.TcCoe Idealize.SL.Sem Idealize.ShloMosaic.ValueIdx Cert.Spec

/-- Row `n` with the column `k` put back on the dropped axis is the index `(n, k)`. -/
private theorem lift_row (h : S262144x64.Reduces [1] S262144) (n : Fin 262144) (k : Fin (S262144x64.size 1)) :
    h.lift (ix1 n) k = ix2 n (⟨k.val, k.isLt⟩ : Fin 64) := by
  funext c; apply Fin.ext
  fin_cases c <;> rfl

/-- The maximum-reduce over the columns, at row `n`: the fold of `max` from minus infinity over the row's 64 logits. -/
private theorem v1_read (x0 : (⟨S262144x1024, .f32⟩ : BufTy).Contents (Elt Ideal)) (x2 : (⟨S64x1024, .f32⟩ : BufTy).Contents (Elt Ideal))
    (n : Fin 262144) :
    (val_main_v1 (F := Ideal) x0 x2 : S262144.Idx → EReal) (ix1 n)
      = (Finset.univ : Finset (Fin 64)).fold max negInf (fun e => (val_main_v0 (F := Ideal) x0 x2 : S262144x64.Idx → EReal) (ix2 n e)) := by
  unfold val_main_v1
  have h : S262144x64.Reduces [1] S262144 := by decide
  rw [Host.reduce_eq_fold_single FloatOps.maximumf _ _ reducesTo_S262144x64_S262144_d1 h h_S_]
  have hf : ((val_main_v0 (F := Ideal) x0 x2 : S262144x64.Idx → EReal) ∘ h.lift (ix1 n))
      = fun e : Fin 64 => (val_main_v0 (F := Ideal) x0 x2 : S262144x64.Idx → EReal) (ix2 n e) :=
    funext fun k => congrArg (val_main_v0 (F := Ideal) x0 x2 : S262144x64.Idx → EReal) (lift_row h n k)
  exact congrArg (fun f => Finset.fold max negInf f (Finset.univ : Finset (Fin 64))) hf

/-- THE REFERENCE'S WEIGHTS are the specification's gate weights, as an array. -/
theorem w_eq (x0 : (⟨S262144x1024, .f32⟩ : BufTy).Contents (Elt Ideal)) (x2 : (⟨S64x1024, .f32⟩ : BufTy).Contents (Elt Ideal)) :
    (val_main_v11 (F := Ideal) x0 x2 : S262144x64.Idx → EReal) = gateArr x0 x2 := by
  funext i
  obtain ⟨n, e, rfl⟩ : ∃ (n : Fin 262144) (e : Fin 64), i = ix2 n e := ⟨i 0, i 1, eq_ix2 i⟩
  -- the broadcasts and the two reductions read their operands at (n, 0), at n, at (n, k); the contraction at (n, k) and (e', k)
  have e10 : ∀ e' : Fin 64, idx_main_v10 (ix2 n e') = ix2 n (0 : Fin 1) := fun e' =>
    funext fun a => Fin.ext (by match a with | ⟨0, _⟩ => rfl | ⟨1, _⟩ => rfl)
  have e9 : idx_main_v9 (ix2 n (0 : Fin 1)) = ix1 n :=
    funext fun a => Fin.ext (by match a with | ⟨0, _⟩ => rfl)
  have e8 : ∀ k : Fin 64, idx_main_v8 (ix1 n) k = ix2 n k := fun k =>
    funext fun a => Fin.ext (by match a with | ⟨0, _⟩ => rfl | ⟨1, _⟩ => rfl)
  have e5 : ∀ e' : Fin 64, idx_main_v5 (ix2 n e') = ix2 n (0 : Fin 1) := fun e' =>
    funext fun a => Fin.ext (by match a with | ⟨0, _⟩ => rfl | ⟨1, _⟩ => rfl)
  have e4 : idx_main_v4 (ix2 n (0 : Fin 1)) = ix1 n :=
    funext fun a => Fin.ext (by match a with | ⟨0, _⟩ => rfl)
  have el : ∀ (e' : Fin 64) (k : Fin 1024), lidx_main_v0 (ix2 n e') k = ix2 n k := fun e' k =>
    funext fun a => Fin.ext (by match a with | ⟨0, _⟩ => rfl | ⟨1, _⟩ => rfl)
  have er : ∀ (e' : Fin 64) (k : Fin 1024), ridx_main_v0 (ix2 n e') k = ix2 e' k := fun e' k =>
    funext fun a => Fin.ext (by match a with | ⟨0, _⟩ => rfl | ⟨1, _⟩ => rfl)
  -- the contraction at (n, e') is the logit of row n against gate row e'
  have h0 : ∀ e' : Fin 64, (val_main_v0 (F := Ideal) x0 x2 : S262144x64.Idx → EReal) (ix2 n e') = logit x0 x2 n e' := fun e' => by
    rw [val_main_v0_apply]
    exact Finset.sum_congr rfl fun k _ => by rw [el, er]
  -- the row's maximum from minus infinity, taken once more against minus infinity
  have h3 : (val_main_v3 (F := Ideal) x0 x2 : S262144.Idx → EReal) (ix1 n) = rowMax (logit x0 x2 n) := by
    rw [val_main_v3_apply, val_main_v2_apply, val_main_cst_0_apply, v1_read]
    simp only [Ideal.maximumf_def, Ideal.ofBits_def, h0]
    rfl
  -- the exponential of the logit less the row's maximum
  have h7 : ∀ e' : Fin 64, (val_main_v7 (F := Ideal) x0 x2 : S262144x64.Idx → EReal) (ix2 n e')
      = Ideal.exp (logit x0 x2 n e' - rowMax (logit x0 x2 n)) := fun e' => by
    rw [val_main_v7_apply, val_main_v6_apply, val_main_v5_apply, e5, val_main_v4_apply, e4, h3, h0]
    rfl
  -- the quotient by the row's sum of exponentials, which starts from zero
  rw [val_main_v11_apply, val_main_v10_apply, e10, val_main_v9_apply, e9, val_main_v8_apply, val_main_cst_1_apply]
  simp only [e8, h7, Ideal.hostDivf_def, Ideal.ofBits_def]
  have hz : Ideal.ofBits .f32 0x00000000#32 = (0 : EReal) := Cert.Consts.zeroE_eq
  rw [hz, zero_add]
  rfl

end Cert.RefW

end
-- ==== Proof.LibIndex.lean ====
/-
  Three host operations read at an index, and two facts of extended-real arithmetic.

  A gather of whole rows of a matrix (one start index per result row), a scatter that adds whole rows of an update
  matrix into the rows of an operand, and its rank-1 form that adds scalars into a vector: each is read at one
  element. The scatters are read at the ideal instance, where a float is an extended real and the accumulation is
  the exact sum over the updates that land on the element.
-/
import Idealize.ShloMosaic.PureOps.Ideal
import Idealize.ShloMosaic.Lib.ValueIdx
import Mathlib.Data.EReal.Operations
import Mathlib.Algebra.BigOperators.Group.Finset.Basic
import Mathlib.Algebra.BigOperators.Group.Finset.Piecewise

noncomputable section

open scoped BigOperators

namespace Cert.LibIndex

open Idealize.ShloMosaic Idealize.ShloMosaic.ValueIdx

/-! ## A gather of rows -/

section RowGather
variable {α : Type}

/-- The dimension numbers of a gather of whole rows: operand `[N, C]`, start indices `[R, 1]` (one row number
    per result row), result `[R, C]`; axis 0 of the operand is collapsed and indexed, axis 1 is the offset axis,
    the slice is one whole row. The conditions `wf` are decided on a program's literal shapes. -/
abbrev rowGatherDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(k, c)`: column `c` of the operand's row whose number is the start index
    `idx[k, 0]`, read signed and clamped into `[0, N − 1]`. -/
theorem gather_row_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (k : Fin R) (c : Fin C) :
    Host.gather (rowGatherDims N C R wf) x idx (ix2 k c)
      = x (ix2 ⟨min (idx (ix2 k (0 : Fin 1))).toInt.toNat (N - 1), by omega⟩ c) := by
  -- the start on axis 0: the clamped start index; on axis 1 (not in the start index map): zero
  have hst0 : (rowGatherDims N C R wf).start (ix2 k c) idx (0 : Fin 2)
      = min (idx (ix2 k (0 : Fin 1))).toInt.toNat (N - 1) := by
    unfold GatherDims.start
    rw [dif_pos (show (0 : Fin 2) ∈ (rowGatherDims N C R wf).startIndexMap from List.mem_singleton.mpr rfl)]
    have hsi : (rowGatherDims N C R wf).siIdx (ix2 k c) ⟨List.idxOf (0 : Fin 2) (rowGatherDims N C R wf).startIndexMap,
        List.idxOf_lt_length_iff.2 (List.mem_singleton.mpr rfl)⟩ = ix2 k (0 : Fin 1) := by
      funext b; refine Fin.ext ?_
      match b with
      | ⟨0, _⟩ => rfl
      | ⟨1, _⟩ => rfl
    rw [hsi]
    rfl
  have hst1 : (rowGatherDims N C R wf).start (ix2 k c) idx (1 : Fin 2) = 0 := by
    unfold GatherDims.start
    exact dif_neg (show (1 : Fin 2) ∉ ([0] : List (Fin 2)) from by decide)
  -- the offset coordinate: zero on the collapsed axis 0, the result's column on axis 1
  have hoff0 : (rowGatherDims N C R wf).offCoord (ix2 k c) (0 : Fin 2) = 0 :=
    GatherDims.offCoord_eq_zero _ _ _ (fun h => ((GatherDims.mem_sKept _ _).mp h).1 (List.mem_singleton.mpr rfl))
  have hoff1 : (rowGatherDims N C R wf).offCoord (ix2 k c) (1 : Fin 2) = c.val := by
    unfold GatherDims.offCoord
    rw [dif_pos ((GatherDims.mem_sKept (rowGatherDims N C R wf) (1 : Fin 2)).mpr
      ⟨(show (1 : Fin 2) ∉ ([0] : List (Fin 2)) from by decide), List.not_mem_nil⟩)]
    rfl
  unfold Host.gather
  congr 1
  funext a
  refine Fin.ext ?_
  match a with
  | ⟨0, _⟩ =>
    show (rowGatherDims N C R wf).start (ix2 k c) idx (0 : Fin 2) + (rowGatherDims N C R wf).batchCoord (ix2 k c) (0 : Fin 2)
      + (rowGatherDims N C R wf).offCoord (ix2 k c) (0 : Fin 2) = min (idx (ix2 k (0 : Fin 1))).toInt.toNat (N - 1)
    rw [GatherDims.batchCoord_eq_zero _ _ _ List.not_mem_nil, hst0, hoff0]
    rfl
  | ⟨1, _⟩ =>
    show (rowGatherDims N C R wf).start (ix2 k c) idx (1 : Fin 2) + (rowGatherDims N C R wf).batchCoord (ix2 k c) (1 : Fin 2)
      + (rowGatherDims N C R wf).offCoord (ix2 k c) (1 : Fin 2) = c.val
    rw [GatherDims.batchCoord_eq_zero _ _ _ List.not_mem_nil, hst1, hoff1]
    omega

/-- The same for any dimension numbers whose fields are those of a gather of rows (a printed record's are, each by
    `rfl`). -/
theorem gather_row_apply_of {N C R w : Nat} (hN : 0 < N) (d : GatherDims ⟨2, ![N, C]⟩ ⟨2, ![R, 1]⟩ ⟨2, ![R, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![R, 1]⟩ w) (k : Fin R) (c : Fin C) :
    Host.gather d x idx (ix2 k c)
      = x (ix2 ⟨min (idx (ix2 k (0 : Fin 1))).toInt.toNat (N - 1), by omega⟩ c) := by
  obtain ⟨od, cd, ob, sb, sm, iv, ss, wf⟩ := d
  dsimp only at h1 h2 h3 h4 h5 h6 h7
  subst h1 h2 h3 h4 h5 h6 h7
  exact gather_row_apply hN wf x idx k c

end RowGather

/-! ## A scatter that adds rows -/

/-- An axis is among a shape's kept axes exactly when it is not among the removed ones. -/
theorem mem_kept {s : Shape} (axes : List (Fin s.rank)) (a : Fin s.rank) : a ∈ s.kept axes ↔ a ∉ axes := by
  simp [Shape.kept, List.mem_filter, List.mem_finRange]

/-- The dimension numbers of a scatter of whole rows: operand `[N, C]`, scatter indices `[R, 1]` (one row number
    per update row), updates `[R, C]`; axis 0 of the operand is the inserted, indexed axis, axis 1 of the updates
    is the window axis. -/
abbrev rowScatterDims (N C R : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The window of update row `k` starts, on the operand's axis 0, at the scatter index `idx[k, 0]` read signed. -/
theorem rowScatter_start0 {N C R w : Nat}
    (wf : ScatterDims.WF ⟨2, ![N, C]⟩ ⟨2, ![R, 1]⟩ ⟨2, ![R, C]⟩ [1] [0] [0] 1)
    (idx : IVec ⟨2, ![R, 1]⟩ w) (k : Fin R) (c : Fin C) :
    (rowScatterDims N C R wf).start (ix2 k c) idx (0 : Fin 2) = (idx (ix2 k (0 : Fin 1))).toInt := by
  unfold ScatterDims.start
  rw [dif_pos (show (0 : Fin 2) ∈ (rowScatterDims N C R wf).scatterDimsToOperandDims from List.mem_singleton.mpr rfl)]
  have hsi : (rowScatterDims N C R wf).siIdx (ix2 k c) ⟨List.idxOf (0 : Fin 2) (rowScatterDims N C R wf).scatterDimsToOperandDims,
      List.idxOf_lt_length_iff.2 (List.mem_singleton.mpr rfl)⟩ = ix2 k (0 : Fin 1) := by
    funext b; refine Fin.ext ?_
    match b with
    | ⟨0, _⟩ => rfl
    | ⟨1, _⟩ => rfl
  rw [hsi]

/-- On the operand's axis 1, which the scatter indices do not address, the window starts at zero. -/
theorem rowScatter_start1 {N C R w : Nat}
    (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) :
    (rowScatterDims N C R wf).start j idx (1 : Fin 2) = 0 := by
  unfold ScatterDims.start
  exact dif_neg (show (1 : Fin 2) ∉ ([0] : List (Fin 2)) from by decide)

/-- The window coordinate on the inserted axis 0 is zero. -/
theorem rowScatter_window0 {N C R : Nat}
    (wf : ScatterDims.WF ⟨2, ![N, C]⟩ ⟨2, ![R, 1]⟩ ⟨2, ![R, C]⟩ [1] [0] [0] 1)
    (j : (⟨2, ![R, C]⟩ : Shape).Idx) :
    (rowScatterDims N C R wf).window j (0 : Fin 2) = 0 := by
  unfold ScatterDims.window
  exact dif_neg (fun h => ((mem_kept _ _).mp h) (List.mem_singleton.mpr rfl))

/-- The window coordinate on axis 1 is the update's column. -/
theorem rowScatter_window1 {N C R : Nat}
    (wf : ScatterDims.WF ⟨2, ![N, C]⟩ ⟨2, ![R, 1]⟩ ⟨2, ![R, C]⟩ [1] [0] [0] 1)
    (j : (⟨2, ![R, C]⟩ : Shape).Idx) :
    (rowScatterDims N C R wf).window j (1 : Fin 2) = (j 1).val := by
  have h1k : (1 : Fin 2) ∈ (rowScatterDims N C R wf).sKept :=
    (mem_kept _ _).mpr (show (1 : Fin 2) ∉ ([0] : List (Fin 2)) from by decide)
  unfold ScatterDims.window
  rw [dif_pos h1k]
  rfl

/-- Update element `(k, c')` lands on operand element `(v, c)` exactly when row `k`'s scatter index, read signed, is
    `v` and the columns agree (an index that is not a row number lands nowhere). -/
theorem rowScatter_resultIdx?_eq_some {N C R w : Nat}
    (wf : ScatterDims.WF ⟨2, ![N, C]⟩ ⟨2, ![R, 1]⟩ ⟨2, ![R, C]⟩ [1] [0] [0] 1)
    (idx : IVec ⟨2, ![R, 1]⟩ w) (k : Fin R) (c' : Fin C) (v : Fin N) (c : Fin C) :
    (rowScatterDims N C R wf).resultIdx? (ix2 k c') idx = some (ix2 v c)
      ↔ (idx (ix2 k (0 : Fin 1))).toInt = (v.val : Int) ∧ c' = c := by
  have hs0 := rowScatter_start0 wf idx k c'
  have hs1 := rowScatter_start1 wf idx (ix2 k c')
  have hw0 := rowScatter_window0 wf (ix2 k c')
  have hw1 : (rowScatterDims N C R wf).window (ix2 k c') (1 : Fin 2) = c'.val := rowScatter_window1 wf (ix2 k c')
  have hv := v.isLt
  have hc' := c'.isLt
  unfold ScatterDims.resultIdx?
  split
  · rename_i h
    rw [Option.some.injEq]
    constructor
    · intro hf
      have h0 : ((rowScatterDims N C R wf).start (ix2 k c') idx (0 : Fin 2)
          + ((rowScatterDims N C R wf).window (ix2 k c') (0 : Fin 2) : Int)).toNat = v.val :=
        congrArg Fin.val (congrFun hf (0 : Fin 2))
      have h1 : ((rowScatterDims N C R wf).start (ix2 k c') idx (1 : Fin 2)
          + ((rowScatterDims N C R wf).window (ix2 k c') (1 : Fin 2) : Int)).toNat = c.val :=
        congrArg Fin.val (congrFun hf (1 : Fin 2))
      have hh := (h (0 : Fin 2)).1
      rw [hs0, hw0] at h0 hh
      rw [hs1, hw1] at h1
      exact ⟨by omega, Fin.ext (by omega)⟩
    · rintro ⟨hv', hcc⟩
      have hcv : c'.val = c.val := congrArg Fin.val hcc
      funext a
      refine Fin.ext ?_
      match a with
      | ⟨0, _⟩ =>
        show ((rowScatterDims N C R wf).start (ix2 k c') idx (0 : Fin 2)
          + ((rowScatterDims N C R wf).window (ix2 k c') (0 : Fin 2) : Int)).toNat = v.val
        rw [hs0, hw0, hv']; omega
      | ⟨1, _⟩ =>
        show ((rowScatterDims N C R wf).start (ix2 k c') idx (1 : Fin 2)
          + ((rowScatterDims N C R wf).window (ix2 k c') (1 : Fin 2) : Int)).toNat = c.val
        rw [hs1, hw1]; omega
  · rename_i h
    refine iff_of_false (by simp) ?_
    rintro ⟨hv', -⟩
    apply h
    intro a
    match a with
    | ⟨0, _⟩ =>
      show 0 ≤ (rowScatterDims N C R wf).start (ix2 k c') idx (0 : Fin 2)
          + ((rowScatterDims N C R wf).window (ix2 k c') (0 : Fin 2) : Int)
        ∧ (rowScatterDims N C R wf).start (ix2 k c') idx (0 : Fin 2)
          + ((rowScatterDims N C R wf).window (ix2 k c') (0 : Fin 2) : Int) < (N : Int)
      rw [hs0, hw0, hv']; omega
    | ⟨1, _⟩ =>
      show 0 ≤ (rowScatterDims N C R wf).start (ix2 k c') idx (1 : Fin 2)
          + ((rowScatterDims N C R wf).window (ix2 k c') (1 : Fin 2) : Int)
        ∧ (rowScatterDims N C R wf).start (ix2 k c') idx (1 : Fin 2)
          + ((rowScatterDims N C R wf).window (ix2 k c') (1 : Fin 2) : Int) < (C : Int)
      rw [hs1, hw1]; omega

/-- THE ROW SCATTER-ADD READ AT `(v, c)`, at the ideal instance: the operand's element plus column `c` of every
    update row whose scatter index, read signed, is `v`. -/
theorem scatterAdd_row_apply {N C R w : Nat}
    (wf : ScatterDims.WF ⟨2, ![N, C]⟩ ⟨2, ![R, 1]⟩ ⟨2, ![R, C]⟩ [1] [0] [0] 1) {φ : FTy}
    (x : FVec Ideal ⟨2, ![N, C]⟩ φ) (idx : IVec ⟨2, ![R, 1]⟩ w) (upd : FVec Ideal ⟨2, ![R, C]⟩ φ)
    (v : Fin N) (c : Fin C) :
    Host.scatterAdd (F := Ideal) (rowScatterDims N C R wf) x idx upd (ix2 v c)
      = x (ix2 v c) + ∑ k : Fin R, if (idx (ix2 k (0 : Fin 1))).toInt = (v.val : Int) then upd (ix2 k c) else 0 := by
  show Ideal.hostScatterAdd (rowScatterDims N C R wf) x idx upd (ix2 v c) = _
  unfold Ideal.hostScatterAdd
  congr 1
  rw [Finset.sum_filter, sum_idx2]
  refine Finset.sum_congr rfl fun k _ => ?_
  simp only [rowScatter_resultIdx?_eq_some]
  by_cases hk : (idx (ix2 k (0 : Fin 1))).toInt = (v.val : Int)
  · have hcg : ∀ b : Fin C, (if (idx (ix2 k (0 : Fin 1))).toInt = (v.val : Int) ∧ b = c then upd (ix2 k b) else 0)
        = if b = c then upd (ix2 k b) else 0 := fun b => if_congr (and_iff_right hk) rfl rfl
    rw [if_pos hk, Finset.sum_congr rfl (fun b _ => hcg b),
      Finset.sum_ite_eq' Finset.univ c (fun b => upd (ix2 k b)), if_pos (Finset.mem_univ c)]
  · rw [if_neg hk]
    exact Finset.sum_eq_zero fun b _ => if_neg (fun h => hk h.1)

/-- The same for any dimension numbers whose fields are those of a scatter of rows. -/
theorem scatterAdd_row_apply_of {N C R w : Nat} (d : ScatterDims ⟨2, ![N, C]⟩ ⟨2, ![R, 1]⟩ ⟨2, ![R, C]⟩)
    (h1 : d.updateWindowDims = [1]) (h2 : d.insertedWindowDims = [0]) (h3 : d.scatterDimsToOperandDims = [0])
    (h4 : d.indexVectorDim = 1) {φ : FTy}
    (x : FVec Ideal ⟨2, ![N, C]⟩ φ) (idx : IVec ⟨2, ![R, 1]⟩ w) (upd : FVec Ideal ⟨2, ![R, C]⟩ φ)
    (v : Fin N) (c : Fin C) :
    Host.scatterAdd (F := Ideal) d x idx upd (ix2 v c)
      = x (ix2 v c) + ∑ k : Fin R, if (idx (ix2 k (0 : Fin 1))).toInt = (v.val : Int) then upd (ix2 k c) else 0 := by
  obtain ⟨uw, iw, sd, iv, wf⟩ := d
  dsimp only at h1 h2 h3 h4
  subst h1 h2 h3 h4
  exact scatterAdd_row_apply wf x idx upd v c

/-! ## A scatter that adds scalars into a vector -/

/-- A rank-1 index set is its coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of a scatter of scalars into a vector: operand `[N]`, scatter indices `[R, 1]`, updates
    `[R]`; the operand's one axis is inserted and indexed, the updates have no window axis. -/
abbrev vecScatterDims (N R : Nat)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- Update `k`'s one-element window starts at the scatter index `idx[k, 0]` read signed. -/
theorem vecScatter_start {N R w : Nat}
    (wf : ScatterDims.WF ⟨1, ![N]⟩ ⟨2, ![R, 1]⟩ ⟨1, ![R]⟩ [] [0] [0] 1)
    (idx : IVec ⟨2, ![R, 1]⟩ w) (k : Fin R) :
    (vecScatterDims N R wf).start (ix1 k) idx (0 : Fin 1) = (idx (ix2 k (0 : Fin 1))).toInt := by
  unfold ScatterDims.start
  rw [dif_pos (show (0 : Fin 1) ∈ (vecScatterDims N R wf).scatterDimsToOperandDims from List.mem_singleton.mpr rfl)]
  have hsi : (vecScatterDims N R wf).siIdx (ix1 k) ⟨List.idxOf (0 : Fin 1) (vecScatterDims N R wf).scatterDimsToOperandDims,
      List.idxOf_lt_length_iff.2 (List.mem_singleton.mpr rfl)⟩ = ix2 k (0 : Fin 1) := by
    funext b; refine Fin.ext ?_
    match b with
    | ⟨0, _⟩ => rfl
    | ⟨1, _⟩ => rfl
  rw [hsi]

/-- The window coordinate on the operand's one, inserted axis is zero. -/
theorem vecScatter_window {N R : Nat}
    (wf : ScatterDims.WF ⟨1, ![N]⟩ ⟨2, ![R, 1]⟩ ⟨1, ![R]⟩ [] [0] [0] 1)
    (j : (⟨1, ![R]⟩ : Shape).Idx) :
    (vecScatterDims N R wf).window j (0 : Fin 1) = 0 := by
  unfold ScatterDims.window
  exact dif_neg (fun h => ((mem_kept _ _).mp h) (List.mem_singleton.mpr rfl))

/-- Update `k` lands on operand element `v` exactly when its scatter index, read signed, is `v`. -/
theorem vecScatter_resultIdx?_eq_some {N R w : Nat}
    (wf : ScatterDims.WF ⟨1, ![N]⟩ ⟨2, ![R, 1]⟩ ⟨1, ![R]⟩ [] [0] [0] 1)
    (idx : IVec ⟨2, ![R, 1]⟩ w) (k : Fin R) (v : Fin N) :
    (vecScatterDims N R wf).resultIdx? (ix1 k) idx = some (ix1 v)
      ↔ (idx (ix2 k (0 : Fin 1))).toInt = (v.val : Int) := by
  have hs0 := vecScatter_start wf idx k
  have hw0 := vecScatter_window wf (ix1 k)
  have hv := v.isLt
  unfold ScatterDims.resultIdx?
  split
  · rename_i h
    rw [Option.some.injEq]
    constructor
    · intro hf
      have h0 : ((vecScatterDims N R wf).start (ix1 k) idx (0 : Fin 1)
          + ((vecScatterDims N R wf).window (ix1 k) (0 : Fin 1) : Int)).toNat = v.val :=
        congrArg Fin.val (congrFun hf (0 : Fin 1))
      have hh := (h (0 : Fin 1)).1
      rw [hs0, hw0] at h0 hh
      omega
    · intro hv'
      funext a
      refine Fin.ext ?_
      match a with
      | ⟨0, _⟩ =>
        show ((vecScatterDims N R wf).start (ix1 k) idx (0 : Fin 1)
          + ((vecScatterDims N R wf).window (ix1 k) (0 : Fin 1) : Int)).toNat = v.val
        rw [hs0, hw0, hv']; omega
  · rename_i h
    refine iff_of_false (by simp) ?_
    intro hv'
    apply h
    intro a
    match a with
    | ⟨0, _⟩ =>
      show 0 ≤ (vecScatterDims N R wf).start (ix1 k) idx (0 : Fin 1)
          + ((vecScatterDims N R wf).window (ix1 k) (0 : Fin 1) : Int)
        ∧ (vecScatterDims N R wf).start (ix1 k) idx (0 : Fin 1)
          + ((vecScatterDims N R wf).window (ix1 k) (0 : Fin 1) : Int) < (N : Int)
      rw [hs0, hw0, hv']; omega

/-- THE SCALAR SCATTER-ADD READ AT `v`, at the ideal instance: the operand's element plus every update whose scatter
    index, read signed, is `v`. -/
theorem scatterAdd_vec_apply {N R w : Nat}
    (wf : ScatterDims.WF ⟨1, ![N]⟩ ⟨2, ![R, 1]⟩ ⟨1, ![R]⟩ [] [0] [0] 1) {φ : FTy}
    (x : FVec Ideal ⟨1, ![N]⟩ φ) (idx : IVec ⟨2, ![R, 1]⟩ w) (upd : FVec Ideal ⟨1, ![R]⟩ φ) (v : Fin N) :
    Host.scatterAdd (F := Ideal) (vecScatterDims N R wf) x idx upd (ix1 v)
      = x (ix1 v) + ∑ k : Fin R, if (idx (ix2 k (0 : Fin 1))).toInt = (v.val : Int) then upd (ix1 k) else 0 := by
  show Ideal.hostScatterAdd (vecScatterDims N R wf) x idx upd (ix1 v) = _
  unfold Ideal.hostScatterAdd
  congr 1
  rw [Finset.sum_filter, sum_idx1]
  refine Finset.sum_congr rfl fun k _ => ?_
  simp only [vecScatter_resultIdx?_eq_some]

/-- The same for any dimension numbers whose fields are those of a scatter of scalars into a vector. -/
theorem scatterAdd_vec_apply_of {N R w : Nat} (d : ScatterDims ⟨1, ![N]⟩ ⟨2, ![R, 1]⟩ ⟨1, ![R]⟩)
    (h1 : d.updateWindowDims = []) (h2 : d.insertedWindowDims = [0]) (h3 : d.scatterDimsToOperandDims = [0])
    (h4 : d.indexVectorDim = 1) {φ : FTy}
    (x : FVec Ideal ⟨1, ![N]⟩ φ) (idx : IVec ⟨2, ![R, 1]⟩ w) (upd : FVec Ideal ⟨1, ![R]⟩ φ) (v : Fin N) :
    Host.scatterAdd (F := Ideal) d x idx upd (ix1 v)
      = x (ix1 v) + ∑ k : Fin R, if (idx (ix2 k (0 : Fin 1))).toInt = (v.val : Int) then upd (ix1 k) else 0 := by
  obtain ⟨uw, iw, sd, iv, wf⟩ := d
  dsimp only at h1 h2 h3 h4
  subst h1 h2 h3 h4
  exact scatterAdd_vec_apply wf x idx upd v

/-! ## Extended-real arithmetic -/

/-- A natural number times an extended real is the repeated sum. -/
theorem natCast_mul_eq_nsmul (n : ℕ) (x : EReal) : ((n : ℝ) : EReal) * x = n • x := by
  induction n with
  | zero => simp
  | succ n ih =>
    have hn : (0 : EReal) ≤ ((n : ℝ) : EReal) := EReal.coe_nonneg.mpr (Nat.cast_nonneg n)
    rw [Nat.cast_succ, EReal.coe_add, EReal.coe_one,
      EReal.right_distrib_of_nonneg (a := ((n : ℝ) : EReal)) (b := 1) (c := x) hn zero_le_one, ih, one_mul, succ_nsmul]

/-- A sum over the indices that satisfy `p` of `A k + x` is the sum of the `A k` plus their number times `x`
    (the count is a sum of ones, so it is nonnegative and multiplication distributes over it). -/
theorem sum_ite_add_const {K : Type*} [Fintype K] (p : K → Prop) [DecidablePred p] (A : K → EReal) (x : EReal) :
    ∑ k, (if p k then A k + x else 0) = (∑ k, if p k then A k else 0) + (∑ k, if p k then (1 : EReal) else 0) * x := by
  classical
  have key : ∀ s : Finset K, ∑ k ∈ s, (if p k then A k + x else 0)
      = (∑ k ∈ s, if p k then A k else 0) + (∑ k ∈ s, if p k then (1 : EReal) else 0) * x := by
    intro s
    induction s using Finset.induction_on with
    | empty => simp
    | insert a s ha ih =>
      rw [Finset.sum_insert ha, Finset.sum_insert ha, Finset.sum_insert ha, ih]
      have hnn : (0 : EReal) ≤ ∑ k ∈ s, if p k then (1 : EReal) else 0 :=
        Finset.sum_nonneg fun k _ => by split <;> simp
      by_cases hp : p a
      · rw [if_pos hp, if_pos hp, if_pos hp, EReal.right_distrib_of_nonneg zero_le_one hnn, one_mul]
        exact add_add_add_comm _ _ _ _
      · rw [if_neg hp, if_neg hp, if_neg hp, zero_add, zero_add, zero_add]
  exact key Finset.univ

end Cert.LibIndex

end
-- ==== Proof.RefSeg.lean ====
/-
  The reference's three segment sums, read at an index.

  Each is a scatter that adds update row `n` into operand row `doc(n)`, read signed, and drops the update when that row is
  outside the operand: at `(d, e)` zero plus the sum over the rows of document `d` of the weight, of its square, or of one.
-/
import proofs.«427083_j32899449487922_3_alg».proof.Proof.RefRead
import proofs.«427083_j32899449487922_3_alg».proof.Proof.RefW
import proofs.«427083_j32899449487922_3_alg».proof.Proof.Spec
import proofs.«427083_j32899449487922_3_alg».proof.Proof.Consts
import proofs.«427083_j32899449487922_3_alg».proof.Proof.LibIndex
import Idealize.ShloMosaic.Lib.ValueIdx
import Idealize.ShloMosaic.Lib.Pipeline.Value
set_option maxRecDepth 16384

noncomputable section

open scoped BigOperators

namespace Cert.RefSeg

open Cert.ReferenceIdeal Cert.ReferenceIdeal.Gen Cert.ReferenceIdeal.Read
open Idealize.ShloMosaic Idealize.ShloMosaic.TcCoe Idealize.SL.Sem Idealize.ShloMosaic.ValueIdx Cert.Spec
open Cert.RefW

variable (x0 : (⟨S262144x1024, .f32⟩ : BufTy).Contents (Elt Ideal)) (x1 : (⟨S262144, .i32⟩ : BufTy).Contents (Elt Ideal))
  (x2 : (⟨S64x1024, .f32⟩ : BufTy).Contents (Elt Ideal))

/-! ## The three scatters' inputs at an index -/

/-- The operand of the sums of weights is zero everywhere. -/
theorem v12_zero (i : S1024x64.Idx) : (val_main_v12 (F := Ideal) : S1024x64.Idx → EReal) i = 0 := by
  rw [val_main_v12_apply, val_main_cst_2_apply]
  exact Cert.Consts.zeroE_eq

/-- The operand of the sums of squared weights is zero everywhere. -/
theorem v16_zero (i : S1024x64.Idx) : (val_main_v16 (F := Ideal) : S1024x64.Idx → EReal) i = 0 := by
  rw [val_main_v16_apply, val_main_cst_3_apply]
  exact Cert.Consts.zeroE_eq

/-- The operand of the counts is zero everywhere. -/
theorem v21_zero (i : S1024x1.Idx) : (val_main_v21 (F := Ideal) : S1024x1.Idx → EReal) i = 0 := by
  rw [val_main_v21_apply, val_main_cst_5_apply]
  exact Cert.Consts.zeroE_eq

/-- The updates of the counts are one everywhere. -/
theorem v20_one (i : S262144x1.Idx) : (val_main_v20 (F := Ideal) : S262144x1.Idx → EReal) i = oneE := by
  rw [val_main_v20_apply, val_main_cst_4_apply]
  rfl

/-- The index array of each scatter holds row `k`'s document number at `(k, 0)`. -/
theorem v13_doc (k : Fin 262144) :
    (val_main_v13 (F := Ideal) x1 : S262144x1.Idx → BitVec 32) (ix2 k (0 : Fin 1)) = docOf x1 k := by
  rw [val_main_v13_apply]
  exact congrArg x1 (funext fun a => match a with | ⟨0, _⟩ => rfl)
theorem v17_doc (k : Fin 262144) :
    (val_main_v17 (F := Ideal) x1 : S262144x1.Idx → BitVec 32) (ix2 k (0 : Fin 1)) = docOf x1 k := by
  rw [val_main_v17_apply]
  exact congrArg x1 (funext fun a => match a with | ⟨0, _⟩ => rfl)
theorem v22_doc (k : Fin 262144) :
    (val_main_v22 (F := Ideal) x1 : S262144x1.Idx → BitVec 32) (ix2 k (0 : Fin 1)) = docOf x1 k := by
  rw [val_main_v22_apply]
  exact congrArg x1 (funext fun a => match a with | ⟨0, _⟩ => rfl)

/-- The weights at `(k, e)` are the gate weight of row `k` for expert `e`. -/
theorem v11_gate (k : Fin 262144) (e : Fin 64) :
    (val_main_v11 (F := Ideal) x0 x2 : S262144x64.Idx → EReal) (ix2 k e) = gate x0 x2 k e := by
  rw [w_eq x0 x2]
  rfl

/-- The squared weights at `(k, e)`. -/
theorem v15_gate (k : Fin 262144) (e : Fin 64) :
    (val_main_v15 (F := Ideal) x0 x2 : S262144x64.Idx → EReal) (ix2 k e) = gate x0 x2 k e * gate x0 x2 k e := by
  rw [val_main_v15_apply, v11_gate x0 x2 k e]
  rfl

/-! ## The three scatters at an index -/

/-- The sums of weights. -/
theorem v14_apply (d : Fin 1024) (e : Fin 64) :
    (val_main_v14 (F := Ideal) x0 x1 x2 : S1024x64.Idx → EReal) (ix2 d e) = S1 (gate x0 x2) (docOf x1) d e := by
  unfold val_main_v14
  refine (Cert.LibIndex.scatterAdd_row_apply_of _ rfl rfl rfl rfl _ _ _ d e).trans ?_
  rw [v12_zero, zero_add]
  unfold S1 seg
  refine Finset.sum_congr rfl fun k _ => ?_
  rw [v13_doc x1 k, v11_gate x0 x2 k e]

/-- The sums of squared weights. -/
theorem v18_apply (d : Fin 1024) (e : Fin 64) :
    (val_main_v18 (F := Ideal) x0 x1 x2 : S1024x64.Idx → EReal) (ix2 d e) = S2 (gate x0 x2) (docOf x1) d e := by
  unfold val_main_v18
  refine (Cert.LibIndex.scatterAdd_row_apply_of _ rfl rfl rfl rfl _ _ _ d e).trans ?_
  rw [v16_zero, zero_add]
  unfold S2 seg
  refine Finset.sum_congr rfl fun k _ => ?_
  rw [v17_doc x1 k, v15_gate x0 x2 k e]

/-- The counts. -/
theorem v23_apply (d : Fin 1024) :
    (val_main_v23 (F := Ideal) x1 : S1024x1.Idx → EReal) (ix2 d (0 : Fin 1)) = cnt (docOf x1) d := by
  unfold val_main_v23
  refine (Cert.LibIndex.scatterAdd_row_apply_of _ rfl rfl rfl rfl _ _ _ d (0 : Fin 1)).trans ?_
  rw [v21_zero, zero_add]
  unfold cnt seg
  refine Finset.sum_congr rfl fun k _ => ?_
  rw [v22_doc x1 k, v20_one]

end Cert.RefSeg

end
-- ==== Proof.RefPen.lean ====
/-
  The penalty the reference returns.

  From the three segment sums the reference forms `max(count, 1)`, the centroids and, per document, the sum over the
  experts of `S2 − n · c · c` from zero; then the chain of operations the specification names, on those sums as they are.
-/
import proofs.«427083_j32899449487922_3_alg».proof.Proof.RefRead
import proofs.«427083_j32899449487922_3_alg».proof.Proof.RefSeg
import proofs.«427083_j32899449487922_3_alg».proof.Proof.Spec
import proofs.«427083_j32899449487922_3_alg».proof.Proof.Consts
import Idealize.ShloMosaic.PureOps.Ideal.Laws
import Idealize.ShloMosaic.Lib.ValueIdx
import Idealize.ShloMosaic.Lib.ValueLayout
import Idealize.ShloMosaic.Lib.Pipeline.Value
set_option maxRecDepth 16384

noncomputable section

open scoped BigOperators

namespace Cert.RefPen

open Cert.ReferenceIdeal Cert.ReferenceIdeal.Gen Cert.ReferenceIdeal.Read
open Idealize.ShloMosaic Idealize.ShloMosaic.TcCoe Idealize.SL.Sem Idealize.ShloMosaic.ValueIdx Cert.Spec
open Cert.RefSeg

variable (x0 : (⟨S262144x1024, .f32⟩ : BufTy).Contents (Elt Ideal)) (x1 : (⟨S262144, .i32⟩ : BufTy).Contents (Elt Ideal))
  (x2 : (⟨S64x1024, .f32⟩ : BufTy).Contents (Elt Ideal))

/-- The index maps of the layout stages at explicit coordinates: entry `d` of a reshape `[1024,1] → [1024]` reads its
operand at row `d`, column `0`; entry `(d, e)` of a broadcast `[1024,1] → [1024,64]` reads the same place; the sum over
axis 1 at `d` reads row `d`, column `k`. -/
private theorem idx33 (d : Fin 1024) : idx_main_v33 (ix1 d) = ix2 d (0 : Fin 1) :=
  funext fun a => Fin.ext (by match a with | ⟨0, _⟩ => exact Nat.div_one _ | ⟨1, _⟩ => rfl)
private theorem idx34 (d : Fin 1024) : idx_main_v34 (ix1 d) = ix2 d (0 : Fin 1) :=
  funext fun a => Fin.ext (by match a with | ⟨0, _⟩ => exact Nat.div_one _ | ⟨1, _⟩ => rfl)
private theorem idx26 (d : Fin 1024) (e : Fin 64) : idx_main_v26 (ix2 d e) = ix2 d (0 : Fin 1) :=
  funext fun a => Fin.ext (by match a with | ⟨0, _⟩ => rfl | ⟨1, _⟩ => rfl)
private theorem idx28 (d : Fin 1024) (e : Fin 64) : idx_main_v28 (ix2 d e) = ix2 d (0 : Fin 1) :=
  funext fun a => Fin.ext (by match a with | ⟨0, _⟩ => rfl | ⟨1, _⟩ => rfl)
private theorem idx32 (d : Fin 1024) (e : Fin 64) : idx_main_v32 (ix1 d) e = ix2 d e :=
  funext fun a => Fin.ext (by match a with | ⟨0, _⟩ => rfl | ⟨1, _⟩ => rfl)

/-- `max(count, 1)` at document `d`: the maximum of the count and the broadcast literal one. -/
private theorem v25_apply (d : Fin 1024) :
    (val_main_v25 (F := Ideal) x1 : S1024x1.Idx → EReal) (ix2 d (0 : Fin 1)) = safeN (cnt (docOf x1)) d := by
  rw [val_main_v25_apply, val_main_v24_apply, val_main_cst_6_apply, v23_apply, Ideal.maximumf_def, Ideal.ofBits_def]
  rfl

/-- The counts as a vector, `max(count, 1)` as a vector, the sums of squared deviations as a vector. -/
theorem v33_eq : (val_main_v33 (F := Ideal) x1 : V1024.Idx → EReal) = vec (cnt (docOf x1)) := by
  funext i
  obtain ⟨d, rfl⟩ : ∃ d : Fin 1024, i = ix1 d := ⟨i 0, eq_ix1 i⟩
  rw [val_main_v33_apply, idx33, v23_apply]
theorem v34_eq : (val_main_v34 (F := Ideal) x1 : V1024.Idx → EReal) = vec (safeN (cnt (docOf x1))) := by
  funext i
  obtain ⟨d, rfl⟩ : ∃ d : Fin 1024, i = ix1 d := ⟨i 0, eq_ix1 i⟩
  rw [val_main_v34_apply, idx34, v25_apply]

/-- The centroid of document `d` for expert `e`: the sum of the weights over `max(count, 1)`. -/
private theorem v27_apply (d : Fin 1024) (e : Fin 64) :
    (val_main_v27 (F := Ideal) x0 x1 x2 : S1024x64.Idx → EReal) (ix2 d e)
      = Ideal.div (S1 (gate x0 x2) (docOf x1) d e) (safeN (cnt (docOf x1)) d) := by
  rw [val_main_v27_apply, val_main_v26_apply, idx26, v25_apply, v14_apply, Ideal.hostDivf_def]

/-- One summand of the sum of squared deviations: `S2 − n · c · c`. -/
private theorem v31_apply (d : Fin 1024) (e : Fin 64) :
    (val_main_v31 (F := Ideal) x0 x1 x2 : S1024x64.Idx → EReal) (ix2 d e)
      = S2 (gate x0 x2) (docOf x1) d e
        - safeN (cnt (docOf x1)) d * Ideal.div (S1 (gate x0 x2) (docOf x1) d e) (safeN (cnt (docOf x1)) d)
          * Ideal.div (S1 (gate x0 x2) (docOf x1) d e) (safeN (cnt (docOf x1)) d) := by
  rw [val_main_v31_apply, val_main_v30_apply, val_main_v29_apply, val_main_v28_apply, idx28, v25_apply, v27_apply,
    v18_apply, Ideal.subf_def, Ideal.mulf_def, Ideal.mulf_def]

theorem v32_eq : (val_main_v32 (F := Ideal) x0 x1 x2 : V1024.Idx → EReal)
    = vec (ssd (S1 (gate x0 x2) (docOf x1)) (S2 (gate x0 x2) (docOf x1)) (cnt (docOf x1))) := by
  funext i
  obtain ⟨d, rfl⟩ : ∃ d : Fin 1024, i = ix1 d := ⟨i 0, eq_ix1 i⟩
  rw [val_main_v32_apply, val_main_cst_7_apply, Ideal.ofBits_def]
  refine congrArg (_ + ·) (Finset.sum_congr rfl fun e _ => ?_)
  rw [idx32, v31_apply]

/-- The reference's last stages are the specification's chain of operations on the three vectors. -/
private theorem v46_tail :
    (val_main_v46 (F := Ideal) x0 x1 x2 : V0.Idx → EReal)
      = tailFn (val_main_v32 (F := Ideal) x0 x1 x2) (val_main_v34 (F := Ideal) x1) (val_main_v33 (F := Ideal) x1) := by
  unfold val_main_v46 val_main_v45 val_main_v44 val_main_v43 val_main_v42 val_main_v41 val_main_v40 val_main_v39
    val_main_v38 val_main_v37 val_main_v36 val_main_v35 val_main_call0_v1 val_main_call0_v0
    val_main_cst_8 val_main_cst_9 val_main_cst_10 val_main_cst_11 val_main_cst_12 val_main_cst_13 tailFn
  generalize val_main_v32 (F := Ideal) x0 x1 x2 = a
  generalize val_main_v34 (F := Ideal) x1 = b
  generalize val_main_v33 (F := Ideal) x1 = c
  rfl

/-- THE REFERENCE'S PENALTY. -/
theorem pen_eq : (val_main_v46 (F := Ideal) x0 x1 x2 : V0.Idx → EReal)
    = penalty (S1 (gate x0 x2) (docOf x1)) (S2 (gate x0 x2) (docOf x1)) (cnt (docOf x1)) := by
  rw [v46_tail, v32_eq, v34_eq, v33_eq]
  rfl

end Cert.RefPen

end
-- ==== Proof.RealMath.lean ====
/-
  Why keeping the sums of squared deviations at or above zero changes nothing.

  With finite inputs every logit is a real number, so every gate weight is a positive real: the exponential of a real over
  a sum of 64 such exponentials.  The three segment sums of a document are then reals, and its count is the number `n`
  of its rows.  For `n ≥ 1`, per expert, `Σ w² − n · (Σ w / n) · (Σ w / n) = Σ w² − (Σ w)² / n ≥ 0` by the Cauchy-Schwarz
  inequality `(Σ w)² ≤ n · Σ w²` over the document's `n` rows; for `n = 0` both sums are zero and the term is `0 − 1 · 0 · 0`.
  So the sum over the experts is never negative, and its maximum with zero is itself.
-/
import proofs.«427083_j32899449487922_3_alg».proof.Proof.Spec
import proofs.«427083_j32899449487922_3_alg».proof.Proof.Consts
import Mathlib.Data.EReal.Operations
import Mathlib.Analysis.SpecialFunctions.Exp
import Mathlib.Algebra.Order.Chebyshev

noncomputable section

open scoped BigOperators

namespace Cert.RealMath

open Idealize.ShloMosaic Idealize.ShloMosaic.ValueIdx Cert.Spec

/-- Every entry of an array is a real number. -/
def AllReal {s : Shape} (x : s.Idx → EReal) : Prop := ∀ i, ∃ r : ℝ, x i = (r : EReal)

/-- The coercion of a finite sum of reals is the sum of the coercions. -/
private theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion of the reals into the extended reals keeps maxima. -/
private theorem coe_max (x y : ℝ) : ((max x y : ℝ) : EReal) = max (x : EReal) (y : EReal) :=
  EReal.coe_strictMono.monotone.map_max

/-- The maximum of a nonempty finite family of reals, folded from minus infinity, is a real. -/
private theorem fold_max_real {ι : Type} [DecidableEq ι] (f : ι → ℝ) (s : Finset ι) (hs : s.Nonempty) :
    ∃ m : ℝ, s.fold max (⊥ : EReal) (fun i => (f i : EReal)) = (m : EReal) := by
  induction s using Finset.induction_on with
  | empty => exact absurd hs (by simp)
  | insert a s ha ih =>
    rw [Finset.fold_insert ha]
    rcases s.eq_empty_or_nonempty with h | h
    · subst h
      exact ⟨f a, by simp⟩
    · obtain ⟨m, hm⟩ := ih h
      exact ⟨max (f a) m, by rw [hm, coe_max]⟩

/-- The maximum of a row of 64 reals is a real. -/
private theorem rowMax_real (l : Fin 64 → ℝ) : ∃ m : ℝ, rowMax (fun e => (l e : EReal)) = (m : EReal) := by
  obtain ⟨m, hm⟩ := fold_max_real l Finset.univ Finset.univ_nonempty
  refine ⟨m, ?_⟩
  unfold rowMax
  rw [Cert.Consts.negInf_eq, hm]
  exact max_eq_right bot_le

/-- With real inputs a gate weight is a positive real. -/
theorem gate_pos_real {N : ℕ} (X : (⟨2, ![N, 1024]⟩ : Shape).Idx → EReal) (Wg : (⟨2, ![64, 1024]⟩ : Shape).Idx → EReal)
    (hX : AllReal X) (hW : AllReal Wg) (n : Fin N) (e : Fin 64) :
    ∃ r : ℝ, 0 < r ∧ gate X Wg n e = (r : EReal) := by
  choose x hx using hX
  choose wg hwg using hW
  -- every logit is the coercion of a real inner product
  have hr : logit X Wg n = fun e' : Fin 64 => ((∑ k : Fin 1024, x (ix2 n k) * wg (ix2 e' k) : ℝ) : EReal) := by
    funext e'
    unfold logit
    rw [coe_sum]
    refine Finset.sum_congr rfl fun k _ => ?_
    rw [hx, hwg, EReal.coe_mul]
  -- so the row's maximum is a real
  obtain ⟨m, hm⟩ := rowMax_real (fun e' : Fin 64 => ∑ k : Fin 1024, x (ix2 n k) * wg (ix2 e' k))
  -- the denominator is a sum of 64 positive reals
  have hs : 0 < ∑ e' : Fin 64, Real.exp ((∑ k : Fin 1024, x (ix2 n k) * wg (ix2 e' k)) - m) :=
    Finset.sum_pos (fun i _ => Real.exp_pos _) Finset.univ_nonempty
  refine ⟨Real.exp ((∑ k : Fin 1024, x (ix2 n k) * wg (ix2 e k)) - m) *
      (1 / ∑ e' : Fin 64, Real.exp ((∑ k : Fin 1024, x (ix2 n k) * wg (ix2 e' k)) - m)),
    mul_pos (Real.exp_pos _) (one_div_pos.mpr hs), ?_⟩
  unfold gate smx
  rw [hr, hm]
  simp only [← EReal.coe_sub, Ideal.exp_coe]
  rw [← coe_sum, Ideal.div_coe hs.ne', ← EReal.coe_mul]

/-- In the reals: from `a² ≤ N · b` with `N > 0`, the difference `b − N · (a / N) · (a / N) = b − a² / N` is not negative. -/
private theorem real_term_nonneg {a b N : ℝ} (hN : 0 < N) (h : a ^ 2 ≤ N * b) :
    0 ≤ b - N * (a * (1 / N)) * (a * (1 / N)) := by
  have e : N * (a * (1 / N)) * (a * (1 / N)) = a ^ 2 / N := by
    field_simp
  rw [e, sub_nonneg, div_le_iff₀ hN]
  linarith

/-- For real weights a document's sum of squared deviations is at least zero. -/
theorem ssd_nonneg (w : Fin 262144 → Fin 64 → EReal) (hw : ∀ n e, ∃ r : ℝ, w n e = (r : EReal))
    (D : Fin 262144 → BitVec 32) (d : Fin 1024) :
    zeroE ≤ ssd (S1 w D) (S2 w D) (cnt D) d := by
  choose a ha using hw
  -- a segment sum of reals is the real sum over the document's rows
  have hseg : ∀ f : Fin 262144 → ℝ, seg D (fun n => (f n : EReal)) d
      = ((∑ n ∈ Finset.univ.filter (fun n => inDoc D d n), f n : ℝ) : EReal) := by
    intro f
    unfold seg
    rw [coe_sum, Finset.sum_filter]
  have h1 : ∀ e, S1 w D d e = ((∑ n ∈ Finset.univ.filter (fun n => inDoc D d n), a n e : ℝ) : EReal) := by
    intro e
    unfold S1
    have hf : (fun n => w n e) = fun n => ((a n e : ℝ) : EReal) := funext fun n => ha n e
    rw [hf]
    exact hseg _
  have h2 : ∀ e, S2 w D d e = ((∑ n ∈ Finset.univ.filter (fun n => inDoc D d n), a n e * a n e : ℝ) : EReal) := by
    intro e
    unfold S2
    have hf : (fun n => w n e * w n e) = fun n => ((a n e * a n e : ℝ) : EReal) :=
      funext fun n => by rw [ha n e, EReal.coe_mul]
    rw [hf]
    exact hseg _
  -- the count is the number of the document's rows
  have hc : cnt D d = (((Finset.univ.filter (fun n => inDoc D d n)).card : ℝ) : EReal) := by
    unfold cnt
    have hf : (fun _ : Fin 262144 => oneE) = fun _ => ((1 : ℝ) : EReal) :=
      funext fun _ => by rw [Cert.Consts.oneE_eq, EReal.coe_one]
    rw [hf, hseg, Finset.sum_const, nsmul_eq_mul, mul_one]
  -- and `max(count, 1)` is a real, at least one and at least the count
  have hsafe : safeN (cnt D) d
      = ((max ((Finset.univ.filter (fun n => inDoc D d n)).card : ℝ) 1 : ℝ) : EReal) := by
    unfold safeN
    rw [hc, Cert.Consts.oneE_eq, ← EReal.coe_one, ← coe_max]
  have hN : (0 : ℝ) < max ((Finset.univ.filter (fun n => inDoc D d n)).card : ℝ) 1 :=
    lt_of_lt_of_le one_pos (le_max_right _ _)
  unfold ssd
  rw [Cert.Consts.zeroE_eq, zero_add]
  refine Finset.sum_nonneg fun e _ => ?_
  rw [h1, h2, hsafe, Ideal.div_coe hN.ne', ← EReal.coe_mul, ← EReal.coe_mul, ← EReal.coe_mul, ← EReal.coe_sub]
  refine EReal.coe_nonneg.mpr (real_term_nonneg hN ?_)
  -- Cauchy-Schwarz over the document's rows, then the count is at most `max(count, 1)` and the sum of squares is not negative
  have hcs := sq_sum_le_card_mul_sum_sq (s := Finset.univ.filter (fun n => inDoc D d n)) (f := fun n => a n e)
  have hsq : (0 : ℝ) ≤ ∑ n ∈ Finset.univ.filter (fun n => inDoc D d n), a n e * a n e :=
    Finset.sum_nonneg fun n _ => mul_self_nonneg _
  have hpow : (∑ n ∈ Finset.univ.filter (fun n => inDoc D d n), a n e ^ 2)
      = ∑ n ∈ Finset.univ.filter (fun n => inDoc D d n), a n e * a n e :=
    Finset.sum_congr rfl fun n _ => pow_two _
  rw [hpow] at hcs
  exact hcs.trans (mul_le_mul_of_nonneg_right (le_max_left _ _) hsq)

/-- So keeping it at or above zero changes nothing, document by document … -/
theorem ssdClamped_eq (w : Fin 262144 → Fin 64 → EReal) (hw : ∀ n e, ∃ r : ℝ, w n e = (r : EReal))
    (D : Fin 262144 → BitVec 32) (d : Fin 1024) :
    ssdClamped (S1 w D) (S2 w D) (cnt D) d = ssd (S1 w D) (S2 w D) (cnt D) d :=
  max_eq_left (ssd_nonneg w hw D d)

/-- … and the two penalties are one. -/
theorem penaltyClamped_eq (X : (⟨2, ![262144, 1024]⟩ : Shape).Idx → EReal) (Wg : (⟨2, ![64, 1024]⟩ : Shape).Idx → EReal)
    (hX : AllReal X) (hW : AllReal Wg) (D : Fin 262144 → BitVec 32) :
    penaltyClamped (S1 (gate X Wg) D) (S2 (gate X Wg) D) (cnt D) = penalty (S1 (gate X Wg) D) (S2 (gate X Wg) D) (cnt D) := by
  have hw : ∀ n e, ∃ r : ℝ, gate X Wg n e = (r : EReal) := fun n e =>
    let ⟨r, _, h⟩ := gate_pos_real X Wg hX hW n e; ⟨r, h⟩
  unfold penaltyClamped penalty
  exact congrArg (fun v => tailFn v _ _) (funext fun i => ssdClamped_eq (gate X Wg) hw D (i 0))

end Cert.RealMath

end
-- ==== Proof.Finite.lean ====
/-
  What the precondition says: every entry of `x` and of the gate matrix is a real number.

  The precondition is the conjunction of two statements "every entry's absolute value is below plus infinity", each an
  `and` over all entries; an extended real whose absolute value is below plus infinity is neither infinity.
-/
import proofs.«427083_j32899449487922_3_alg».proof.Defs
import proofs.«427083_j32899449487922_3_alg».proof.Proof.Gen.Pre_finite_inputs
import proofs.«427083_j32899449487922_3_alg».proof.Proof.RealMath
import proofs.«427083_j32899449487922_3_alg».proof.Proof.Consts
import Idealize.ShloMosaic.Lib.IdealHost
import Idealize.ShloMosaic.Lib.ReduceAll
import Idealize.ShloMosaic.Lib.ValueIdx
set_option maxRecDepth 16384

noncomputable section

open scoped BigOperators

namespace Cert.Finite

open Idealize.ShloMosaic Idealize.ShloMosaic.TcCoe Idealize.SL.Sem Idealize.ShloMosaic.ValueIdx Cert.RealMath

/-- The result shape of a reduction over all axes has exactly one index. -/
private instance : Subsingleton Cert.Pre_finite_inputs.S_.Idx := ⟨fun a b => funext fun d => d.elim0⟩

/-- An extended real whose absolute value `max x (-x)` lies strictly below plus infinity is a real number: at either
infinity the absolute value is plus infinity itself, which is not below plus infinity. -/
private theorem real_of_abs_lt (x : EReal)
    (h : Ideal.cmp .olt (max x (-x)) (Ideal.ofBits .f32 0x7F800000#32) = 1#1) : ∃ r : ℝ, x = (r : EReal) := by
  rw [Cert.Consts.posInf_eq] at h
  induction x using EReal.rec with
  | bot => simp [Ideal.cmp] at h
  | coe r => exact ⟨r, rfl⟩
  | top => simp [Ideal.cmp] at h

/-- Under the precondition every entry of the two float arguments is a real number. -/
theorem allReal_of_pre [hP : Cert.Pre_finite_inputs.Facts]
    (x0 : Cert.KernelIdeal.S262144x1024.Idx → EReal) (x1 : Cert.KernelIdeal.S262144.Idx → BitVec 32)
    (x2 : Cert.KernelIdeal.S64x1024.Idx → EReal)
    (h : Cert.Pre_finite_inputs.fn (F := Ideal) x0 x1 x2 = (fun _ => 1#1)) :
    AllReal x0 ∧ AllReal x2 := by
  -- the one entry of the result, unfolded: the `and` of the two all-reductions
  have h0 := congrFun h ValueIdx.ix0
  dsimp only [Cert.Pre_finite_inputs.fn] at h0
  obtain ⟨ha, hb⟩ := IntOp.andi_eq_one.1 h0
  refine ⟨fun i => ?_, fun i => ?_⟩
  · -- an `and` over all entries that is 1 is 1 at every entry
    have e := Host.reduce_andi_all _ _ _ _ _ ha i
    rw [cmpf_apply, broadcastInDim_scalar_apply, constant_apply] at e
    exact real_of_abs_lt (x0 i) e
  · have e := Host.reduce_andi_all _ _ _ _ _ hb i
    rw [cmpf_apply, broadcastInDim_scalar_apply, constant_apply] at e
    exact real_of_abs_lt (x2 i) e

end Cert.Finite

end
-- ==== Proof.lean ====
/-
  A gate kernel against its reference, over the extended reals.

  Both programs compute, for 262144 rows of `x`, the softmax of the row's 64 logits against the gate matrix (the gate
  weights, the first result) and from them a penalty: per document the sums over its rows of the weights, of their
  squares and of ones; from those the sum of squared deviations by the difference formula; a mean over `max(count, 1) · 64`;
  the sum of the means of the documents with more than one row over the number of documents with any.

  The kernel sums per document by a product with an indicator matrix, block by block of 2048 rows, 64 blocks to each
  of two cores, and adds the two cores' sums on the host; the reference scatters.  Both drop a row whose document
  number is outside `0 … 1023`.  These are one sum, regrouped.  The kernel alone keeps each sum of squared deviations at
  or above zero.  With finite inputs the gate weights are real numbers, and then that sum is never negative (the
  Cauchy-Schwarz inequality over a document's rows), so the two penalties agree.

  The frames of the two kernel programs and the kernel's run are the generated ones; the reference's frame is its run
  with the results dropped; the one recorded rewrite of the idealization is its rule's statement.
-/
import proofs.«427083_j32899449487922_3_alg».proof.Defs
import proofs.«427083_j32899449487922_3_alg».proof.Proof.Gen.Kernel
import proofs.«427083_j32899449487922_3_alg».proof.Proof.Gen.Kernel.Frame
import proofs.«427083_j32899449487922_3_alg».proof.Proof.Gen.KernelIdeal
import proofs.«427083_j32899449487922_3_alg».proof.Proof.Gen.KernelIdeal.Frame
import proofs.«427083_j32899449487922_3_alg».proof.Proof.Gen.ReferenceIdeal
import proofs.«427083_j32899449487922_3_alg».proof.Proof.Gen.Pre_finite_inputs
import proofs.«427083_j32899449487922_3_alg».proof.Proof.KRun
import proofs.«427083_j32899449487922_3_alg».proof.Proof.RefW
import proofs.«427083_j32899449487922_3_alg».proof.Proof.RefPen
import proofs.«427083_j32899449487922_3_alg».proof.Proof.RealMath
import proofs.«427083_j32899449487922_3_alg».proof.Proof.Finite
import Idealize.ShloMosaic.Adequacy
import Idealize.ShloMosaic.Init

noncomputable section

namespace Cert.Proof

open Idealize.ShloMosaic Idealize.ShloMosaic.TcCoe Idealize.SL.Sem Cert.Spec

section Claims

variable [hKernel : Cert.Kernel.Facts] [hKernelIdeal : Cert.KernelIdeal.Facts] [hReferenceIdeal : Cert.ReferenceIdeal.Facts]
  [hPre : Cert.Pre_finite_inputs.Facts]

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The one recorded rewrite: a value narrowed to bf16 and widened back is itself at the extended reals. -/
theorem preserves : Cert.preserves_Kernel_KernelIdeal :=
  IdealRules.truncf_extf.statement Cert.KernelIdeal.S1024x2048 .f32 .bf16

/-- From memories that agree on the arguments both programs end with every row's gate weights in the first result and
    one penalty in the second: the kernel's over sums of squared deviations kept at or above zero, the reference's over
    the sums as they are, equal because the inputs are finite. -/
theorem algebraic : Cert.algebraic_KernelIdeal_ReferenceIdeal := by
  intro m ρ m' ρ' hpre hagree
  refine ⟨_, _, Cert.KernelIdeal.Run.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v11_eq, (hagree c).1, (hagree c).2.2]
    exact Cert.RefW.w_eq _ _
  · obtain ⟨hX, hW⟩ := Cert.Finite.allReal_of_pre _ _ _ (hpre c)
    rw [(h c).2.1, Cert.ReferenceIdeal.Read.val_main_v46_eq, (hagree c).1, (hagree c).2.1, (hagree c).2.2]
    exact (Cert.RefPen.pen_eq _ _ _).trans (Cert.RealMath.penaltyClamped_eq _ _ hX hW _).symm

end Claims

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
